-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v17_0)) (v2 : (c : Dev Cert.KernelIdeal.nD) → Buf (Elt Ideal) ((c.tc : Thread Cert.KernelIdeal.nD Cert.KernelIdeal.τ).loc Cert.KernelIdeal.main_v17_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v17_0) = v1 c
          ∧ r.2.mem ((c.tc : Thread Cert.KernelIdeal.nD Cert.KernelIdeal.τ).loc Cert.KernelIdeal.main_v17_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1650000 : Shape := ⟨1, ![1650000]⟩
abbrev S50000x16 : Shape := ⟨2, ![50000, 16]⟩
abbrev S128x32 : Shape := ⟨2, ![128, 32]⟩
abbrev S32x16 : Shape := ⟨2, ![32, 16]⟩
abbrev S16x32 : Shape := ⟨2, ![16, 32]⟩
abbrev S32x128 : Shape := ⟨2, ![32, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1650000 : S_.BroadcastsInDim S1650000 (![] : Fin 0 → Fin S1650000.rank)
  reducesTo_S1650000_S_d0 : S1650000.ReducesTo [0] S_
  bcast_S_S50000x16 : S_.BroadcastsInDim S50000x16 (![] : Fin 0 → Fin S50000x16.rank)
  reducesTo_S50000x16_S_d0_1 : S50000x16.ReducesTo [0, 1] S_
  bcast_S_S128x32 : S_.BroadcastsInDim S128x32 (![] : Fin 0 → Fin S128x32.rank)
  reducesTo_S128x32_S_d0_1 : S128x32.ReducesTo [0, 1] S_
  bcast_S_S32x16 : S_.BroadcastsInDim S32x16 (![] : Fin 0 → Fin S32x16.rank)
  reducesTo_S32x16_S_d0_1 : S32x16.ReducesTo [0, 1] S_
  bcast_S_S16x32 : S_.BroadcastsInDim S16x32 (![] : Fin 0 → Fin S16x32.rank)
  reducesTo_S16x32_S_d0_1 : S16x32.ReducesTo [0, 1] S_
  bcast_S_S32x128 : S_.BroadcastsInDim S32x128 (![] : Fin 0 → Fin S32x128.rank)
  reducesTo_S32x128_S_d0_1 : S32x128.ReducesTo [0, 1] S_

variable [Facts]

def fn_part2 {F : FTy → Type} [FloatOps F] (main_arg1 : IVec S1650000 32) (main_arg9 : FVec F S32x128 .f32) (main_v33 : IVec S_ 1) : IVec S_ 1 :=
  let main_v34 : FVec F S32x128 .f32 := Host.absf main_arg9
  let main_cst_12 : FVec F S_ .f32 := constant S_ .f32 0x7F800000#32
  let main_v35 : FVec F S32x128 .f32 := broadcastInDim S32x128 ![] bcast_S_S32x128 main_cst_12
  let main_v36 : IVec S32x128 1 := cmpf .olt main_v34 main_v35
  let main_c_13 : IVec S_ 1 := constantI S_ 1 1#1
  let main_v37 : IVec S_ 1 := (fun x v => Host.reduce IntOp.andi x v reducesTo_S32x128_S_d0_1 h_S_) main_v36 main_c_13
  let main_v38 : IVec S_ 1 := andi main_v33 main_v37
  let main_c_14 : IVec S_ 32 := constantI S_ 32 0#32
  let main_v39 : IVec S1650000 32 := broadcastInDim S1650000 ![] bcast_S_S1650000 main_c_14
  let main_v40 : IVec S1650000 1 := cmpi .sge main_arg1 main_v39
  let main_c_15 : IVec S_ 32 := constantI S_ 32 50000#32
  let main_v41 : IVec S1650000 32 := broadcastInDim S1650000 ![] bcast_S_S1650000 main_c_15
  let main_v42 : IVec S1650000 1 := cmpi .slt main_arg1 main_v41
  let main_v43 : IVec S1650000 1 := andi main_v40 main_v42
  let main_c_16 : IVec S_ 1 := constantI S_ 1 1#1
  let main_v44 : IVec S_ 1 := (fun x v => Host.reduce IntOp.andi x v reducesTo_S1650000_S_d0 h_S_) main_v43 main_c_16
  let main_v45 : IVec S_ 1 := andi main_v38 main_v44
  main_v45

def fn_part1 {F : FTy → Type} [FloatOps F] (main_arg1 : IVec S1650000 32) (main_arg6 : FVec F S32x16 .f32) (main_arg7 : FVec F S32x16 .f32) (main_arg8 : FVec F S16x32 .f32) (main_arg9 : FVec F S32x128 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32x16 .f32 := Host.absf main_arg6
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S32x16 .f32 := Host.absf main_arg7
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16x32 .f32 := Host.absf main_arg8
  let main_cst_10 : FVec F S_ .f32 := constant S_ .f32 0x7F800000#32
  let main_v30 : FVec F S16x32 .f32 := broadcastInDim S16x32 ![] bcast_S_S16x32 main_cst_10
  let main_v31 : IVec S16x32 1 := cmpf .olt main_v29 main_v30
  let main_c_11 : IVec S_ 1 := constantI S_ 1 1#1
  let main_v32 : IVec S_ 1 := (fun x v => Host.reduce IntOp.andi x v reducesTo_S16x32_S_d0_1 h_S_) main_v31 main_c_11
  let main_v33 : IVec S_ 1 := andi main_v28 main_v32
  fn_part2 (F := F) main_arg1 main_arg9 main_v33

def fn {F : FTy → Type} [FloatOps F] (main_arg0 : FVec F S50000x128 .f32) (main_arg1 : IVec S1650000 32) (main_arg2 : IVec S1650000 32) (main_arg3 : FVec F S1650000 .f32) (main_arg4 : FVec F S50000x16 .f32) (main_arg5 : FVec F S128x32 .f32) (main_arg6 : FVec F S32x16 .f32) (main_arg7 : FVec F S32x16 .f32) (main_arg8 : FVec F S16x32 .f32) (main_arg9 : FVec F S32x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1650000 .f32 := Host.absf main_arg3
  let main_cst_0 : FVec F S_ .f32 := constant S_ .f32 0x7F800000#32
  let main_v5 : FVec F S1650000 .f32 := broadcastInDim S1650000 ![] bcast_S_S1650000 main_cst_0
  let main_v6 : IVec S1650000 1 := cmpf .olt main_v4 main_v5
  let main_c_1 : IVec S_ 1 := constantI S_ 1 1#1
  let main_v7 : IVec S_ 1 := (fun x v => Host.reduce IntOp.andi x v reducesTo_S1650000_S_d0 h_S_) main_v6 main_c_1
  let main_v8 : IVec S_ 1 := andi main_v3 main_v7
  let main_v9 : FVec F S50000x16 .f32 := Host.absf main_arg4
  let main_cst_2 : FVec F S_ .f32 := constant S_ .f32 0x7F800000#32
  let main_v10 : FVec F S50000x16 .f32 := broadcastInDim S50000x16 ![] bcast_S_S50000x16 main_cst_2
  let main_v11 : IVec S50000x16 1 := cmpf .olt main_v9 main_v10
  let main_c_3 : IVec S_ 1 := constantI S_ 1 1#1
  let main_v12 : IVec S_ 1 := (fun x v => Host.reduce IntOp.andi x v reducesTo_S50000x16_S_d0_1 h_S_) main_v11 main_c_3
  let main_v13 : IVec S_ 1 := andi main_v8 main_v12
  let main_v14 : FVec F S128x32 .f32 := Host.absf main_arg5
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg1 main_arg6 main_arg7 main_arg8 main_arg9 main_v13 main_v16
-- ==== Kernel.lean ====
abbrev S50000x128 : Shape := ⟨2, ![50000, 128]⟩
abbrev S1650000 : Shape := ⟨1, ![1650000]⟩
abbrev S50000x16 : Shape := ⟨2, ![50000, 16]⟩
abbrev S128x32 : Shape := ⟨2, ![128, 32]⟩
abbrev S32x16 : Shape := ⟨2, ![32, 16]⟩
abbrev S16x32 : Shape := ⟨2, ![16, 32]⟩
abbrev S32x128 : Shape := ⟨2, ![32, 128]⟩
abbrev S50000x32 : Shape := ⟨2, ![50000, 32]⟩
abbrev S5000x128 : Shape := ⟨2, ![5000, 128]⟩
abbrev S5000x32 : Shape := ⟨2, ![5000, 32]⟩
abbrev S_ : Shape := ⟨0, ![]⟩
abbrev S1650000x1 : Shape := ⟨2, ![1650000, 1]⟩
abbrev S1 : Shape := ⟨1, ![1]⟩
abbrev S1x1 : Shape := ⟨2, ![1, 1]⟩
abbrev S1650000x32 : Shape := ⟨2, ![1650000, 32]⟩
abbrev S32x32 : Shape := ⟨2, ![32, 32]⟩
abbrev S5000x16 : Shape := ⟨2, ![5000, 16]⟩
abbrev S1650000x128 : Shape := ⟨2, ![1650000, 128]⟩

abbrev nBuf : Space → Nat
  | .hbm => 139
  | .vmem => 34
  | .smem => 0
  | _ => 0

abbrev hbmTy0_0 (i : Nat) : BufTy := match i % 128 with
  | 0 => ⟨S50000x128, .f32⟩
  | 1 => ⟨S1650000, .i32⟩
  | 2 => ⟨S1650000, .i32⟩
  | 3 => ⟨S1650000, .f32⟩
  | 4 => ⟨S50000x16, .f32⟩
  | 5 => ⟨S128x32, .f32⟩
  | 6 => ⟨S32x16, .f32⟩
  | 7 => ⟨S32x16, .f32⟩
  | 8 => ⟨S16x32, .f32⟩
  | 9 => ⟨S32x128, .f32⟩
  | 10 => ⟨S50000x32, .f32⟩
  | 11 => ⟨S_, .i32⟩
  | 12 => ⟨S1650000, .i32⟩
  | 13 => ⟨S1650000, .i1⟩
  | 14 => ⟨S_, .i32⟩
  | 15 => ⟨S1650000, .i32⟩
  | 16 => ⟨S1650000, .i32⟩
  | 17 => ⟨S1650000, .i32⟩
  | 18 => ⟨S1650000x1, .i32⟩
  | 19 => ⟨S1, .i32⟩
  | 20 => ⟨S_, .i32⟩
  | 21 => ⟨S1650000x1, .i32⟩
  | 22 => ⟨S1650000x1, .i1⟩
  | 23 => ⟨S1x1, .i32⟩
  | 24 => ⟨S1650000x1, .i32⟩
  | 25 => ⟨S1650000x1, .i1⟩
  | 26 => ⟨S1650000x1, .i1⟩
  | 27 => ⟨S_, .i1⟩
  | 28 => ⟨S1650000, .i1⟩
  | 29 => ⟨S1650000x32, .f32⟩
  | 30 => ⟨S1650000x32, .i1⟩
  | 31 => ⟨S_, .f32⟩
  | 32 => ⟨S1650000x32, .f32⟩
  | 33 => ⟨S1650000x32, .f32⟩
  | 34 => ⟨S1650000x1, .f32⟩
  | 35 => ⟨S1650000x32, .f32⟩
  | 36 => ⟨S1650000x32, .f32⟩
  | 37 => ⟨S_, .f32⟩
  | 38 => ⟨S50000x32, .f32⟩
  | 39 => ⟨S1650000x1, .i32⟩
  | 40 => ⟨S50000x32, .f32⟩
  | 41 => ⟨S32x32, .f32⟩
  | 42 => ⟨S50000x32, .f32⟩
  | 43 => ⟨S_, .i32⟩
  | 44 => ⟨S1650000, .i32⟩
  | 45 => ⟨S1650000, .i1⟩
  | 46 => ⟨S_, .i32⟩
  | 47 => ⟨S1650000, .i32⟩
  | 48 => ⟨S1650000, .i32⟩
  | 49 => ⟨S1650000, .i32⟩
  | 50 => ⟨S1650000x1, .i32⟩
  | 51 => ⟨S1, .i32⟩
  | 52 => ⟨S_, .i32⟩
  | 53 => ⟨S1650000x1, .i32⟩
  | 54 => ⟨S1650000x1, .i1⟩
  | 55 => ⟨S1x1, .i32⟩
  | 56 => ⟨S1650000x1, .i32⟩
  | 57 => ⟨S1650000x1, .i1⟩
  | 58 => ⟨S1650000x1, .i1⟩
  | 59 => ⟨S_, .i1⟩
  | 60 => ⟨S1650000, .i1⟩
  | 61 => ⟨S1650000x32, .f32⟩
  | 62 => ⟨S1650000x32, .i1⟩
  | 63 => ⟨S_, .f32⟩
  | 64 => ⟨S1650000x32, .f32⟩
  | 65 => ⟨S1650000x32, .f32⟩
  | 66 => ⟨S1650000x1, .f32⟩
  | 67 => ⟨S1650000x32, .f32⟩
  | 68 => ⟨S1650000x32, .f32⟩
  | 69 => ⟨S_, .f32⟩
  | 70 => ⟨S50000x32, .f32⟩
  | 71 => ⟨S1650000x1, .i32⟩
  | 72 => ⟨S50000x32, .f32⟩
  | 73 => ⟨S50000x16, .f32⟩
  | 74 => ⟨S50000x16, .f32⟩
  | 75 => ⟨S50000x16, .f32⟩
  | 76 => ⟨S50000x32, .f32⟩
  | 77 => ⟨S_, .i32⟩
  | 78 => ⟨S1650000, .i32⟩
  | 79 => ⟨S1650000, .i1⟩
  | 80 => ⟨S_, .i32⟩
  | 81 => ⟨S1650000, .i32⟩
  | 82 => ⟨S1650000, .i32⟩
  | 83 => ⟨S1650000, .i32⟩
  | 84 => ⟨S1650000x1, .i32⟩
  | 85 => ⟨S1, .i32⟩
  | 86 => ⟨S_, .i32⟩
  | 87 => ⟨S1650000x1, .i32⟩
  | 88 => ⟨S1650000x1, .i1⟩
  | 89 => ⟨S1x1, .i32⟩
  | 90 => ⟨S1650000x1, .i32⟩
  | 91 => ⟨S1650000x1, .i1⟩
  | 92 => ⟨S1650000x1, .i1⟩
  | 93 => ⟨S_, .i1⟩
  | 94 => ⟨S1650000, .i1⟩
  | 95 => ⟨S1650000x32, .f32⟩
  | 96 => ⟨S1650000x32, .i1⟩
  | 97 => ⟨S_, .f32⟩
  | 98 => ⟨S1650000x32, .f32⟩
  | 99 => ⟨S1650000x32, .f32⟩
  | 100 => ⟨S1650000x1, .f32⟩
  | 101 => ⟨S1650000x32, .f32⟩
  | 102 => ⟨S1650000x32, .f32⟩
  | 103 => ⟨S_, .f32⟩
  | 104 => ⟨S50000x32, .f32⟩
  | 105 => ⟨S1650000x1, .i32⟩
  | 106 => ⟨S50000x32, .f32⟩
  | 107 => ⟨S50000x128, .f32⟩
  | 108 => ⟨S_, .i32⟩
  | 109 => ⟨S1650000, .i32⟩
  | 110 => ⟨S1650000, .i1⟩
  | 111 => ⟨S_, .i32⟩
  | 112 => ⟨S1650000, .i32⟩
  | 113 => ⟨S1650000, .i32⟩
  | 114 => ⟨S1650000, .i32⟩
  | 115 => ⟨S1650000x1, .i32⟩
  | 116 => ⟨S1, .i32⟩
  | 117 => ⟨S_, .i32⟩
  | 118 => ⟨S1650000x1, .i32⟩
  | 119 => ⟨S1650000x1, .i1⟩
  | 120 => ⟨S1x1, .i32⟩
  | 121 => ⟨S1650000x1, .i32⟩
  | 122 => ⟨S1650000x1, .i1⟩
  | 123 => ⟨S1650000x1, .i1⟩
  | 124 => ⟨S_, .i1⟩
  | 125 => ⟨S1650000, .i1⟩
  | 126 => ⟨S1650000x128, .f32⟩
  | 127 => ⟨S1650000x128, .i1⟩
  | _ => ⟨S50000x128, .f32⟩

abbrev hbmTy0_1 (i : Nat) : BufTy := match i % 128 with
  | 0 => ⟨S_, .f32⟩
  | 1 => ⟨S1650000x128, .f32⟩
  | 2 => ⟨S1650000x128, .f32⟩
  | 3 => ⟨S1650000x1, .f32⟩
  | 4 => ⟨S1650000x128, .f32⟩
  | 5 => ⟨S1650000x128, .f32⟩
  | 6 => ⟨S_, .f32⟩
  | 7 => ⟨S50000x128, .f32⟩
  | 8 => ⟨S1650000x1, .i32⟩
  | 9 => ⟨S50000x128, .f32⟩
  | 10 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S32x32, .f32⟩
  | .local _ .vmem, ⟨8, _⟩ => ⟨S5000x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x16, .f32⟩
  | .local _ .vmem, ⟨13, _⟩ => ⟨S5000x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S5000x16, .f32⟩
  | .local _ .vmem, ⟨18, _⟩ => ⟨S5000x16, .f32⟩
  | .local _ .vmem, ⟨19, _⟩ => ⟨S5000x16, .f32⟩
  | .local _ .vmem, ⟨20, _⟩ => ⟨S5000x16, .f32⟩
  | .local _ .vmem, ⟨21, _⟩ => ⟨S5000x16, .f32⟩
  | .local _ .vmem, ⟨22, _⟩ => ⟨S16x32, .f32⟩
  | .local _ .vmem, ⟨23, _⟩ => ⟨S5000x32, .f32⟩
  | .local _ .vmem, ⟨24, _⟩ => ⟨S5000x32, .f32⟩
  | .local _ .vmem, ⟨25, _⟩ => ⟨S5000x32, .f32⟩
  | .local _ .vmem, ⟨26, _⟩ => ⟨S5000x32, .f32⟩
  | .local _ .vmem, ⟨27, _⟩ => ⟨S32x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_cst : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v10 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_cst_0 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17_0 : Ref sig .tc := ⟨.hbm, 73, rfl⟩
abbrev main_v17_1 : Ref sig .tc := ⟨.hbm, 74, rfl⟩
abbrev main_v17_2 : Ref sig .tc := ⟨.hbm, 75, rfl⟩
abbrev main_v18 : Ref sig .tc := ⟨.hbm, 76, rfl⟩
abbrev main_call2_c : Ref sig .tc := ⟨.hbm, 77, rfl⟩
abbrev main_call2_v0 : Ref sig .tc := ⟨.hbm, 78, rfl⟩
abbrev main_call2_v1 : Ref sig .tc := ⟨.hbm, 79, rfl⟩
abbrev main_call2_c_0 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_c_1 : Ref sig .tc := ⟨.hbm, 85, rfl⟩
abbrev main_call2_c_2 : Ref sig .tc := ⟨.hbm, 86, rfl⟩
abbrev main_call2_v6 : Ref sig .tc := ⟨.hbm, 87, rfl⟩
abbrev main_call2_v7 : Ref sig .tc := ⟨.hbm, 88, rfl⟩
abbrev main_call2_v8 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_c_3 : Ref sig .tc := ⟨.hbm, 93, rfl⟩
abbrev main_call2_v12 : Ref sig .tc := ⟨.hbm, 94, rfl⟩
abbrev main_call2_v13 : Ref sig .tc := ⟨.hbm, 95, rfl⟩
abbrev main_call2_v14 : Ref sig .tc := ⟨.hbm, 96, rfl⟩
abbrev main_call2_cst : Ref sig .tc := ⟨.hbm, 97, rfl⟩
abbrev main_call2_v15 : Ref sig .tc := ⟨.hbm, 98, rfl⟩
abbrev main_v19 : Ref sig .tc := ⟨.hbm, 99, rfl⟩
abbrev main_v20 : Ref sig .tc := ⟨.hbm, 100, rfl⟩
abbrev main_v21 : Ref sig .tc := ⟨.hbm, 101, rfl⟩
abbrev main_v22 : Ref sig .tc := ⟨.hbm, 102, rfl⟩
abbrev main_cst_1 : Ref sig .tc := ⟨.hbm, 103, rfl⟩
abbrev main_v23 : Ref sig .tc := ⟨.hbm, 104, rfl⟩
abbrev main_v24 : Ref sig .tc := ⟨.hbm, 105, rfl⟩
abbrev main_v25 : Ref sig .tc := ⟨.hbm, 106, rfl⟩
abbrev main_v26 : Ref sig .tc := ⟨.hbm, 107, rfl⟩
abbrev main_call3_c : Ref sig .tc := ⟨.hbm, 108, rfl⟩
abbrev main_call3_v0 : Ref sig .tc := ⟨.hbm, 109, rfl⟩
abbrev main_call3_v1 : Ref sig .tc := ⟨.hbm, 110, rfl⟩
abbrev main_call3_c_0 : Ref sig .tc := ⟨.hbm, 111, rfl⟩
abbrev main_call3_v2 : Ref sig .tc := ⟨.hbm, 112, rfl⟩
abbrev main_call3_v3 : Ref sig .tc := ⟨.hbm, 113, rfl⟩
abbrev main_call3_v4 : Ref sig .tc := ⟨.hbm, 114, rfl⟩
abbrev main_call3_v5 : Ref sig .tc := ⟨.hbm, 115, rfl⟩
abbrev main_call3_c_1 : Ref sig .tc := ⟨.hbm, 116, rfl⟩
abbrev main_call3_c_2 : Ref sig .tc := ⟨.hbm, 117, rfl⟩
abbrev main_call3_v6 : Ref sig .tc := ⟨.hbm, 118, rfl⟩
abbrev main_call3_v7 : Ref sig .tc := ⟨.hbm, 119, rfl⟩
abbrev main_call3_v8 : Ref sig .tc := ⟨.hbm, 120, rfl⟩
abbrev main_call3_v9 : Ref sig .tc := ⟨.hbm, 121, rfl⟩
abbrev main_call3_v10 : Ref sig .tc := ⟨.hbm, 122, rfl⟩
abbrev main_call3_v11 : Ref sig .tc := ⟨.hbm, 123, rfl⟩
abbrev main_call3_c_3 : Ref sig .tc := ⟨.hbm, 124, rfl⟩
abbrev main_call3_v12 : Ref sig .tc := ⟨.hbm, 125, rfl⟩
abbrev main_call3_v13 : Ref sig .tc := ⟨.hbm, 126, rfl⟩
abbrev main_call3_v14 : Ref sig .tc := ⟨.hbm, 127, rfl⟩
abbrev main_call3_cst : Ref sig .tc := ⟨.hbm, 128, rfl⟩
abbrev main_call3_v15 : Ref sig .tc := ⟨.hbm, 129, rfl⟩
abbrev main_v27 : Ref sig .tc := ⟨.hbm, 130, rfl⟩
abbrev main_v28 : Ref sig .tc := ⟨.hbm, 131, rfl⟩
abbrev main_v29 : Ref sig .tc := ⟨.hbm, 132, rfl⟩
abbrev main_v30 : Ref sig .tc := ⟨.hbm, 133, rfl⟩
abbrev main_cst_2 : Ref sig .tc := ⟨.hbm, 134, rfl⟩
abbrev main_v31 : Ref sig .tc := ⟨.hbm, 135, rfl⟩
abbrev main_v32 : Ref sig .tc := ⟨.hbm, 136, rfl⟩
abbrev main_v33 : Ref sig .tc := ⟨.hbm, 137, rfl⟩
abbrev main_v34 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S5000x32_S5000x32_0_0 : ∀ a, (![0, 0] : Fin 2 → Nat) a + S5000x32.size a ≤ S5000x32.size a
  h_S5000x32 : 0 < S5000x32.numel
  bcast_S_S1650000 : S_.BroadcastsInDim S1650000 (![] : Fin 0 → Fin S1650000.rank)
  bcast_S1650000_S1650000x1_0 : S1650000.BroadcastsInDim S1650000x1 (![0] : Fin 1 → Fin S1650000x1.rank)
  bcast_S_S1650000x1 : S_.BroadcastsInDim S1650000x1 (![] : Fin 0 → Fin S1650000x1.rank)
  bcast_S1_S1x1_1 : S1.BroadcastsInDim S1x1 (![1] : Fin 1 → Fin S1x1.rank)
  bcast_S1x1_S1650000x1_0_1 : S1x1.BroadcastsInDim S1650000x1 (![0, 1] : Fin 2 → Fin S1650000x1.rank)
  reducesTo_S1650000x1_S1650000_d1 : S1650000x1.ReducesTo [1] S1650000
  h_S_ : 0 < S_.numel
  bcast_S1650000_S1650000x32_0 : S1650000.BroadcastsInDim S1650000x32 (![0] : Fin 1 → Fin S1650000x32.rank)
  bcast_S_S1650000x32 : S_.BroadcastsInDim S1650000x32 (![] : Fin 0 → Fin S1650000x32.rank)
  bcast_S1650000x1_S1650000x32_0_1 : S1650000x1.BroadcastsInDim S1650000x32 (![0, 1] : Fin 2 → Fin S1650000x32.rank)
  bcast_S_S50000x32 : S_.BroadcastsInDim S50000x32 (![] : Fin 0 → Fin S50000x32.rank)
  concatenates_S32x16_S32x16_S32x32_d1 : Shape.Concatenates [S32x16, S32x16] S32x32 1
  shapeCasts_S5000x32_S5000x32 : S5000x32.ShapeCasts S5000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  slices_S5000x32_o0_0_S5000x16 : S5000x32.Slices ![0, 0] S5000x16
  slices_S5000x32_o0_16_S5000x16 : S5000x32.Slices ![0, 16] S5000x16
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  inb_S16x32_S16x32_0_0 : ∀ a, (![0, 0] : Fin 2 → Nat) a + S16x32.size a ≤ S16x32.size a
  h_S16x32 : 0 < S16x32.numel
  inb_S32x128_S32x128_0_0 : ∀ a, (![0, 0] : Fin 2 → Nat) a + S32x128.size a ≤ S32x128.size a
  h_S32x128 : 0 < S32x128.numel
  bcast_S1650000_S1650000x128_0 : S1650000.BroadcastsInDim S1650000x128 (![0] : Fin 1 → Fin S1650000x128.rank)
  bcast_S_S1650000x128 : S_.BroadcastsInDim S1650000x128 (![] : Fin 0 → Fin S1650000x128.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S5000x128_S5000x128 : S5000x128.ShapeCasts S5000x128
  dot_S5000x128_S128x32_S5000x32_1_0_0_1_n_n_wf : DotDims.WF S5000x128 S128x32 S5000x32 [1] [0] [0] [1] [] []
  gather_S50000x32_S1650000x1_S1650000x32_1_0_n_n_0_1_132_wf : GatherDims.WF S50000x32 S1650000x1 S1650000x32 [1] [0] [] [0] [] 1 ![1, 32]
  scatter_S50000x32_S1650000x1_S1650000x32_1_0_0_1_wf : ScatterDims.WF S50000x32 S1650000x1 S1650000x32 [1] [0] [0] 1
  dot_S5000x32_S32x32_S5000x32_1_0_0_1_n_n_wf : DotDims.WF S5000x32 S32x32 S5000x32 [1] [0] [0] [1] [] []
  dot_S5000x16_S16x32_S5000x32_1_0_0_1_n_n_wf : DotDims.WF S5000x16 S16x32 S5000x32 [1] [0] [0] [1] [] []
  dot_S5000x32_S32x128_S5000x128_1_0_0_1_n_n_wf : DotDims.WF S5000x32 S32x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S50000x32.size a
  hwx0_2 : ∀ i : grid0.Coords, EltTy.bits .f32 = 32 ∨ (Rect.block (s := S50000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S50000x32.size a
  hwx1_0 : ∀ i : grid1.Coords, EltTy.bits .f32 = 32 ∨ (Rect.block (s := S50000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x32.size a ≤ S32x32.size a
  hwx1_1 : ∀ i : grid1.Coords, EltTy.bits .f32 = 32 ∨ (Rect.block (s := S32x32) S32x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S50000x32.size a
  hwx1_2 : ∀ i : grid1.Coords, EltTy.bits .f32 = 32 ∨ (Rect.block (s := S50000x32) S5000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S50000x32.size a
  hwx2_0 : ∀ i : grid2.Coords, EltTy.bits .f32 = 32 ∨ (Rect.block (s := S50000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x16.size a ≤ S50000x16.size a
  hwx2_1 : ∀ i : grid2.Coords, EltTy.bits .f32 = 32 ∨ (Rect.block (s := S50000x16) S5000x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S50000x16.size a
  hwx2_2 : ∀ i : grid2.Coords, EltTy.bits .f32 = 32 ∨ (Rect.block (s := S50000x16) S5000x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x16.size a ≤ S50000x16.size a
  hwx2_3 : ∀ i : grid2.Coords, EltTy.bits .f32 = 32 ∨ (Rect.block (s := S50000x16) S5000x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x16.size a ≤ S50000x16.size a
  hwx2_4 : ∀ i : grid2.Coords, EltTy.bits .f32 = 32 ∨ (Rect.block (s := S50000x16) S5000x16.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S50000x16.size a
  hwx3_0 : ∀ i : grid3.Coords, EltTy.bits .f32 = 32 ∨ (Rect.block (s := S50000x16) S5000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x32.size a ≤ S16x32.size a
  hwx3_1 : ∀ i : grid3.Coords, EltTy.bits .f32 = 32 ∨ (Rect.block (s := S16x32) S16x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S50000x32.size a
  hwx3_2 : ∀ i : grid3.Coords, EltTy.bits .f32 = 32 ∨ (Rect.block (s := S50000x32) S5000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S50000x32.size a
  hwx4_0 : ∀ i : grid4.Coords, EltTy.bits .f32 = 32 ∨ (Rect.block (s := S50000x32) S5000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x128.size a ≤ S32x128.size a
  hwx4_1 : ∀ i : grid4.Coords, EltTy.bits .f32 = 32 ∨ (Rect.block (s := S32x128) S32x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)

variable [Facts₀]

def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S50000x32_S1650000x1_S1650000x32_1_0_n_n_0_1_132 : GatherDims S50000x32 S1650000x1 S1650000x32 where
  offsetDims := [1]
  collapsedSliceDims := [0]
  operandBatchingDims := []
  startIndicesBatchingDims := []
  startIndexMap := [0]
  indexVectorDim := 1
  sliceSizes := ![1, 32]
  wf := gather_S50000x32_S1650000x1_S1650000x32_1_0_n_n_0_1_132_wf
def scatter_S50000x32_S1650000x1_S1650000x32_1_0_0_1 : ScatterDims S50000x32 S1650000x1 S1650000x32 where
  updateWindowDims := [1]
  insertedWindowDims := [0]
  scatterDimsToOperandDims := [0]
  indexVectorDim := 1
  wf := scatter_S50000x32_S1650000x1_S1650000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x16_S16x32_S5000x32_1_0_0_1_n_n : DotDims S5000x16 S16x32 S5000x32 where
  lhsContracting := [1]
  rhsContracting := [0]
  lhsNonContracting := [0]
  rhsNonContracting := [1]
  lhsBatch := []
  rhsBatch := []
  wf := dot_S5000x16_S16x32_S5000x32_1_0_0_1_n_n_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S32x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S5000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v16) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S5000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17_0) S5000x16.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v17_1) S5000x16.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v17_2) S5000x16.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v17_2) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S16x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v18) S5000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v25) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S32x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v26) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v33) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v34) S5000x128.size cc5_transform_1 reads5_1 true false 2 stage5_1 sem5_1
    hrank5 hreads5_1 hinb5_1 nbuf5_1 (Memref.isWhole_whole _) hwx5_1 hstage5_1

abbrev win5 : Fin 2 → Pipeline.Window sig grid5 := fun | 0 => win5_0 | 1 => win5_1 | ⟨_ + 2, h⟩ => absurd h (Nat.not_lt.2 (Nat.le_add_left _ _))
abbrev spec5 : Fin 2 → Pipeline.WinSpec sig grid5.rank := fun w => (win5 w).toWinSpec

class Facts : Prop extends Facts₀ where

variable [Facts]
-- ==== ReferenceIdeal.lean ====
abbrev S50000x128 : Shape := ⟨2, ![50000, 128]⟩
abbrev S1650000 : Shape := ⟨1, ![1650000]⟩
abbrev S50000x16 : Shape := ⟨2, ![50000, 16]⟩
abbrev S128x32 : Shape := ⟨2, ![128, 32]⟩
abbrev S32x16 : Shape := ⟨2, ![32, 16]⟩
abbrev S16x32 : Shape := ⟨2, ![16, 32]⟩
abbrev S32x128 : Shape := ⟨2, ![32, 128]⟩
abbrev S50000x32 : Shape := ⟨2, ![50000, 32]⟩
abbrev S1650000x1 : Shape := ⟨2, ![1650000, 1]⟩
abbrev S_ : Shape := ⟨0, ![]⟩
abbrev S1650000x32 : Shape := ⟨2, ![1650000, 32]⟩
abbrev S1650000x16 : Shape := ⟨2, ![1650000, 16]⟩
abbrev S1650000x128 : Shape := ⟨2, ![1650000, 128]⟩

abbrev nBuf : Space → Nat
  | .hbm => 124
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1650000, .i32⟩
  | .hbm, ⟨2, _⟩ => ⟨S1650000, .i32⟩
  | .hbm, ⟨3, _⟩ => ⟨S1650000, .f32⟩
  | .hbm, ⟨4, _⟩ => ⟨S50000x16, .f32⟩
  | .hbm, ⟨5, _⟩ => ⟨S128x32, .f32⟩
  | .hbm, ⟨6, _⟩ => ⟨S32x16, .f32⟩
  | .hbm, ⟨7, _⟩ => ⟨S32x16, .f32⟩
  | .hbm, ⟨8, _⟩ => ⟨S16x32, .f32⟩
  | .hbm, ⟨9, _⟩ => ⟨S32x128, .f32⟩
  | .hbm, ⟨10, _⟩ => ⟨S50000x32, .f32⟩
  | .hbm, ⟨11, _⟩ => ⟨S1650000x1, .f32⟩
  | .hbm, ⟨12, _⟩ => ⟨S_, .i32⟩
  | .hbm, ⟨13, _⟩ => ⟨S1650000, .i32⟩
  | .hbm, ⟨14, _⟩ => ⟨S1650000, .i1⟩
  | .hbm, ⟨15, _⟩ => ⟨S_, .i32⟩
  | .hbm, ⟨16, _⟩ => ⟨S1650000, .i32⟩
  | .hbm, ⟨17, _⟩ => ⟨S1650000, .i32⟩
  | .hbm, ⟨18, _⟩ => ⟨S1650000, .i32⟩
  | .hbm, ⟨19, _⟩ => ⟨S1650000x1, .i32⟩
  | .hbm, ⟨20, _⟩ => ⟨S1650000x32, .f32⟩
  | .hbm, ⟨21, _⟩ => ⟨S1650000x32, .f32⟩
  | .hbm, ⟨22, _⟩ => ⟨S1650000x32, .f32⟩
  | .hbm, ⟨23, _⟩ => ⟨S_, .f32⟩
  | .hbm, ⟨24, _⟩ => ⟨S50000x32, .f32⟩
  | .hbm, ⟨25, _⟩ => ⟨S1650000x1, .i32⟩
  | .hbm, ⟨26, _⟩ => ⟨S50000x32, .f32⟩
  | .hbm, ⟨27, _⟩ => ⟨S_, .f32⟩
  | .hbm, ⟨28, _⟩ => ⟨S50000x32, .f32⟩
  | .hbm, ⟨29, _⟩ => ⟨S50000x32, .f32⟩
  | .hbm, ⟨30, _⟩ => ⟨S50000x16, .f32⟩
  | .hbm, ⟨31, _⟩ => ⟨S1650000x1, .f32⟩
  | .hbm, ⟨32, _⟩ => ⟨S_, .i32⟩
  | .hbm, ⟨33, _⟩ => ⟨S1650000, .i32⟩
  | .hbm, ⟨34, _⟩ => ⟨S1650000, .i1⟩
  | .hbm, ⟨35, _⟩ => ⟨S_, .i32⟩
  | .hbm, ⟨36, _⟩ => ⟨S1650000, .i32⟩
  | .hbm, ⟨37, _⟩ => ⟨S1650000, .i32⟩
  | .hbm, ⟨38, _⟩ => ⟨S1650000, .i32⟩
  | .hbm, ⟨39, _⟩ => ⟨S1650000x1, .i32⟩
  | .hbm, ⟨40, _⟩ => ⟨S1650000x16, .f32⟩
  | .hbm, ⟨41, _⟩ => ⟨S1650000x16, .f32⟩
  | .hbm, ⟨42, _⟩ => ⟨S1650000x16, .f32⟩
  | .hbm, ⟨43, _⟩ => ⟨S_, .f32⟩
  | .hbm, ⟨44, _⟩ => ⟨S50000x16, .f32⟩
  | .hbm, ⟨45, _⟩ => ⟨S1650000x1, .i32⟩
  | .hbm, ⟨46, _⟩ => ⟨S50000x16, .f32⟩
  | .hbm, ⟨47, _⟩ => ⟨S50000x16, .f32⟩
  | .hbm, ⟨48, _⟩ => ⟨S1650000x1, .f32⟩
  | .hbm, ⟨49, _⟩ => ⟨S_, .i32⟩
  | .hbm, ⟨50, _⟩ => ⟨S1650000, .i32⟩
  | .hbm, ⟨51, _⟩ => ⟨S1650000, .i1⟩
  | .hbm, ⟨52, _⟩ => ⟨S_, .i32⟩
  | .hbm, ⟨53, _⟩ => ⟨S1650000, .i32⟩
  | .hbm, ⟨54, _⟩ => ⟨S1650000, .i32⟩
  | .hbm, ⟨55, _⟩ => ⟨S1650000, .i32⟩
  | .hbm, ⟨56, _⟩ => ⟨S1650000x1, .i32⟩
  | .hbm, ⟨57, _⟩ => ⟨S1650000x16, .f32⟩
  | .hbm, ⟨58, _⟩ => ⟨S1650000x16, .f32⟩
  | .hbm, ⟨59, _⟩ => ⟨S1650000x16, .f32⟩
  | .hbm, ⟨60, _⟩ => ⟨S_, .f32⟩
  | .hbm, ⟨61, _⟩ => ⟨S50000x16, .f32⟩
  | .hbm, ⟨62, _⟩ => ⟨S1650000x1, .i32⟩
  | .hbm, ⟨63, _⟩ => ⟨S50000x16, .f32⟩
  | .hbm, ⟨64, _⟩ => ⟨S_, .f32⟩
  | .hbm, ⟨65, _⟩ => ⟨S50000x16, .f32⟩
  | .hbm, ⟨66, _⟩ => ⟨S50000x16, .i1⟩
  | .hbm, ⟨67, _⟩ => ⟨S_, .f32⟩
  | .hbm, ⟨68, _⟩ => ⟨S50000x16, .f32⟩
  | .hbm, ⟨69, _⟩ => ⟨S50000x16, .i1⟩
  | .hbm, ⟨70, _⟩ => ⟨S_, .f32⟩
  | .hbm, ⟨71, _⟩ => ⟨S_, .f32⟩
  | .hbm, ⟨72, _⟩ => ⟨S50000x16, .f32⟩
  | .hbm, ⟨73, _⟩ => ⟨S50000x16, .f32⟩
  | .hbm, ⟨74, _⟩ => ⟨S50000x16, .f32⟩
  | .hbm, ⟨75, _⟩ => ⟨S_, .f32⟩
  | .hbm, ⟨76, _⟩ => ⟨S50000x16, .f32⟩
  | .hbm, ⟨77, _⟩ => ⟨S50000x16, .f32⟩
  | .hbm, ⟨78, _⟩ => ⟨S50000x16, .f32⟩
  | .hbm, ⟨79, _⟩ => ⟨S_, .f32⟩
  | .hbm, ⟨80, _⟩ => ⟨S50000x16, .f32⟩
  | .hbm, ⟨81, _⟩ => ⟨S50000x16, .f32⟩
  | .hbm, ⟨82, _⟩ => ⟨S50000x16, .f32⟩
  | .hbm, ⟨83, _⟩ => ⟨S50000x16, .f32⟩
  | .hbm, ⟨84, _⟩ => ⟨S50000x32, .f32⟩
  | .hbm, ⟨85, _⟩ => ⟨S1650000x1, .f32⟩
  | .hbm, ⟨86, _⟩ => ⟨S_, .i32⟩
  | .hbm, ⟨87, _⟩ => ⟨S1650000, .i32⟩
  | .hbm, ⟨88, _⟩ => ⟨S1650000, .i1⟩
  | .hbm, ⟨89, _⟩ => ⟨S_, .i32⟩
  | .hbm, ⟨90, _⟩ => ⟨S1650000, .i32⟩
  | .hbm, ⟨91, _⟩ => ⟨S1650000, .i32⟩
  | .hbm, ⟨92, _⟩ => ⟨S1650000, .i32⟩
  | .hbm, ⟨93, _⟩ => ⟨S1650000x1, .i32⟩
  | .hbm, ⟨94, _⟩ => ⟨S1650000x32, .f32⟩
  | .hbm, ⟨95, _⟩ => ⟨S1650000x32, .f32⟩
  | .hbm, ⟨96, _⟩ => ⟨S1650000x32, .f32⟩
  | .hbm, ⟨97, _⟩ => ⟨S_, .f32⟩
  | .hbm, ⟨98, _⟩ => ⟨S50000x32, .f32⟩
  | .hbm, ⟨99, _⟩ => ⟨S1650000x1, .i32⟩
  | .hbm, ⟨100, _⟩ => ⟨S50000x32, .f32⟩
  | .hbm, ⟨101, _⟩ => ⟨S_, .f32⟩
  | .hbm, ⟨102, _⟩ => ⟨S50000x32, .f32⟩
  | .hbm, ⟨103, _⟩ => ⟨S50000x32, .f32⟩
  | .hbm, ⟨104, _⟩ => ⟨S50000x128, .f32⟩
  | .hbm, ⟨105, _⟩ => ⟨S1650000x1, .f32⟩
  | .hbm, ⟨106, _⟩ => ⟨S_, .i32⟩
  | .hbm, ⟨107, _⟩ => ⟨S1650000, .i32⟩
  | .hbm, ⟨108, _⟩ => ⟨S1650000, .i1⟩
  | .hbm, ⟨109, _⟩ => ⟨S_, .i32⟩
  | .hbm, ⟨110, _⟩ => ⟨S1650000, .i32⟩
  | .hbm, ⟨111, _⟩ => ⟨S1650000, .i32⟩
  | .hbm, ⟨112, _⟩ => ⟨S1650000, .i32⟩
  | .hbm, ⟨113, _⟩ => ⟨S1650000x1, .i32⟩
  | .hbm, ⟨114, _⟩ => ⟨S1650000x128, .f32⟩
  | .hbm, ⟨115, _⟩ => ⟨S1650000x128, .f32⟩
  | .hbm, ⟨116, _⟩ => ⟨S1650000x128, .f32⟩
  | .hbm, ⟨117, _⟩ => ⟨S_, .f32⟩
  | .hbm, ⟨118, _⟩ => ⟨S50000x128, .f32⟩
  | .hbm, ⟨119, _⟩ => ⟨S1650000x1, .i32⟩
  | .hbm, ⟨120, _⟩ => ⟨S50000x128, .f32⟩
  | .hbm, ⟨121, _⟩ => ⟨S_, .f32⟩
  | .hbm, ⟨122, _⟩ => ⟨S50000x128, .f32⟩
  | .hbm, ⟨123, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call0_cst : Ref sig .tc := ⟨.hbm, 27, rfl⟩
abbrev main_call0_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_1 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_call1_cst : Ref sig .tc := ⟨.hbm, 64, rfl⟩
abbrev main_call1_v0 : Ref sig .tc := ⟨.hbm, 65, rfl⟩
abbrev main_call1_v1 : Ref sig .tc := ⟨.hbm, 66, rfl⟩
abbrev main_call1_cst_0 : Ref sig .tc := ⟨.hbm, 67, rfl⟩
abbrev main_call1_v2 : Ref sig .tc := ⟨.hbm, 68, rfl⟩
abbrev main_call1_v3 : Ref sig .tc := ⟨.hbm, 69, rfl⟩
abbrev main_call1_cst_1 : Ref sig .tc := ⟨.hbm, 70, rfl⟩
abbrev main_call1_call0_v0 : Ref sig .tc := ⟨.hbm, 71, rfl⟩
abbrev main_call1_call0_v1 : Ref sig .tc := ⟨.hbm, 72, rfl⟩
abbrev main_call1_v4 : Ref sig .tc := ⟨.hbm, 73, rfl⟩
abbrev main_call1_v5 : Ref sig .tc := ⟨.hbm, 74, rfl⟩
abbrev main_call1_cst_2 : Ref sig .tc := ⟨.hbm, 75, rfl⟩
abbrev main_call1_v6 : Ref sig .tc := ⟨.hbm, 76, rfl⟩
abbrev main_call1_v7 : Ref sig .tc := ⟨.hbm, 77, rfl⟩
abbrev main_v43 : Ref sig .tc := ⟨.hbm, 78, rfl⟩
abbrev main_cst_7 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_c_8 : Ref sig .tc := ⟨.hbm, 86, rfl⟩
abbrev main_v50 : Ref sig .tc := ⟨.hbm, 87, rfl⟩
abbrev main_v51 : Ref sig .tc := ⟨.hbm, 88, rfl⟩
abbrev main_c_9 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_10 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_call2_cst : Ref sig .tc := ⟨.hbm, 101, rfl⟩
abbrev main_call2_v0 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_c_11 : Ref sig .tc := ⟨.hbm, 106, rfl⟩
abbrev main_v65 : Ref sig .tc := ⟨.hbm, 107, rfl⟩
abbrev main_v66 : Ref sig .tc := ⟨.hbm, 108, rfl⟩
abbrev main_c_12 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_cst_13 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_call3_cst : Ref sig .tc := ⟨.hbm, 121, rfl⟩
abbrev main_call3_v0 : Ref sig .tc := ⟨.hbm, 122, rfl⟩
abbrev main_v77 : Ref sig .tc := ⟨.hbm, 123, rfl⟩

abbrev nD : Nat := 1
abbrev τ : Topo := Topo.v7x

variable {F : FTy → Type} [FloatOps F]

class Facts₀ : Prop where
  bcast_S1650000_S1650000x1_0 : S1650000.BroadcastsInDim S1650000x1 (![0] : Fin 1 → Fin S1650000x1.rank)
  bcast_S_S1650000 : S_.BroadcastsInDim S1650000 (![] : Fin 0 → Fin S1650000.rank)
  bcast_S1650000x1_S1650000x32_0_1 : S1650000x1.BroadcastsInDim S1650000x32 (![0, 1] : Fin 2 → Fin S1650000x32.rank)
  bcast_S_S50000x32 : S_.BroadcastsInDim S50000x32 (![] : Fin 0 → Fin S50000x32.rank)
  bcast_S1650000x1_S1650000x16_0_1 : S1650000x1.BroadcastsInDim S1650000x16 (![0, 1] : Fin 2 → Fin S1650000x16.rank)
  bcast_S_S50000x16 : S_.BroadcastsInDim S50000x16 (![] : Fin 0 → Fin S50000x16.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  dot_S50000x128_S128x32_S50000x32_1_0_0_1_n_n_wf : DotDims.WF S50000x128 S128x32 S50000x32 [1] [0] [0] [1] [] []
  gather_S50000x32_S1650000x1_S1650000x32_1_0_n_n_0_1_132_wf : GatherDims.WF S50000x32 S1650000x1 S1650000x32 [1] [0] [] [0] [] 1 ![1, 32]
  scatter_S50000x32_S1650000x1_S1650000x32_1_0_0_1_wf : ScatterDims.WF S50000x32 S1650000x1 S1650000x32 [1] [0] [0] 1
  dot_S50000x32_S32x16_S50000x16_1_0_0_1_n_n_wf : DotDims.WF S50000x32 S32x16 S50000x16 [1] [0] [0] [1] [] []
  gather_S50000x16_S1650000x1_S1650000x16_1_0_n_n_0_1_116_wf : GatherDims.WF S50000x16 S1650000x1 S1650000x16 [1] [0] [] [0] [] 1 ![1, 16]
  scatter_S50000x16_S1650000x1_S1650000x16_1_0_0_1_wf : ScatterDims.WF S50000x16 S1650000x1 S1650000x16 [1] [0] [0] 1
  dot_S50000x16_S16x32_S50000x32_1_0_0_1_n_n_wf : DotDims.WF S50000x16 S16x32 S50000x32 [1] [0] [0] [1] [] []
  dot_S50000x32_S32x128_S50000x128_1_0_0_1_n_n_wf : DotDims.WF S50000x32 S32x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1

variable [Facts₀]

def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf
def gather_S50000x32_S1650000x1_S1650000x32_1_0_n_n_0_1_132 : GatherDims S50000x32 S1650000x1 S1650000x32 where
  offsetDims := [1]
  collapsedSliceDims := [0]
  operandBatchingDims := []
  startIndicesBatchingDims := []
  startIndexMap := [0]
  indexVectorDim := 1
  sliceSizes := ![1, 32]
  wf := gather_S50000x32_S1650000x1_S1650000x32_1_0_n_n_0_1_132_wf
def scatter_S50000x32_S1650000x1_S1650000x32_1_0_0_1 : ScatterDims S50000x32 S1650000x1 S1650000x32 where
  updateWindowDims := [1]
  insertedWindowDims := [0]
  scatterDimsToOperandDims := [0]
  indexVectorDim := 1
  wf := scatter_S50000x32_S1650000x1_S1650000x32_1_0_0_1_wf
def dot_S50000x32_S32x16_S50000x16_1_0_0_1_n_n : DotDims S50000x32 S32x16 S50000x16 where
  lhsContracting := [1]
  rhsContracting := [0]
  lhsNonContracting := [0]
  rhsNonContracting := [1]
  lhsBatch := []
  rhsBatch := []
  wf := dot_S50000x32_S32x16_S50000x16_1_0_0_1_n_n_wf
def gather_S50000x16_S1650000x1_S1650000x16_1_0_n_n_0_1_116 : GatherDims S50000x16 S1650000x1 S1650000x16 where
  offsetDims := [1]
  collapsedSliceDims := [0]
  operandBatchingDims := []
  startIndicesBatchingDims := []
  startIndexMap := [0]
  indexVectorDim := 1
  sliceSizes := ![1, 16]
  wf := gather_S50000x16_S1650000x1_S1650000x16_1_0_n_n_0_1_116_wf
def scatter_S50000x16_S1650000x1_S1650000x16_1_0_0_1 : ScatterDims S50000x16 S1650000x1 S1650000x16 where
  updateWindowDims := [1]
  insertedWindowDims := [0]
  scatterDimsToOperandDims := [0]
  indexVectorDim := 1
  wf := scatter_S50000x16_S1650000x1_S1650000x16_1_0_0_1_wf
def dot_S50000x16_S16x32_S50000x32_1_0_0_1_n_n : DotDims S50000x16 S16x32 S50000x32 where
  lhsContracting := [1]
  rhsContracting := [0]
  lhsNonContracting := [0]
  rhsNonContracting := [1]
  lhsBatch := []
  rhsBatch := []
  wf := dot_S50000x16_S16x32_S50000x32_1_0_0_1_n_n_wf
def dot_S50000x32_S32x128_S50000x128_1_0_0_1_n_n : DotDims S50000x32 S32x128 S50000x128 where
  lhsContracting := [1]
  rhsContracting := [0]
  lhsNonContracting := [0]
  rhsNonContracting := [1]
  lhsBatch := []
  rhsBatch := []
  wf := dot_S50000x32_S32x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf

class Facts : Prop extends Facts₀ where

variable [Facts]
-- ==== Proof.KerTerm.lean ====
/-
  The kernel's program, array by array.

  Between its six row-tiled regions the program gathers rows of a node table by the edges' source index, scales
  each gathered row by the edge weight, and adds the rows up by the edges' destination index. The regions are dense:
  a table times a weight matrix (with or without a clamp at zero on the table first), the split of a 32-column
  table into its two halves with `elu + 1` on the second half and the affine mix with the noise array, and a last
  clamp at zero. Here each of those steps is ONE function of whole arrays over the extended reals, and the three
  results are their composition.
-/
import proofs.«409194_j73143293051581_2_alg».proof.KernelIdeal
import proofs.«409194_j73143293051581_2_alg».proof.Proof.Gen.KernelIdeal
import Idealize.ShloMosaic.Lib.ValueIdx
import Idealize.ShloMosaic.PureOps.Ideal

noncomputable section

namespace Cert.KernelIdeal.KerTerm

open Idealize.ShloMosaic Idealize.ShloMosaic.ValueIdx Cert.KernelIdeal Cert.KernelIdeal.Gen

/-! ## The dense steps, index by index -/

/-- A table `[n, k]` times a matrix `[k, m]`: entry `(i, j)` is the sum over `κ` of `x (i, κ) · w (κ, j)`. -/
def mm (n k m : Nat) (x : (⟨2, ![n, k]⟩ : Shape).Idx → EReal) (w : (⟨2, ![k, m]⟩ : Shape).Idx → EReal) :
    (⟨2, ![n, m]⟩ : Shape).Idx → EReal :=
  fun i => ∑ κ : Fin k, x (ix2 (i 0) κ) * w (ix2 κ (i 1))

/-- The clamp at zero, entry by entry. -/
def relu {s : Shape} (a : s.Idx → EReal) : s.Idx → EReal := fun i => max (a i) 0

/-- `elu + 1` of one extended real: `y + 1` for positive `y`, else `(e^y − 1) + 1`. -/
def elu1 (y : EReal) : EReal := (if 0 < y then y else Ideal.exp y - 1) + 1

/-- The left half (columns 0 … 15) of a 32-column table. -/
def left16 (a : (⟨2, ![50000, 32]⟩ : Shape).Idx → EReal) : (⟨2, ![50000, 16]⟩ : Shape).Idx → EReal :=
  fun i => a (ix2 (i 0) ⟨(i 1).val, by have := idx2_lt1 i; omega⟩)

/-- `elu + 1` of the right half (columns 16 … 31) of a 32-column table. -/
def right16elu (a : (⟨2, ![50000, 32]⟩ : Shape).Idx → EReal) : (⟨2, ![50000, 16]⟩ : Shape).Idx → EReal :=
  fun i => elu1 (a (ix2 (i 0) ⟨(i 1).val + 16, by have := idx2_lt1 i; omega⟩))

/-- The mix: left half plus (`elu + 1` of the right half) times the noise. -/
def mix (a : (⟨2, ![50000, 32]⟩ : Shape).Idx → EReal) (u : (⟨2, ![50000, 16]⟩ : Shape).Idx → EReal) :
    (⟨2, ![50000, 16]⟩ : Shape).Idx → EReal :=
  fun i => left16 a i + right16elu a i * u i

/-! ## The sparse step, as the program spells it -/

/-- The source indices as a column, a negative one first wrapped by adding the table's height. -/
def srcCol (src : IVec S1650000 32) : IVec S1650000x1 32 :=
  broadcastInDim S1650000x1 ![0] bcast_S1650000_S1650000x1_0
    (select (cmpi .slt src (broadcastInDim S1650000 ![] bcast_S_S1650000 (constantI S_ 32 0#32)))
      (addi src (broadcastInDim S1650000 ![] bcast_S_S1650000 (constantI S_ 32 50000#32))) src)

/-- One bit per edge: the wrapped source index lies in `[0, 49999]`. -/
def srcOk (src : IVec S1650000 32) : IVec S1650000 1 :=
  Host.reduce IntOp.andi
    (andi (cmpi .sge (srcCol src) (broadcastInDim S1650000x1 ![] bcast_S_S1650000x1 (constantI S_ 32 0#32)))
      (cmpi .sle (srcCol src)
        (broadcastInDim S1650000x1 ![0, 1] bcast_S1x1_S1650000x1_0_1
          (broadcastInDim S1x1 ![1] bcast_S1_S1x1_1 (constantI S1 32 49999#32)))))
    (constantI S_ 1 1#1) reducesTo_S1650000x1_S1650000_d1 h_S_

/-- Rows of a 32-column table taken at the source indices; a row whose index is out of range is filled. -/
def take32 (t : FVec Ideal S50000x32 .f32) (src : IVec S1650000 32) : FVec Ideal S1650000x32 .f32 :=
  select (broadcastInDim S1650000x32 ![0] bcast_S1650000_S1650000x32_0 (srcOk src))
    (Host.gather gather_S50000x32_S1650000x1_S1650000x32_1_0_n_n_0_1_132 t (srcCol src))
    (broadcastInDim S1650000x32 ![] bcast_S_S1650000x32 (constant S_ .f32 0x7FC00000#32))

/-- The same for a 128-column table. -/
def take128 (t : FVec Ideal S50000x128 .f32) (src : IVec S1650000 32) : FVec Ideal S1650000x128 .f32 :=
  select (broadcastInDim S1650000x128 ![0] bcast_S1650000_S1650000x128_0 (srcOk src))
    (Host.gather gather_S50000x128_S1650000x1_S1650000x128_1_0_n_n_0_1_1128 t (srcCol src))
    (broadcastInDim S1650000x128 ![] bcast_S_S1650000x128 (constant S_ .f32 0x7FC00000#32))

/-- Gather by source, scale by the edge weight, add up by destination: 32 columns. -/
def agg32 (t : FVec Ideal S50000x32 .f32) (src dst : IVec S1650000 32) (w : FVec Ideal S1650000 .f32) :
    FVec Ideal S50000x32 .f32 :=
  Host.scatterAdd scatter_S50000x32_S1650000x1_S1650000x32_1_0_0_1
    (broadcastInDim S50000x32 ![] bcast_S_S50000x32 (constant S_ .f32 0x00000000#32))
    (broadcastInDim S1650000x1 ![0] bcast_S1650000_S1650000x1_0 dst)
    (mulf (take32 t src)
      (broadcastInDim S1650000x32 ![0, 1] bcast_S1650000x1_S1650000x32_0_1
        (broadcastInDim S1650000x1 ![0] bcast_S1650000_S1650000x1_0 w)))

/-- The same for a 128-column table. -/
def agg128 (t : FVec Ideal S50000x128 .f32) (src dst : IVec S1650000 32) (w : FVec Ideal S1650000 .f32) :
    FVec Ideal S50000x128 .f32 :=
  Host.scatterAdd scatter_S50000x128_S1650000x1_S1650000x128_1_0_0_1
    (broadcastInDim S50000x128 ![] bcast_S_S50000x128 (constant S_ .f32 0x00000000#32))
    (broadcastInDim S1650000x1 ![0] bcast_S1650000_S1650000x1_0 dst)
    (mulf (take128 t src)
      (broadcastInDim S1650000x128 ![0, 1] bcast_S1650000x1_S1650000x128_0_1
        (broadcastInDim S1650000x1 ![0] bcast_S1650000_S1650000x1_0 w)))

/-- The two 16-column weight matrices side by side. -/
def wcat (wm ws : FVec Ideal S32x16 .f32) : FVec Ideal S32x32 .f32 :=
  concatenate S32x32 1 [⟨S32x16, wm⟩, ⟨S32x16, ws⟩] concatenates_S32x16_S32x16_S32x32_d1

/-! ## The program's arrays, in order -/

section Chain
variable (x : FVec Ideal S50000x128 .f32) (src dst : IVec S1650000 32) (w : FVec Ideal S1650000 .f32)
  (u : FVec Ideal S50000x16 .f32) (w1 : FVec Ideal S128x32 .f32) (wm ws : FVec Ideal S32x16 .f32)
  (wd : FVec Ideal S16x32 .f32) (wo : FVec Ideal S32x128 .f32)

/-- Region 0's result: the features times the first weights. -/
def sup1 : FVec Ideal S50000x32 .f32 := mm 50000 128 32 x w1
/-- The first aggregation. -/
def agg1 : FVec Ideal S50000x32 .f32 := agg32 (sup1 x w1) src dst w
/-- Region 1's result: the clamped first aggregation times the two encoder matrices side by side. -/
def supMS : FVec Ideal S50000x32 .f32 := mm 50000 32 32 (relu (agg1 x src dst w w1)) (wcat wm ws)
/-- The second aggregation (32 columns: means | raw deviations). -/
def aggMS : FVec Ideal S50000x32 .f32 := agg32 (supMS x src dst w w1 wm ws) src dst w
/-- Region 2's three results. -/
def means : FVec Ideal S50000x16 .f32 := left16 (aggMS x src dst w w1 wm ws)
def std : FVec Ideal S50000x16 .f32 := right16elu (aggMS x src dst w w1 wm ws)
def enc : FVec Ideal S50000x16 .f32 := mix (aggMS x src dst w w1 wm ws) u
/-- Region 3's result. -/
def supD : FVec Ideal S50000x32 .f32 := mm 50000 16 32 (enc x src dst w u w1 wm ws) wd
/-- The third aggregation. -/
def aggD : FVec Ideal S50000x32 .f32 := agg32 (supD x src dst w u w1 wm ws wd) src dst w
/-- Region 4's result. -/
def supO : FVec Ideal S50000x128 .f32 := mm 50000 32 128 (relu (aggD x src dst w u w1 wm ws wd)) wo
/-- The fourth aggregation. -/
def aggO : FVec Ideal S50000x128 .f32 := agg128 (supO x src dst w u w1 wm ws wd wo) src dst w
/-- Region 5's result: the prediction. -/
def pred : FVec Ideal S50000x128 .f32 := relu (aggO x src dst w u w1 wm ws wd wo)

end Chain

end Cert.KernelIdeal.KerTerm

end
-- ==== Proof.KerReg0.lean ====
/-
  Region 0, as one function of whole arrays: the ten row blocks of 5000 rows each hold the block's rows times the
  weight matrix, so the array the region leaves is the whole table times the matrix.
-/
import proofs.«409194_j73143293051581_2_alg».proof.Proof.Gen.KernelIdeal.Frame
import proofs.«409194_j73143293051581_2_alg».proof.Proof.KerTerm
import Idealize.ShloMosaic.Lib.Pipeline.Value
import Idealize.ShloMosaic.Lib.ValueIdx
import Idealize.ShloMosaic.PureOps.Ideal.Laws

set_option maxRecDepth 16384

noncomputable section

namespace Cert.KernelIdeal.KerReg0

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the TensorCore's buffer contents when the region is entered
variable (V : (c : Dev nD) → (b : Ref sig .tc) → Buf (Elt Ideal) ((c : Thread nD τ).loc b))

/-- The offsets of a whole-buffer access are zero on both axes. -/
private theorem hz : (![0, 0] : Fin 2 → Nat) = fun _ => 0 := funext fun a => by fin_cases a <;> rfl

/-! ## The body's product at an index -/

/-- The product's dimension numbers: the table's axis 1 against the matrix's axis 0. -/
private abbrev D := dot_S5000x128_S128x32_S5000x32_1_0_0_1_n_n

private theorem lhs_0 (j : S5000x32.Idx) (k : D.contr.Idx) : (D.lhsIdx j k 0 : ℕ) = j 0 := by
  simp [DotDims.lhsIdx, D, dot_S5000x128_S128x32_S5000x32_1_0_0_1_n_n]; rfl
private theorem lhs_1 (j : S5000x32.Idx) (k : D.contr.Idx) : (D.lhsIdx j k 1 : ℕ) = k ⟨0, by decide⟩ := by
  simp [DotDims.lhsIdx, D, dot_S5000x128_S128x32_S5000x32_1_0_0_1_n_n]; rfl
private theorem rhs_0 (j : S5000x32.Idx) (k : D.contr.Idx) : (D.rhsIdx j k 0 : ℕ) = k ⟨0, by decide⟩ := by
  simp [DotDims.rhsIdx, D, dot_S5000x128_S128x32_S5000x32_1_0_0_1_n_n]; rfl
private theorem rhs_1 (j : S5000x32.Idx) (k : D.contr.Idx) : (D.rhsIdx j k 1 : ℕ) = j 1 := by
  simp [DotDims.rhsIdx, D, dot_S5000x128_S128x32_S5000x32_1_0_0_1_n_n]; rfl

/-- Entry (p, j) of the body's result on a block: the sum over κ of row p of the table block at κ times column j of the
    matrix at κ (a change of format is the identity on the extended reals, and the product accumulates into zero). -/
private theorem pay_apply (x0 : Vec Ideal S5000x128 .f32) (x1 : Vec Ideal S128x32 .f32) (p : Fin 5000) (j : Fin 32) :
    k0_pay1 x0 x1 (ix2 p j) = ∑ κ : Fin 128, x0 (ix2 p κ) * x1 (ix2 κ j) := by
  unfold k0_pay1
  simp only [matmul]
  rw [Ideal.matmul_constant_zero_apply]
  rw [← Equiv.sum_comp (contrEquiv1 D 128 rfl rfl).symm]
  refine Finset.sum_congr rfl fun κ _ => ?_
  rw [truncf_apply, truncf_apply]
  congr 2
  · funext a; apply Fin.ext
    match a with
    | ⟨0, _⟩ => exact lhs_0 _ _
    | ⟨1, _⟩ => exact (lhs_1 _ _).trans (contrEquiv1_symm_val D 128 rfl rfl κ)
  · funext a; apply Fin.ext
    match a with
    | ⟨0, _⟩ => exact (rhs_0 _ _).trans (contrEquiv1_symm_val D 128 rfl rfl κ)
    | ⟨1, _⟩ => exact rhs_1 _ _

/-- So, when row p of the table block is row (i 0) of a table A and the matrix block is a matrix W, entry (p, j) of the
    body's result is entry i of A times W, for any i in column j. -/
private theorem pay_eq_mm (x0 : Vec Ideal S5000x128 .f32) (x1 : Vec Ideal S128x32 .f32)
    (A : S50000x128.Idx → EReal) (W : S128x32.Idx → EReal) (p : Fin 5000) (j : Fin 32) (i : S50000x32.Idx)
    (h0 : ∀ (κ : Fin 128) (k : S50000x128.Idx), (k 0).val = (i 0).val → (k 1).val = κ.val → x0 (ix2 p κ) = A k)
    (h1 : ∀ (κ : Fin 128) (k : S128x32.Idx), (k 0).val = κ.val → (k 1).val = (i 1).val → x1 (ix2 κ j) = W k) :
    k0_pay1 x0 x1 (ix2 p j) = KerTerm.mm 50000 128 32 A W i := by
  rw [pay_apply]
  unfold KerTerm.mm
  exact Finset.sum_congr rfl fun κ _ => by rw [h0 κ (ix2 (i 0) κ) rfl rfl, h1 κ (ix2 κ (i 1)) rfl rfl]

/-! ## The blocks -/

/-- The index maps over the grid: point t's table block and result block are block t of the rows, all columns; the
    matrix's block is the whole matrix at every point. -/
private theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry x of the table's block at point t is entry (5000 t + x 0, x 1) of the table. -/
private theorem tblk_apply (c : Dev nD) (t : Fin cfg0.N) (x : S5000x128.Idx) (k : S50000x128.Idx)
    (hk0 : (k 0).val = 5000 * t.val + (x 0).val) (hk1 : (k 1).val = (x 1).val) :
    (iblk0 (F := Ideal) V c 0 t : Vec Ideal S5000x128 .f32) x = (V c main_arg0 : S50000x128.Idx → EReal) k := by
  obtain ⟨e0, e1, -, -, -, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * (x 0).val = (k 0).val; rw [e0, hk0]; omega
  | ⟨1, _⟩ => show win0_0.index t (1 : Fin 2) * 128 + 1 * (x 1).val = (k 1).val; rw [e1, hk1]; omega

/-- Entry x of the matrix's block at any point is entry x of the matrix. -/
private theorem wblk_apply (c : Dev nD) (t : Fin cfg0.N) (x : S128x32.Idx) (k : S128x32.Idx)
    (hk0 : (k 0).val = (x 0).val) (hk1 : (k 1).val = (x 1).val) :
    (iblk0 (F := Ideal) V c 1 t : Vec Ideal S128x32 .f32) x = (V c main_arg5 : S128x32.Idx → EReal) k := by
  obtain ⟨-, -, e2, e3, -, -⟩ := idx_facts t
  unfold iblk0
  rw [View.read_apply]
  show V c main_arg5 _ = V c main_arg5 _
  congr 1
  funext a
  apply Fin.ext
  match a with
  | ⟨0, _⟩ => show win0_1.index t (0 : Fin 2) * 128 + 1 * (x 0).val = (k 0).val; rw [e2, hk0]; omega
  | ⟨1, _⟩ => show win0_1.index t (1 : Fin 2) * 32 + 1 * (x 1).val = (k 1).val; rw [e3, hk1]; omega

/-- What point t writes back is block t of the whole table times the matrix. -/
private theorem flushed_eq (c : Dev nD) (t : Fin cfg0.N) :
    (dat0 (F := Ideal) V c).flushed 2 t
      = ((cfg0.win 2).blk t).view.read (Elt Ideal) (KerTerm.mm 50000 128 32 (V c main_arg0) (V c main_arg5)) := by
  show (cfg0.win 2).cut (grid0.coords t) ((dat0 (F := Ideal) V c).after 2 t) = _
  rw [after0_2]
  unfold out0_2
  rw [View.canon_unit_zero hz]
  simp only [View.ld_unit_zero (S := S5000x128) hz, View.ld_unit_zero (S := S128x32) hz]
  obtain ⟨-, -, -, -, e4, e5⟩ := idx_facts t
  funext y
  obtain ⟨p, j, rfl⟩ : ∃ (p : Fin 5000) (j : Fin 32), y = ix2 p j := ⟨y 0, y 1, eq_ix2 y⟩
  show k0_pay1 (iblk0 V c 0 t) (iblk0 V c 1 t) (ix2 p j)
    = KerTerm.mm 50000 128 32 (V c main_arg0) (V c main_arg5) (((cfg0.win 2).blk t).view.emb (ix2 p j))
  have hi0 : ((((cfg0.win 2).blk t).view.emb (ix2 p j)) 0).val = win0_2.index t (0 : Fin 2) * 5000 + 1 * p.val := rfl
  have hi1 : ((((cfg0.win 2).blk t).view.emb (ix2 p j)) 1).val = win0_2.index t (1 : Fin 2) * 32 + 1 * j.val := rfl
  refine pay_eq_mm _ _ _ _ p j _ (fun κ k hk0 hk1 => ?_) (fun κ k hk0 hk1 => ?_)
  · exact tblk_apply V c t (ix2 p κ) k (by rw [hk0, hi0, e4]; show _ = 5000 * t.val + p.val; omega) hk1
  · exact wblk_apply V c t (ix2 κ j) k hk0 (by rw [hk1, hi1, e5]; show _ = j.val; omega)

/-! ## From the blocks to the array -/

/-- An index of the result array is in point t's block iff each coordinate is in the block's range on its axis. -/
private theorem mem_blk (t : Fin cfg0.N) (i : S50000x32.Idx) :
    i ∈ ((cfg0.win 2).blk t).view.set ↔ ∀ a : Fin 2, win0_2.index t a * S5000x32.size a ≤ (i a).val
      ∧ (i a).val < win0_2.index t a * S5000x32.size a + S5000x32.size a := by
  show i ∈ ((View.whole main_v0).slice (win0_2.rect t)).set ↔ _
  rw [View.set_slice_whole, Rect.mem_set_unit]
  exact Iff.rfl

/-- Every index of the result array is in the block of the point its row falls in: row r is in block r / 5000. -/
private theorem cover (i : S50000x32.Idx) :
    ∃ t : Fin cfg0.N, (cfg0.win 2).flush t = true ∧ i ∈ ((cfg0.win 2).blk t).view.set := by
  have hi0 : (i 0).val < 50000 := (i 0).isLt
  have hi1 : (i 1).val < 32 := (i 1).isLt
  have hN : cfg0.N = 10 := N_0
  let t : Fin cfg0.N := ⟨(i 0).val / 5000, by rw [hN]; omega⟩
  obtain ⟨-, -, -, -, e4, e5⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 32 ≤ (i 1).val ∧ (i 1).val < win0_2.index t (1 : Fin 2) * 32 + 32; omega

/-- The array region 0 leaves in its output window: the table (window 0) times the matrix (window 1). -/
theorem arr (c : Dev nD) :
    (dat0 (F := Ideal) V c).arrAt 2 cfg0.N = KerTerm.mm 50000 128 32 (V c main_arg0) (V c main_arg5) := by
  exact (dat0 (F := Ideal) V c).arrAt_eq_of_cover 2 (KerTerm.mm 50000 128 32 (V c main_arg0) (V c main_arg5))
    (fun t _ => flushed_eq V c t) cover

end Cert.KernelIdeal.KerReg0

end
-- ==== Proof.KerReg1.lean ====
/-
  Region 1, as one function of whole arrays: each row block is clamped at zero and multiplied by the 32 x 32 matrix,
  so the array the region leaves is the clamped table times the matrix.
-/
import proofs.«409194_j73143293051581_2_alg».proof.Proof.Gen.KernelIdeal.Frame
import proofs.«409194_j73143293051581_2_alg».proof.Proof.KerTerm
import Idealize.ShloMosaic.Lib.Pipeline.Value
import Idealize.ShloMosaic.Lib.ValueIdx
import Idealize.ShloMosaic.PureOps.Ideal.Laws

set_option maxRecDepth 16384

noncomputable section

namespace Cert.KernelIdeal.KerReg1

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The contraction's index maps, axis by axis -/

private theorem lhs_0 (j : S5000x32.Idx) (k : dot_S5000x32_S32x32_S5000x32_1_0_0_1_n_n.contr.Idx) :
    (dot_S5000x32_S32x32_S5000x32_1_0_0_1_n_n.lhsIdx j k 0 : ℕ) = j 0 := by
  simp [DotDims.lhsIdx, dot_S5000x32_S32x32_S5000x32_1_0_0_1_n_n]; rfl
private theorem lhs_1 (j : S5000x32.Idx) (k : dot_S5000x32_S32x32_S5000x32_1_0_0_1_n_n.contr.Idx) :
    (dot_S5000x32_S32x32_S5000x32_1_0_0_1_n_n.lhsIdx j k 1 : ℕ) = k ⟨0, by decide⟩ := by
  simp [DotDims.lhsIdx, dot_S5000x32_S32x32_S5000x32_1_0_0_1_n_n]; rfl
private theorem rhs_0 (j : S5000x32.Idx) (k : dot_S5000x32_S32x32_S5000x32_1_0_0_1_n_n.contr.Idx) :
    (dot_S5000x32_S32x32_S5000x32_1_0_0_1_n_n.rhsIdx j k 0 : ℕ) = k ⟨0, by decide⟩ := by
  simp [DotDims.rhsIdx, dot_S5000x32_S32x32_S5000x32_1_0_0_1_n_n]; rfl
private theorem rhs_1 (j : S5000x32.Idx) (k : dot_S5000x32_S32x32_S5000x32_1_0_0_1_n_n.contr.Idx) :
    (dot_S5000x32_S32x32_S5000x32_1_0_0_1_n_n.rhsIdx j k 1 : ℕ) = j 1 := by
  simp [DotDims.rhsIdx, dot_S5000x32_S32x32_S5000x32_1_0_0_1_n_n]; rfl

/-- The body's payload at row `p`, column `j` of the block: the clamped row times the matrix's column. -/
private theorem pay_apply (x0 : Vec Ideal S5000x32 .f32) (x1 : Vec Ideal S32x32 .f32) (p : Fin 5000) (j : Fin 32) :
    k1_pay1 (F := Ideal) x0 x1 (ix2 p j) = ∑ κ : Fin 32, max (x0 (ix2 p κ)) 0 * x1 (ix2 κ j) := by
  unfold k1_pay1
  simp only [matmul]
  rw [Ideal.matmul_constant_zero_apply]
  rw [← Equiv.sum_comp (contrEquiv1 dot_S5000x32_S32x32_S5000x32_1_0_0_1_n_n 32 rfl rfl).symm]
  refine Finset.sum_congr rfl fun κ _ => ?_
  rw [truncf_apply, truncf_apply, maximumf_apply, broadcast_apply, shapeCast_self, shapeCast_self]
  have hl : dot_S5000x32_S32x32_S5000x32_1_0_0_1_n_n.lhsIdx (ix2 p j)
      ((contrEquiv1 dot_S5000x32_S32x32_S5000x32_1_0_0_1_n_n 32 rfl rfl).symm κ) = ix2 p κ := by
    funext a; apply Fin.ext
    match a with
    | ⟨0, _⟩ => exact lhs_0 _ _
    | ⟨1, _⟩ => exact (lhs_1 _ _).trans (contrEquiv1_symm_val _ 32 rfl rfl κ)
  have hr : dot_S5000x32_S32x32_S5000x32_1_0_0_1_n_n.rhsIdx (ix2 p j)
      ((contrEquiv1 dot_S5000x32_S32x32_S5000x32_1_0_0_1_n_n 32 rfl rfl).symm κ) = ix2 κ j := by
    funext a; apply Fin.ext
    match a with
    | ⟨0, _⟩ => exact (rhs_0 _ _).trans (contrEquiv1_symm_val _ 32 rfl rfl κ)
    | ⟨1, _⟩ => exact rhs_1 _ _
  rw [hl, hr]
  show max _ (Ideal.ofBits .f32 0x00000000#32) * _ = _
  rw [Ideal.ofBits_zero_f32]

/-- The body's payload against whole arrays: when the row block reads row `r` of the table `A` and the matrix
    block reads the matrix `B`, entry `(p, q)` of the payload is entry `(r, q)` of the clamped `A` times `B`. -/
private theorem point (x0 : Vec Ideal S5000x32 .f32) (x1 : Vec Ideal S32x32 .f32)
    (A : S50000x32.Idx → EReal) (B : S32x32.Idx → EReal) (p : Fin 5000) (q : Fin 32) (r : Fin 50000)
    (h0 : ∀ κ : Fin 32, x0 (ix2 p κ) = A (ix2 r κ)) (h1 : ∀ κ : Fin 32, x1 (ix2 κ q) = B (ix2 κ q)) :
    k1_pay1 (F := Ideal) x0 x1 (ix2 p q) = KerTerm.mm 50000 32 32 (KerTerm.relu A) B (ix2 r q) := by
  rw [pay_apply]
  show _ = ∑ κ : Fin 32, max (A (ix2 r κ)) 0 * B (ix2 κ q)
  exact Finset.sum_congr rfl fun κ _ => by rw [h0 κ, h1 κ]

/-! ## From blocks to the array -/

private theorem hz : (![0, 0] : Fin 2 → Nat) = fun _ => 0 := funext fun a => by fin_cases a <;> rfl

/-- The index maps over the grid: at point `t` the table's window and the output's window sit at row block `t`,
    column block 0; the matrix's window is the whole matrix at every point. -/
private theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section Blocks
variable (V : (c : Dev nD) → (b : Ref sig .tc) → Buf (Elt Ideal) ((c : Thread nD τ).loc b))

/-- The table's block at point `t` is rows `5000 t … 5000 t + 4999` of the table. -/
private theorem iblk0_apply (c : Dev nD) (t : Fin cfg1.N) (p : Fin 5000) (κ : Fin 32) (r : Fin 50000)
    (hr : r.val = 5000 * t.val + p.val) :
    iblk1 (F := Ideal) V c 0 t (ix2 p κ) = V c main_v7 (ix2 r κ) := by
  obtain ⟨e0, e1, e2, e3, e4, e5⟩ := idx_facts t
  show V c main_v7 (((cfg1.win 0).blk t).view.emb (ix2 p κ)) = V c main_v7 (ix2 r κ)
  congr 1
  funext a; apply Fin.ext
  match a with
  | ⟨0, _⟩ => show win1_0.index t (0 : Fin 2) * 5000 + 1 * p.val = r.val; omega
  | ⟨1, _⟩ => show win1_0.index t (1 : Fin 2) * 32 + 1 * κ.val = κ.val; omega

/-- The matrix's block at every point is the matrix. -/
private theorem iblk1_apply (c : Dev nD) (t : Fin cfg1.N) (κ : Fin 32) (q : Fin 32) :
    iblk1 (F := Ideal) V c 1 t (ix2 κ q) = V c main_v8 (ix2 κ q) := by
  obtain ⟨e0, e1, e2, e3, e4, e5⟩ := idx_facts t
  show V c main_v8 (((cfg1.win 1).blk t).view.emb (ix2 κ q)) = V c main_v8 (ix2 κ q)
  congr 1
  funext a; apply Fin.ext
  match a with
  | ⟨0, _⟩ => show win1_1.index t (0 : Fin 2) * 32 + 1 * κ.val = κ.val; omega
  | ⟨1, _⟩ => show win1_1.index t (1 : Fin 2) * 32 + 1 * q.val = q.val; omega

/-- Entry `(p, q)` of the output's block at point `t` sits at row `5000 t + p`, column `q` of the array. -/
private theorem emb_out (t : Fin cfg1.N) (p : Fin 5000) (q : Fin 32) (r : Fin 50000) (hr : r.val = 5000 * t.val + p.val) :
    ((cfg1.win 2).blk t).view.emb (ix2 p q) = (ix2 r q : S50000x32.Idx) := by
  obtain ⟨e0, e1, e2, e3, e4, e5⟩ := idx_facts t
  funext a; apply Fin.ext
  match a with
  | ⟨0, _⟩ => show win1_2.index t (0 : Fin 2) * 5000 + 1 * p.val = r.val; omega
  | ⟨1, _⟩ => show win1_2.index t (1 : Fin 2) * 32 + 1 * q.val = q.val; omega

/-- What point `t` writes back is block `t` of the clamped table times the matrix. -/
private theorem flushed_eq (c : Dev nD) (t : Fin cfg1.N) :
    (dat1 (F := Ideal) V c).flushed 2 t
      = ((cfg1.win 2).blk t).view.read (Elt Ideal)
          (KerTerm.mm 50000 32 32 (KerTerm.relu (V c main_v7)) (V c main_v8)) := by
  show (cfg1.win 2).cut (grid1.coords t) ((dat1 V c).after 2 t) = _
  rw [after1_2]
  unfold out1_2
  rw [View.canon_unit_zero hz]
  simp only [View.ld_unit_zero (S := S5000x32) hz, View.ld_unit_zero (S := S32x32) hz]
  funext y
  obtain ⟨p, q, rfl⟩ : ∃ (p : Fin 5000) (q : Fin 32), y = ix2 p q := ⟨y 0, y 1, eq_ix2 y⟩
  have hlt : 5000 * t.val + p.val < 50000 := by
    have ht : t.val < grid1.N := t.isLt
    rw [N_1] at ht; have := p.isLt; omega
  show k1_pay1 (F := Ideal) (iblk1 V c 0 t) (iblk1 V c 1 t) (ix2 p q)
    = KerTerm.mm 50000 32 32 (KerTerm.relu (V c main_v7)) (V c main_v8) (((cfg1.win 2).blk t).view.emb (ix2 p q))
  rw [emb_out t p q ⟨5000 * t.val + p.val, hlt⟩ rfl]
  exact point _ _ _ _ p q ⟨5000 * t.val + p.val, hlt⟩
    (fun κ => iblk0_apply V c t p κ _ rfl) (fun κ => iblk1_apply V c t κ q)

/-- An index of the array is in point `t`'s block iff each coordinate is in the block's range on its axis. -/
private theorem mem_blk (t : Fin cfg1.N) (i : S50000x32.Idx) :
    i ∈ ((cfg1.win 2).blk t).view.set ↔ ∀ a : Fin 2, win1_2.index t a * S5000x32.size a ≤ (i a).val
      ∧ (i a).val < win1_2.index t a * S5000x32.size a + S5000x32.size a := by
  show i ∈ ((View.whole main_v9).slice (win1_2.rect t)).set ↔ _
  rw [View.set_slice_whole, Rect.mem_set_unit]
  exact Iff.rfl

/-- Every row `r` of the array is in the block of point `r / 5000`. -/
private theorem cover (i : S50000x32.Idx) :
    ∃ t : Fin cfg1.N, (cfg1.win 2).flush t = true ∧ i ∈ ((cfg1.win 2).blk t).view.set := by
  have hi0 : (i 0).val < 50000 := (i 0).isLt
  have hi1 : (i 1).val < 32 := (i 1).isLt
  obtain ⟨t, ht⟩ : ∃ t : Fin cfg1.N, t.val = (i 0).val / 5000 :=
    ⟨⟨(i 0).val / 5000, by show _ < grid1.N; rw [N_1]; omega⟩, rfl⟩
  obtain ⟨e0, e1, e2, e3, e4, e5⟩ := idx_facts t
  refine ⟨t, flush1_2 t, ?_⟩
  rw [mem_blk]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 32 ≤ (i 1).val ∧ (i 1).val < win1_2.index t (1 : Fin 2) * 32 + 32
    omega

end Blocks

-- the TensorCore's buffer contents when the region is entered
variable (V : (c : Dev nD) → (b : Ref sig .tc) → Buf (Elt Ideal) ((c : Thread nD τ).loc b))

/-- The array region 1 leaves in its output window: the clamped table (window 0) times the matrix (window 1). -/
theorem arr (c : Dev nD) :
    (dat1 (F := Ideal) V c).arrAt 2 cfg1.N = KerTerm.mm 50000 32 32 (KerTerm.relu (V c main_v7)) (V c main_v8) :=
  (dat1 (F := Ideal) V c).arrAt_eq_of_cover 2 _ (fun t _ => flushed_eq V c t) cover

end Cert.KernelIdeal.KerReg1

end
-- ==== Proof.KerReg2.lean ====
/-
  Region 2, as functions of whole arrays: each row block of the 32-column table is split into its left and right
  halves; the first output is the left half, the second `elu + 1` of the right half, the third their mix with the
  noise block.
-/
import proofs.«409194_j73143293051581_2_alg».proof.Proof.Gen.KernelIdeal.Frame
import proofs.«409194_j73143293051581_2_alg».proof.Proof.KerTerm
import Idealize.ShloMosaic.Lib.Pipeline.Value
import Idealize.ShloMosaic.Lib.ValueIdx
import Idealize.ShloMosaic.PureOps.Ideal.Laws
import Idealize.ShloMosaic.Lib.IdealHost

set_option maxRecDepth 16384

noncomputable section

namespace Cert.KernelIdeal.KerReg2

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-! ## The body's arithmetic at an index of the block -/

/-- The slice of columns 0 … 15 at `(p, q)` is the block at `(p, q)`. -/
theorem left_apply (x0 : Vec Ideal S5000x32 .f32) (j : S5000x16.Idx) :
    extractStridedSlice S5000x16 ![0, 0] x0 slices_S5000x32_o0_0_S5000x16 j
      = x0 (ix2 (j 0) ⟨(j 1).val, by have := idx2_lt1 j; omega⟩) := by
  refine extractStridedSlice_apply _ _ _ _ _ (fun a => ?_)
  match a with
  | ⟨0, _⟩ => show (j 0).val = 0 + (j 0).val; omega
  | ⟨1, _⟩ => show (j 1).val = 0 + (j 1).val; omega

/-- The slice of columns 16 … 31 at `(p, q)` is the block at `(p, q + 16)`. -/
theorem right_apply (x0 : Vec Ideal S5000x32 .f32) (j : S5000x16.Idx) :
    extractStridedSlice S5000x16 ![0, 16] x0 slices_S5000x32_o0_16_S5000x16 j
      = x0 (ix2 (j 0) ⟨(j 1).val + 16, by have := idx2_lt1 j; omega⟩) := by
  refine extractStridedSlice_apply _ _ _ _ _ (fun a => ?_)
  match a with
  | ⟨0, _⟩ => show (j 0).val = 0 + (j 0).val; omega
  | ⟨1, _⟩ => show (j 1).val + 16 = 16 + (j 1).val; omega

/-- The selection "`y` if `y > 0`, else `e^y − 1`", plus one, is `elu + 1`. -/
theorem elu1_eq (y : EReal) :
    Scalar.select (Ideal.cmp .ogt y 0) y (Ideal.exp y - 1) + 1 = KerTerm.elu1 y := by
  unfold KerTerm.elu1 Ideal.cmp
  by_cases h : 0 < y
  · rw [if_pos h, show BitVec.ofBool (decide (0 < y)) = 1#1 from by simp [h], select_one]
  · rw [if_neg h, show BitVec.ofBool (decide (0 < y)) = 0#1 from by simp [h], select_zero]

/-- The first payload: the left half of the block. -/
theorem pay2_apply (x0 : Vec Ideal S5000x32 .f32) (j : S5000x16.Idx) :
    k2_pay2 (F := Ideal) x0 j = x0 (ix2 (j 0) ⟨(j 1).val, by have := idx2_lt1 j; omega⟩) := by
  unfold k2_pay2 k2_pay1
  rw [shapeCast_self]
  exact left_apply x0 j

/-- The second payload: `elu + 1` of the right half of the block. -/
theorem pay3_apply (x0 : Vec Ideal S5000x32 .f32) (j : S5000x16.Idx) :
    k2_pay3 (F := Ideal) x0 j = KerTerm.elu1 (x0 (ix2 (j 0) ⟨(j 1).val + 16, by have := idx2_lt1 j; omega⟩)) := by
  unfold k2_pay3 k2_pay1
  rw [shapeCast_self]
  show Scalar.select (Ideal.cmp .ogt (extractStridedSlice S5000x16 ![0, 16] x0 slices_S5000x32_o0_16_S5000x16 j)
        (Ideal.ofBits .f32 0x00000000#32))
      (extractStridedSlice S5000x16 ![0, 16] x0 slices_S5000x32_o0_16_S5000x16 j)
      (Ideal.exp (extractStridedSlice S5000x16 ![0, 16] x0 slices_S5000x32_o0_16_S5000x16 j)
        - Ideal.ofBits .f32 0x3F800000#32) + Ideal.ofBits .f32 0x3F800000#32 = _
  rw [right_apply, Ideal.ofBits_zero_f32, Ideal.ofBits_one_f32]
  exact elu1_eq _

/-- The third payload: the first plus the second times the noise block. -/
theorem pay4_apply (x0 : Vec Ideal S5000x32 .f32) (x1 : Vec Ideal S5000x16 .f32) (j : S5000x16.Idx) :
    k2_pay4 (F := Ideal) x0 x1 j
      = x0 (ix2 (j 0) ⟨(j 1).val, by have := idx2_lt1 j; omega⟩)
        + KerTerm.elu1 (x0 (ix2 (j 0) ⟨(j 1).val + 16, by have := idx2_lt1 j; omega⟩)) * x1 j := by
  unfold k2_pay4
  rw [addf_apply, mulf_apply, pay2_apply, pay3_apply]

/-! ## The blocks: block `t` of every window is rows `5000 t … 5000 t + 4999`, all columns -/

/-- The printed index maps over the grid: block `t` of each window is row block `t`, column block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- The table's block at point `t`, read at `y`, is the table at row `5000 t + y₀`, column `y₁`. -/
theorem tab_apply (c : Dev nD) (t : Fin cfg2.N) (y : S5000x32.Idx) (k : S50000x32.Idx)
    (hk0 : (k 0).val = 5000 * t.val + (y 0).val) (hk1 : (k 1).val = (y 1).val) :
    (iblk2 V c 0 t : Vec Ideal S5000x32 .f32) y = (V c main_v16 : S50000x32.Idx → EReal) k := by
  obtain ⟨e0, e1, -⟩ := idx_facts t
  show (V c main_v16 : S50000x32.Idx → EReal) (((cfg2.win 0).blk t).view.emb y) = _
  congr 1
  funext a; apply Fin.ext
  match a with
  | ⟨0, _⟩ => show win2_0.index t (0 : Fin 2) * 5000 + 1 * (y 0).val = (k 0).val; omega
  | ⟨1, _⟩ => show win2_0.index t (1 : Fin 2) * 32 + 1 * (y 1).val = (k 1).val; omega

/-- The noise's block at point `t`, read at `y`, is the noise at row `5000 t + y₀`, column `y₁`. -/
theorem noise_apply (c : Dev nD) (t : Fin cfg2.N) (y : S5000x16.Idx) (k : S50000x16.Idx)
    (hk0 : (k 0).val = 5000 * t.val + (y 0).val) (hk1 : (k 1).val = (y 1).val) :
    (iblk2 V c 1 t : Vec Ideal S5000x16 .f32) y = (V c main_arg4 : S50000x16.Idx → EReal) k := by
  obtain ⟨-, -, e2, e3, -⟩ := idx_facts t
  show (V c main_arg4 : S50000x16.Idx → EReal) (((cfg2.win 1).blk t).view.emb y) = _
  congr 1
  funext a; apply Fin.ext
  match a with
  | ⟨0, _⟩ => show win2_1.index t (0 : Fin 2) * 5000 + 1 * (y 0).val = (k 0).val; omega
  | ⟨1, _⟩ => show win2_1.index t (1 : Fin 2) * 16 + 1 * (y 1).val = (k 1).val; omega

/-! ## What each point writes back -/

/-- Point `t` writes block `t` of the left half into output window 2. -/
theorem flushed_means (c : Dev nD) (t : Fin cfg2.N) :
    (dat2 (F := Ideal) V c).flushed 2 t
      = ((cfg2.win 2).blk t).view.read (Elt Ideal) (KerTerm.left16 (V c main_v16)) := by
  show (cfg2.win 2).cut (grid2.coords t) ((dat2 V c).after 2 t) = _
  rw [after2_2]
  unfold out2_2
  rw [View.canon_unit_zero hz]
  simp only [View.ld_unit_zero (S := S5000x32) hz]
  obtain ⟨-, -, -, -, e4, e5, -⟩ := idx_facts t
  funext j
  refine (pay2_apply _ _).trans ?_
  show _ = KerTerm.left16 (V c main_v16) (((cfg2.win 2).blk t).view.emb j)
  unfold KerTerm.left16
  refine tab_apply V c t _ _ ?_ ?_
  · show win2_2.index t (0 : Fin 2) * 5000 + 1 * (j 0).val = 5000 * t.val + (j 0).val; omega
  · show win2_2.index t (1 : Fin 2) * 16 + 1 * (j 1).val = (j 1).val; omega

/-- Point `t` writes block `t` of `elu + 1` of the right half into output window 3. -/
theorem flushed_std (c : Dev nD) (t : Fin cfg2.N) :
    (dat2 (F := Ideal) V c).flushed 3 t
      = ((cfg2.win 3).blk t).view.read (Elt Ideal) (KerTerm.right16elu (V c main_v16)) := by
  show (cfg2.win 3).cut (grid2.coords t) ((dat2 V c).after 3 t) = _
  rw [after2_3]
  unfold out2_3
  rw [View.canon_unit_zero hz]
  simp only [View.ld_unit_zero (S := S5000x32) hz]
  obtain ⟨-, -, -, -, -, -, e6, e7, -⟩ := idx_facts t
  funext j
  refine (pay3_apply _ _).trans ?_
  show _ = KerTerm.right16elu (V c main_v16) (((cfg2.win 3).blk t).view.emb j)
  unfold KerTerm.right16elu
  refine congrArg KerTerm.elu1 (tab_apply V c t _ _ ?_ ?_)
  · show win2_3.index t (0 : Fin 2) * 5000 + 1 * (j 0).val = 5000 * t.val + (j 0).val; omega
  · show win2_3.index t (1 : Fin 2) * 16 + 1 * (j 1).val + 16 = (j 1).val + 16; omega

/-- Point `t` writes block `t` of the mix into output window 4. -/
theorem flushed_enc (c : Dev nD) (t : Fin cfg2.N) :
    (dat2 (F := Ideal) V c).flushed 4 t
      = ((cfg2.win 4).blk t).view.read (Elt Ideal) (KerTerm.mix (V c main_v16) (V c main_arg4)) := by
  show (cfg2.win 4).cut (grid2.coords t) ((dat2 V c).after 4 t) = _
  rw [after2_4]
  unfold out2_4
  rw [View.canon_unit_zero hz]
  simp only [View.ld_unit_zero (S := S5000x32) hz, View.ld_unit_zero (S := S5000x16) hz]
  obtain ⟨-, -, -, -, -, -, -, -, e8, e9⟩ := idx_facts t
  funext j
  refine (pay4_apply _ _ _).trans ?_
  show _ = KerTerm.mix (V c main_v16) (V c main_arg4) (((cfg2.win 4).blk t).view.emb j)
  unfold KerTerm.mix KerTerm.left16 KerTerm.right16elu
  refine congrArg₂ (fun a b : EReal => a + b) (tab_apply V c t _ _ ?_ ?_)
    (congrArg₂ (fun a b : EReal => a * b) (congrArg KerTerm.elu1 (tab_apply V c t _ _ ?_ ?_)) (noise_apply V c t _ _ ?_ ?_))
  · show win2_4.index t (0 : Fin 2) * 5000 + 1 * (j 0).val = 5000 * t.val + (j 0).val; omega
  · show win2_4.index t (1 : Fin 2) * 16 + 1 * (j 1).val = (j 1).val; omega
  · show win2_4.index t (0 : Fin 2) * 5000 + 1 * (j 0).val = 5000 * t.val + (j 0).val; omega
  · show win2_4.index t (1 : Fin 2) * 16 + 1 * (j 1).val + 16 = (j 1).val + 16; omega
  · show win2_4.index t (0 : Fin 2) * 5000 + 1 * (j 0).val = 5000 * t.val + (j 0).val; omega
  · show win2_4.index t (1 : Fin 2) * 16 + 1 * (j 1).val = (j 1).val; omega

/-! ## From blocks to the arrays -/

/-- An index of output window 2's array is in point `t`'s block iff each coordinate is in the block's range on its axis. -/
theorem mem_blk_means (t : Fin cfg2.N) (i : S50000x16.Idx) :
    i ∈ ((cfg2.win 2).blk t).view.set ↔ ∀ a : Fin 2, win2_2.index t a * S5000x16.size a ≤ (i a).val
      ∧ (i a).val < win2_2.index t a * S5000x16.size a + S5000x16.size a := by
  show i ∈ ((View.whole main_v17_0).slice (win2_2.rect t)).set ↔ _
  rw [View.set_slice_whole, Rect.mem_set_unit]
  exact Iff.rfl

/-- Every index of output window 2's array is in the block of the point its row falls in: row `r` is in row block `r / 5000`. -/
theorem cover_means (i : S50000x16.Idx) :
    ∃ t : Fin cfg2.N, (cfg2.win 2).flush t = true ∧ i ∈ ((cfg2.win 2).blk t).view.set := by
  have hi0 : (i 0).val < 50000 := (i 0).isLt
  have hi1 : (i 1).val < 16 := (i 1).isLt
  have hN : cfg2.N = 10 := N_2
  let t : Fin cfg2.N := ⟨(i 0).val / 5000, by rw [hN]; omega⟩
  obtain ⟨-, -, -, -, e4, e5, e6, e7, e8, e9⟩ := idx_facts t
  have ht : t.val = (i 0).val / 5000 := rfl
  refine ⟨t, flush2_2 t, ?_⟩
  rw [mem_blk_means]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 16 ≤ (i 1).val ∧ (i 1).val < win2_2.index t (1 : Fin 2) * 16 + 16; omega

/-- An index of output window 3's array is in point `t`'s block iff each coordinate is in the block's range on its axis. -/
theorem mem_blk_std (t : Fin cfg2.N) (i : S50000x16.Idx) :
    i ∈ ((cfg2.win 3).blk t).view.set ↔ ∀ a : Fin 2, win2_3.index t a * S5000x16.size a ≤ (i a).val
      ∧ (i a).val < win2_3.index t a * S5000x16.size a + S5000x16.size a := by
  show i ∈ ((View.whole main_v17_1).slice (win2_3.rect t)).set ↔ _
  rw [View.set_slice_whole, Rect.mem_set_unit]
  exact Iff.rfl

/-- Every index of output window 3's array is in the block of the point its row falls in: row `r` is in row block `r / 5000`. -/
theorem cover_std (i : S50000x16.Idx) :
    ∃ t : Fin cfg2.N, (cfg2.win 3).flush t = true ∧ i ∈ ((cfg2.win 3).blk t).view.set := by
  have hi0 : (i 0).val < 50000 := (i 0).isLt
  have hi1 : (i 1).val < 16 := (i 1).isLt
  have hN : cfg2.N = 10 := N_2
  let t : Fin cfg2.N := ⟨(i 0).val / 5000, by rw [hN]; omega⟩
  obtain ⟨-, -, -, -, e4, e5, e6, e7, e8, e9⟩ := idx_facts t
  have ht : t.val = (i 0).val / 5000 := rfl
  refine ⟨t, flush2_3 t, ?_⟩
  rw [mem_blk_std]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 16 ≤ (i 1).val ∧ (i 1).val < win2_3.index t (1 : Fin 2) * 16 + 16; omega

/-- An index of output window 4's array is in point `t`'s block iff each coordinate is in the block's range on its axis. -/
theorem mem_blk_enc (t : Fin cfg2.N) (i : S50000x16.Idx) :
    i ∈ ((cfg2.win 4).blk t).view.set ↔ ∀ a : Fin 2, win2_4.index t a * S5000x16.size a ≤ (i a).val
      ∧ (i a).val < win2_4.index t a * S5000x16.size a + S5000x16.size a := by
  show i ∈ ((View.whole main_v17_2).slice (win2_4.rect t)).set ↔ _
  rw [View.set_slice_whole, Rect.mem_set_unit]
  exact Iff.rfl

/-- Every index of output window 4's array is in the block of the point its row falls in: row `r` is in row block `r / 5000`. -/
theorem cover_enc (i : S50000x16.Idx) :
    ∃ t : Fin cfg2.N, (cfg2.win 4).flush t = true ∧ i ∈ ((cfg2.win 4).blk t).view.set := by
  have hi0 : (i 0).val < 50000 := (i 0).isLt
  have hi1 : (i 1).val < 16 := (i 1).isLt
  have hN : cfg2.N = 10 := N_2
  let t : Fin cfg2.N := ⟨(i 0).val / 5000, by rw [hN]; omega⟩
  obtain ⟨-, -, -, -, e4, e5, e6, e7, e8, e9⟩ := idx_facts t
  have ht : t.val = (i 0).val / 5000 := rfl
  refine ⟨t, flush2_4 t, ?_⟩
  rw [mem_blk_enc]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 16 ≤ (i 1).val ∧ (i 1).val < win2_4.index t (1 : Fin 2) * 16 + 16; omega

/-- Output window 2: the left half of the table. -/
theorem arr_means (c : Dev nD) :
    (dat2 (F := Ideal) V c).arrAt 2 cfg2.N = KerTerm.left16 (V c main_v16) := by
  exact (dat2 (F := Ideal) V c).arrAt_eq_of_cover 2 (KerTerm.left16 (V c main_v16)) (fun t _ => flushed_means V c t) cover_means

/-- Output window 3: `elu + 1` of the right half of the table. -/
theorem arr_std (c : Dev nD) :
    (dat2 (F := Ideal) V c).arrAt 3 cfg2.N = KerTerm.right16elu (V c main_v16) := by
  exact (dat2 (F := Ideal) V c).arrAt_eq_of_cover 3 (KerTerm.right16elu (V c main_v16)) (fun t _ => flushed_std V c t) cover_std

/-- Output window 4: the left half plus (`elu + 1` of the right half) times the noise (window 1). -/
theorem arr_enc (c : Dev nD) :
    (dat2 (F := Ideal) V c).arrAt 4 cfg2.N = KerTerm.mix (V c main_v16) (V c main_arg4) := by
  exact (dat2 (F := Ideal) V c).arrAt_eq_of_cover 4 (KerTerm.mix (V c main_v16) (V c main_arg4)) (fun t _ => flushed_enc V c t) cover_enc

end Cert.KernelIdeal.KerReg2

end
-- ==== Proof.KerReg3.lean ====
/-
  Region 3, as one function of whole arrays: the ten row blocks hold the block's rows times the 16 x 32 matrix, so the
  array the region leaves is the whole table times the matrix.
-/
import proofs.«409194_j73143293051581_2_alg».proof.Proof.Gen.KernelIdeal.Frame
import proofs.«409194_j73143293051581_2_alg».proof.Proof.KerTerm
import Idealize.ShloMosaic.Lib.Pipeline.Value
import Idealize.ShloMosaic.Lib.ValueIdx
import Idealize.ShloMosaic.PureOps.Ideal.Laws

set_option maxRecDepth 16384

noncomputable section

namespace Cert.KernelIdeal.KerReg3

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the TensorCore's buffer contents when the region is entered
variable (V : (c : Dev nD) → (b : Ref sig .tc) → Buf (Elt Ideal) ((c : Thread nD τ).loc b))

/-- The offsets of a whole-buffer access are zero on both axes. -/
private theorem hz : (![0, 0] : Fin 2 → Nat) = fun _ => 0 := funext fun a => by fin_cases a <;> rfl

/-! ## The body's product at an index -/

/-- The product's dimension numbers: the table's axis 1 against the matrix's axis 0. -/
private abbrev D := dot_S5000x16_S16x32_S5000x32_1_0_0_1_n_n

private theorem lhs_0 (j : S5000x32.Idx) (k : D.contr.Idx) : (D.lhsIdx j k 0 : ℕ) = j 0 := by
  simp [DotDims.lhsIdx, D, dot_S5000x16_S16x32_S5000x32_1_0_0_1_n_n]; rfl
private theorem lhs_1 (j : S5000x32.Idx) (k : D.contr.Idx) : (D.lhsIdx j k 1 : ℕ) = k ⟨0, by decide⟩ := by
  simp [DotDims.lhsIdx, D, dot_S5000x16_S16x32_S5000x32_1_0_0_1_n_n]; rfl
private theorem rhs_0 (j : S5000x32.Idx) (k : D.contr.Idx) : (D.rhsIdx j k 0 : ℕ) = k ⟨0, by decide⟩ := by
  simp [DotDims.rhsIdx, D, dot_S5000x16_S16x32_S5000x32_1_0_0_1_n_n]; rfl
private theorem rhs_1 (j : S5000x32.Idx) (k : D.contr.Idx) : (D.rhsIdx j k 1 : ℕ) = j 1 := by
  simp [DotDims.rhsIdx, D, dot_S5000x16_S16x32_S5000x32_1_0_0_1_n_n]; rfl

/-- Entry (p, j) of the body's result on a block: the sum over κ of row p of the table block at κ times column j of the
    matrix at κ (a cast to the same shape and a change of format are the identity on the extended reals, and the product accumulates into zero). -/
private theorem pay_apply (x0 : Vec Ideal S5000x16 .f32) (x1 : Vec Ideal S16x32 .f32) (p : Fin 5000) (j : Fin 32) :
    k3_pay1 x0 x1 (ix2 p j) = ∑ κ : Fin 16, x0 (ix2 p κ) * x1 (ix2 κ j) := by
  unfold k3_pay1
  simp only [matmul]
  rw [Ideal.matmul_constant_zero_apply]
  rw [← Equiv.sum_comp (contrEquiv1 D 16 rfl rfl).symm]
  refine Finset.sum_congr rfl fun κ _ => ?_
  rw [truncf_apply, truncf_apply, shapeCast_self]
  congr 2
  · funext a; apply Fin.ext
    match a with
    | ⟨0, _⟩ => exact lhs_0 _ _
    | ⟨1, _⟩ => exact (lhs_1 _ _).trans (contrEquiv1_symm_val D 16 rfl rfl κ)
  · funext a; apply Fin.ext
    match a with
    | ⟨0, _⟩ => exact (rhs_0 _ _).trans (contrEquiv1_symm_val D 16 rfl rfl κ)
    | ⟨1, _⟩ => exact rhs_1 _ _

/-- So, when row p of the table block is row (i 0) of a table A and the matrix block is a matrix W, entry (p, j) of the
    body's result is entry i of A times W, for any i in column j. -/
private theorem pay_eq_mm (x0 : Vec Ideal S5000x16 .f32) (x1 : Vec Ideal S16x32 .f32)
    (A : S50000x16.Idx → EReal) (W : S16x32.Idx → EReal) (p : Fin 5000) (j : Fin 32) (i : S50000x32.Idx)
    (h0 : ∀ (κ : Fin 16) (k : S50000x16.Idx), (k 0).val = (i 0).val → (k 1).val = κ.val → x0 (ix2 p κ) = A k)
    (h1 : ∀ (κ : Fin 16) (k : S16x32.Idx), (k 0).val = κ.val → (k 1).val = (i 1).val → x1 (ix2 κ j) = W k) :
    k3_pay1 x0 x1 (ix2 p j) = KerTerm.mm 50000 16 32 A W i := by
  rw [pay_apply]
  unfold KerTerm.mm
  exact Finset.sum_congr rfl fun κ _ => by rw [h0 κ (ix2 (i 0) κ) rfl rfl, h1 κ (ix2 κ (i 1)) rfl rfl]

/-! ## The blocks -/

/-- The index maps over the grid: point t's table block and result block are block t of the rows, all columns; the
    matrix's block is the whole matrix at every point. -/
private theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Entry x of the table's block at point t is entry (5000 t + x 0, x 1) of the table. -/
private theorem tblk_apply (c : Dev nD) (t : Fin cfg3.N) (x : S5000x16.Idx) (k : S50000x16.Idx)
    (hk0 : (k 0).val = 5000 * t.val + (x 0).val) (hk1 : (k 1).val = (x 1).val) :
    (iblk3 (F := Ideal) V c 0 t : Vec Ideal S5000x16 .f32) x = (V c main_v17_2 : S50000x16.Idx → EReal) k := by
  obtain ⟨e0, e1, -, -, -, -⟩ := idx_facts t
  unfold iblk3
  rw [View.read_apply]
  show V c main_v17_2 _ = V c main_v17_2 _
  congr 1
  funext a
  apply Fin.ext
  match a with
  | ⟨0, _⟩ => show win3_0.index t (0 : Fin 2) * 5000 + 1 * (x 0).val = (k 0).val; rw [e0, hk0]; omega
  | ⟨1, _⟩ => show win3_0.index t (1 : Fin 2) * 16 + 1 * (x 1).val = (k 1).val; rw [e1, hk1]; omega

/-- Entry x of the matrix's block at any point is entry x of the matrix. -/
private theorem wblk_apply (c : Dev nD) (t : Fin cfg3.N) (x : S16x32.Idx) (k : S16x32.Idx)
    (hk0 : (k 0).val = (x 0).val) (hk1 : (k 1).val = (x 1).val) :
    (iblk3 (F := Ideal) V c 1 t : Vec Ideal S16x32 .f32) x = (V c main_arg8 : S16x32.Idx → EReal) k := by
  obtain ⟨-, -, e2, e3, -, -⟩ := idx_facts t
  unfold iblk3
  rw [View.read_apply]
  show V c main_arg8 _ = V c main_arg8 _
  congr 1
  funext a
  apply Fin.ext
  match a with
  | ⟨0, _⟩ => show win3_1.index t (0 : Fin 2) * 16 + 1 * (x 0).val = (k 0).val; rw [e2, hk0]; omega
  | ⟨1, _⟩ => show win3_1.index t (1 : Fin 2) * 32 + 1 * (x 1).val = (k 1).val; rw [e3, hk1]; omega

/-- What point t writes back is block t of the whole table times the matrix. -/
private theorem flushed_eq (c : Dev nD) (t : Fin cfg3.N) :
    (dat3 (F := Ideal) V c).flushed 2 t
      = ((cfg3.win 2).blk t).view.read (Elt Ideal) (KerTerm.mm 50000 16 32 (V c main_v17_2) (V c main_arg8)) := by
  show (cfg3.win 2).cut (grid3.coords t) ((dat3 (F := Ideal) V c).after 2 t) = _
  rw [after3_2]
  unfold out3_2
  rw [View.canon_unit_zero hz]
  simp only [View.ld_unit_zero (S := S5000x16) hz, View.ld_unit_zero (S := S16x32) hz]
  obtain ⟨-, -, -, -, e4, e5⟩ := idx_facts t
  funext y
  obtain ⟨p, j, rfl⟩ : ∃ (p : Fin 5000) (j : Fin 32), y = ix2 p j := ⟨y 0, y 1, eq_ix2 y⟩
  show k3_pay1 (iblk3 V c 0 t) (iblk3 V c 1 t) (ix2 p j)
    = KerTerm.mm 50000 16 32 (V c main_v17_2) (V c main_arg8) (((cfg3.win 2).blk t).view.emb (ix2 p j))
  have hi0 : ((((cfg3.win 2).blk t).view.emb (ix2 p j)) 0).val = win3_2.index t (0 : Fin 2) * 5000 + 1 * p.val := rfl
  have hi1 : ((((cfg3.win 2).blk t).view.emb (ix2 p j)) 1).val = win3_2.index t (1 : Fin 2) * 32 + 1 * j.val := rfl
  refine pay_eq_mm _ _ _ _ p j _ (fun κ k hk0 hk1 => ?_) (fun κ k hk0 hk1 => ?_)
  · exact tblk_apply V c t (ix2 p κ) k (by rw [hk0, hi0, e4]; show _ = 5000 * t.val + p.val; omega) hk1
  · exact wblk_apply V c t (ix2 κ j) k hk0 (by rw [hk1, hi1, e5]; show _ = j.val; omega)

/-! ## From the blocks to the array -/

/-- An index of the result array is in point t's block iff each coordinate is in the block's range on its axis. -/
private theorem mem_blk (t : Fin cfg3.N) (i : S50000x32.Idx) :
    i ∈ ((cfg3.win 2).blk t).view.set ↔ ∀ a : Fin 2, win3_2.index t a * S5000x32.size a ≤ (i a).val
      ∧ (i a).val < win3_2.index t a * S5000x32.size a + S5000x32.size a := by
  show i ∈ ((View.whole main_v18).slice (win3_2.rect t)).set ↔ _
  rw [View.set_slice_whole, Rect.mem_set_unit]
  exact Iff.rfl

/-- Every index of the result array is in the block of the point its row falls in: row r is in block r / 5000. -/
private theorem cover (i : S50000x32.Idx) :
    ∃ t : Fin cfg3.N, (cfg3.win 2).flush t = true ∧ i ∈ ((cfg3.win 2).blk t).view.set := by
  have hi0 : (i 0).val < 50000 := (i 0).isLt
  have hi1 : (i 1).val < 32 := (i 1).isLt
  have hN : cfg3.N = 10 := N_3
  let t : Fin cfg3.N := ⟨(i 0).val / 5000, by rw [hN]; omega⟩
  obtain ⟨-, -, -, -, e4, e5⟩ := idx_facts t
  have ht : t.val = (i 0).val / 5000 := rfl
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 32 ≤ (i 1).val ∧ (i 1).val < win3_2.index t (1 : Fin 2) * 32 + 32; omega

/-- The array region 3 leaves in its output window: the table (window 0) times the matrix (window 1). -/
theorem arr (c : Dev nD) :
    (dat3 (F := Ideal) V c).arrAt 2 cfg3.N = KerTerm.mm 50000 16 32 (V c main_v17_2) (V c main_arg8) := by
  exact (dat3 (F := Ideal) V c).arrAt_eq_of_cover 2 (KerTerm.mm 50000 16 32 (V c main_v17_2) (V c main_arg8))
    (fun t _ => flushed_eq V c t) cover

end Cert.KernelIdeal.KerReg3

end
-- ==== Proof.KerReg4.lean ====
/-
  Region 4, as one function of whole arrays: each row block is clamped at zero and multiplied by the 32 x 128 matrix,
  so the array the region leaves is the clamped table times the matrix.
-/
import proofs.«409194_j73143293051581_2_alg».proof.Proof.Gen.KernelIdeal.Frame
import proofs.«409194_j73143293051581_2_alg».proof.Proof.KerTerm
import Idealize.ShloMosaic.Lib.Pipeline.Value
import Idealize.ShloMosaic.Lib.ValueIdx
import Idealize.ShloMosaic.PureOps.Ideal.Laws

set_option maxRecDepth 16384

noncomputable section

namespace Cert.KernelIdeal.KerReg4

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The contraction's index maps, axis by axis -/

private theorem lhs_0 (j : S5000x128.Idx) (k : dot_S5000x32_S32x128_S5000x128_1_0_0_1_n_n.contr.Idx) :
    (dot_S5000x32_S32x128_S5000x128_1_0_0_1_n_n.lhsIdx j k 0 : ℕ) = j 0 := by
  simp [DotDims.lhsIdx, dot_S5000x32_S32x128_S5000x128_1_0_0_1_n_n]; rfl
private theorem lhs_1 (j : S5000x128.Idx) (k : dot_S5000x32_S32x128_S5000x128_1_0_0_1_n_n.contr.Idx) :
    (dot_S5000x32_S32x128_S5000x128_1_0_0_1_n_n.lhsIdx j k 1 : ℕ) = k ⟨0, by decide⟩ := by
  simp [DotDims.lhsIdx, dot_S5000x32_S32x128_S5000x128_1_0_0_1_n_n]; rfl
private theorem rhs_0 (j : S5000x128.Idx) (k : dot_S5000x32_S32x128_S5000x128_1_0_0_1_n_n.contr.Idx) :
    (dot_S5000x32_S32x128_S5000x128_1_0_0_1_n_n.rhsIdx j k 0 : ℕ) = k ⟨0, by decide⟩ := by
  simp [DotDims.rhsIdx, dot_S5000x32_S32x128_S5000x128_1_0_0_1_n_n]; rfl
private theorem rhs_1 (j : S5000x128.Idx) (k : dot_S5000x32_S32x128_S5000x128_1_0_0_1_n_n.contr.Idx) :
    (dot_S5000x32_S32x128_S5000x128_1_0_0_1_n_n.rhsIdx j k 1 : ℕ) = j 1 := by
  simp [DotDims.rhsIdx, dot_S5000x32_S32x128_S5000x128_1_0_0_1_n_n]; rfl

/-- The body's payload at row `p`, column `j` of the block: the clamped row times the matrix's column. -/
private theorem pay_apply (x0 : Vec Ideal S5000x32 .f32) (x1 : Vec Ideal S32x128 .f32) (p : Fin 5000) (j : Fin 128) :
    k4_pay1 (F := Ideal) x0 x1 (ix2 p j) = ∑ κ : Fin 32, max (x0 (ix2 p κ)) 0 * x1 (ix2 κ j) := by
  unfold k4_pay1
  simp only [matmul]
  rw [Ideal.matmul_constant_zero_apply]
  rw [← Equiv.sum_comp (contrEquiv1 dot_S5000x32_S32x128_S5000x128_1_0_0_1_n_n 32 rfl rfl).symm]
  refine Finset.sum_congr rfl fun κ _ => ?_
  rw [truncf_apply, truncf_apply, maximumf_apply, broadcast_apply, shapeCast_self]
  have hl : dot_S5000x32_S32x128_S5000x128_1_0_0_1_n_n.lhsIdx (ix2 p j)
      ((contrEquiv1 dot_S5000x32_S32x128_S5000x128_1_0_0_1_n_n 32 rfl rfl).symm κ) = ix2 p κ := by
    funext a; apply Fin.ext
    match a with
    | ⟨0, _⟩ => exact lhs_0 _ _
    | ⟨1, _⟩ => exact (lhs_1 _ _).trans (contrEquiv1_symm_val _ 32 rfl rfl κ)
  have hr : dot_S5000x32_S32x128_S5000x128_1_0_0_1_n_n.rhsIdx (ix2 p j)
      ((contrEquiv1 dot_S5000x32_S32x128_S5000x128_1_0_0_1_n_n 32 rfl rfl).symm κ) = ix2 κ j := by
    funext a; apply Fin.ext
    match a with
    | ⟨0, _⟩ => exact (rhs_0 _ _).trans (contrEquiv1_symm_val _ 32 rfl rfl κ)
    | ⟨1, _⟩ => exact rhs_1 _ _
  rw [hl, hr]
  show max _ (Ideal.ofBits .f32 0x00000000#32) * _ = _
  rw [Ideal.ofBits_zero_f32]

/-- The body's payload against whole arrays: when the row block reads row `r` of the table `A` and the matrix
    block reads the matrix `B`, entry `(p, q)` of the payload is entry `(r, q)` of the clamped `A` times `B`. -/
private theorem point (x0 : Vec Ideal S5000x32 .f32) (x1 : Vec Ideal S32x128 .f32)
    (A : S50000x32.Idx → EReal) (B : S32x128.Idx → EReal) (p : Fin 5000) (q : Fin 128) (r : Fin 50000)
    (h0 : ∀ κ : Fin 32, x0 (ix2 p κ) = A (ix2 r κ)) (h1 : ∀ κ : Fin 32, x1 (ix2 κ q) = B (ix2 κ q)) :
    k4_pay1 (F := Ideal) x0 x1 (ix2 p q) = KerTerm.mm 50000 32 128 (KerTerm.relu A) B (ix2 r q) := by
  rw [pay_apply]
  show _ = ∑ κ : Fin 32, max (A (ix2 r κ)) 0 * B (ix2 κ q)
  exact Finset.sum_congr rfl fun κ _ => by rw [h0 κ, h1 κ]

/-! ## From blocks to the array -/

private theorem hz : (![0, 0] : Fin 2 → Nat) = fun _ => 0 := funext fun a => by fin_cases a <;> rfl

/-- The index maps over the grid: at point `t` the table's window and the output's window sit at row block `t`,
    column block 0; the matrix's window is the whole matrix at every point. -/
private theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

section Blocks
variable (V : (c : Dev nD) → (b : Ref sig .tc) → Buf (Elt Ideal) ((c : Thread nD τ).loc b))

/-- The table's block at point `t` is rows `5000 t … 5000 t + 4999` of the table. -/
private theorem iblk0_apply (c : Dev nD) (t : Fin cfg4.N) (p : Fin 5000) (κ : Fin 32) (r : Fin 50000)
    (hr : r.val = 5000 * t.val + p.val) :
    iblk4 (F := Ideal) V c 0 t (ix2 p κ) = V c main_v25 (ix2 r κ) := by
  obtain ⟨e0, e1, e2, e3, e4, e5⟩ := idx_facts t
  show V c main_v25 (((cfg4.win 0).blk t).view.emb (ix2 p κ)) = V c main_v25 (ix2 r κ)
  congr 1
  funext a; apply Fin.ext
  match a with
  | ⟨0, _⟩ => show win4_0.index t (0 : Fin 2) * 5000 + 1 * p.val = r.val; omega
  | ⟨1, _⟩ => show win4_0.index t (1 : Fin 2) * 32 + 1 * κ.val = κ.val; omega

/-- The matrix's block at every point is the matrix. -/
private theorem iblk1_apply (c : Dev nD) (t : Fin cfg4.N) (κ : Fin 32) (q : Fin 128) :
    iblk4 (F := Ideal) V c 1 t (ix2 κ q) = V c main_arg9 (ix2 κ q) := by
  obtain ⟨e0, e1, e2, e3, e4, e5⟩ := idx_facts t
  show V c main_arg9 (((cfg4.win 1).blk t).view.emb (ix2 κ q)) = V c main_arg9 (ix2 κ q)
  congr 1
  funext a; apply Fin.ext
  match a with
  | ⟨0, _⟩ => show win4_1.index t (0 : Fin 2) * 32 + 1 * κ.val = κ.val; omega
  | ⟨1, _⟩ => show win4_1.index t (1 : Fin 2) * 128 + 1 * q.val = q.val; omega

/-- Entry `(p, q)` of the output's block at point `t` sits at row `5000 t + p`, column `q` of the array. -/
private theorem emb_out (t : Fin cfg4.N) (p : Fin 5000) (q : Fin 128) (r : Fin 50000) (hr : r.val = 5000 * t.val + p.val) :
    ((cfg4.win 2).blk t).view.emb (ix2 p q) = (ix2 r q : S50000x128.Idx) := by
  obtain ⟨e0, e1, e2, e3, e4, e5⟩ := idx_facts t
  funext a; apply Fin.ext
  match a with
  | ⟨0, _⟩ => show win4_2.index t (0 : Fin 2) * 5000 + 1 * p.val = r.val; omega
  | ⟨1, _⟩ => show win4_2.index t (1 : Fin 2) * 128 + 1 * q.val = q.val; omega

/-- What point `t` writes back is block `t` of the clamped table times the matrix. -/
private theorem flushed_eq (c : Dev nD) (t : Fin cfg4.N) :
    (dat4 (F := Ideal) V c).flushed 2 t
      = ((cfg4.win 2).blk t).view.read (Elt Ideal)
          (KerTerm.mm 50000 32 128 (KerTerm.relu (V c main_v25)) (V c main_arg9)) := by
  show (cfg4.win 2).cut (grid4.coords t) ((dat4 V c).after 2 t) = _
  rw [after4_2]
  unfold out4_2
  rw [View.canon_unit_zero hz]
  simp only [View.ld_unit_zero (S := S5000x32) hz, View.ld_unit_zero (S := S32x128) hz]
  funext y
  obtain ⟨p, q, rfl⟩ : ∃ (p : Fin 5000) (q : Fin 128), y = ix2 p q := ⟨y 0, y 1, eq_ix2 y⟩
  have hlt : 5000 * t.val + p.val < 50000 := by
    have ht : t.val < grid4.N := t.isLt
    rw [N_4] at ht; have := p.isLt; omega
  show k4_pay1 (F := Ideal) (iblk4 V c 0 t) (iblk4 V c 1 t) (ix2 p q)
    = KerTerm.mm 50000 32 128 (KerTerm.relu (V c main_v25)) (V c main_arg9) (((cfg4.win 2).blk t).view.emb (ix2 p q))
  rw [emb_out t p q ⟨5000 * t.val + p.val, hlt⟩ rfl]
  exact point _ _ _ _ p q ⟨5000 * t.val + p.val, hlt⟩
    (fun κ => iblk0_apply V c t p κ _ rfl) (fun κ => iblk1_apply V c t κ q)

/-- An index of the array is in point `t`'s block iff each coordinate is in the block's range on its axis. -/
private theorem mem_blk (t : Fin cfg4.N) (i : S50000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v26).slice (win4_2.rect t)).set ↔ _
  rw [View.set_slice_whole, Rect.mem_set_unit]
  exact Iff.rfl

/-- Every row `r` of the array is in the block of point `r / 5000`. -/
private theorem cover (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  obtain ⟨t, ht⟩ : ∃ t : Fin cfg4.N, t.val = (i 0).val / 5000 :=
    ⟨⟨(i 0).val / 5000, by show _ < grid4.N; rw [N_4]; omega⟩, rfl⟩
  obtain ⟨e0, e1, e2, e3, e4, e5⟩ := idx_facts t
  refine ⟨t, flush4_2 t, ?_⟩
  rw [mem_blk]
  intro a
  match a with
  | ⟨0, _⟩ =>
    show win4_2.index t (0 : Fin 2) * 5000 ≤ (i 0).val ∧ (i 0).val < win4_2.index t (0 : Fin 2) * 5000 + 5000
    omega
  | ⟨1, _⟩ =>
    show win4_2.index t (1 : Fin 2) * 128 ≤ (i 1).val ∧ (i 1).val < win4_2.index t (1 : Fin 2) * 128 + 128
    omega

end Blocks

-- the TensorCore's buffer contents when the region is entered
variable (V : (c : Dev nD) → (b : Ref sig .tc) → Buf (Elt Ideal) ((c : Thread nD τ).loc b))

/-- The array region 4 leaves in its output window: the clamped table (window 0) times the matrix (window 1). -/
theorem arr (c : Dev nD) :
    (dat4 (F := Ideal) V c).arrAt 2 cfg4.N = KerTerm.mm 50000 32 128 (KerTerm.relu (V c main_v25)) (V c main_arg9) :=
  (dat4 (F := Ideal) V c).arrAt_eq_of_cover 2 _ (fun t _ => flushed_eq V c t) cover

end Cert.KernelIdeal.KerReg4

end
-- ==== Proof.KerReg5.lean ====
/-
  Region 5, as one function of whole arrays: each row block is clamped at zero, so the array the region leaves is the
  clamped table.
-/
import proofs.«409194_j73143293051581_2_alg».proof.Proof.Gen.KernelIdeal.Frame
import proofs.«409194_j73143293051581_2_alg».proof.Proof.KerTerm
import Idealize.ShloMosaic.Lib.Pipeline.Value
import Idealize.ShloMosaic.Lib.ValueIdx
import Idealize.ShloMosaic.PureOps.Ideal.Laws

set_option maxRecDepth 16384

noncomputable section

namespace Cert.KernelIdeal.KerReg5

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The body's arithmetic at an index of the block: the entry clamped at zero. -/
theorem pay_apply (x0 : Vec Ideal S5000x128 .f32) (j : S5000x128.Idx) :
    k5_pay1 (F := Ideal) x0 j = max (x0 j) 0 := by
  unfold k5_pay1
  rw [maximumf_apply, broadcast_apply, shapeCast_self]
  show max (x0 j) (Ideal.ofBits .f32 0x00000000#32) = _
  rw [Ideal.ofBits_zero_f32]

/-- The printed index maps over the grid: block `t` of either window is row block `t`, column block 0. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0 :=
  (by decide +kernel : ∀ t : Fin grid5.N, _)

/-- What point `t` writes back is block `t` of the clamped table. -/
theorem flushed_eq (c : Dev nD) (t : Fin cfg5.N) :
    (dat5 (F := Ideal) V c).flushed 1 t
      = ((cfg5.win 1).blk t).view.read (Elt Ideal) (KerTerm.relu (V c main_v33)) := by
  show (cfg5.win 1).cut (grid5.coords t) ((dat5 V c).after 1 t) = _
  rw [after5_1]
  unfold out5_1
  rw [View.canon_unit_zero hz]
  simp only [View.ld_unit_zero (S := S5000x128) hz]
  obtain ⟨e0, e1, e2, e3⟩ := idx_facts t
  funext j
  refine (pay_apply _ _).trans ?_
  show @max EReal _ ((V c main_v33 : S50000x128.Idx → EReal) (((cfg5.win 0).blk t).view.emb j)) 0 = @max EReal _ ((V c main_v33 : S50000x128.Idx → EReal) (((cfg5.win 1).blk t).view.emb j)) 0
  have h0 : ((cfg5.win 0).blk t).view.emb j = ((cfg5.win 1).blk t).view.emb j := by
    funext a; apply Fin.ext
    match a with
    | ⟨0, _⟩ => show win5_0.index t (0 : Fin 2) * 5000 + 1 * (j 0).val = win5_1.index t (0 : Fin 2) * 5000 + 1 * (j 0).val; omega
    | ⟨1, _⟩ => show win5_0.index t (1 : Fin 2) * 128 + 1 * (j 1).val = win5_1.index t (1 : Fin 2) * 128 + 1 * (j 1).val; omega
  rw [h0]

/-- An index of the array is in point `t`'s block iff each coordinate is in the block's range on its axis. -/
theorem mem_blk (t : Fin cfg5.N) (i : S50000x128.Idx) :
    i ∈ ((cfg5.win 1).blk t).view.set ↔ ∀ a : Fin 2, win5_1.index t a * S5000x128.size a ≤ (i a).val
      ∧ (i a).val < win5_1.index t a * S5000x128.size a + S5000x128.size a := by
  show i ∈ ((View.whole main_v34).slice (win5_1.rect t)).set ↔ _
  rw [View.set_slice_whole, Rect.mem_set_unit]
  exact Iff.rfl

/-- Every index of the array is in the block of the point its row falls in: row `r` is in row block `r / 5000`. -/
theorem cover (i : S50000x128.Idx) :
    ∃ t : Fin cfg5.N, (cfg5.win 1).flush t = true ∧ i ∈ ((cfg5.win 1).blk t).view.set := by
  have hi0 : (i 0).val < 50000 := (i 0).isLt
  have hi1 : (i 1).val < 128 := (i 1).isLt
  have hN : cfg5.N = 10 := N_5
  let t : Fin cfg5.N := ⟨(i 0).val / 5000, by rw [hN]; omega⟩
  obtain ⟨e0, e1, e2, e3⟩ := idx_facts t
  have ht : t.val = (i 0).val / 5000 := rfl
  refine ⟨t, flush5_1 t, ?_⟩
  rw [mem_blk]
  intro a
  match a with
  | ⟨0, _⟩ => show win5_1.index t (0 : Fin 2) * 5000 ≤ (i 0).val ∧ (i 0).val < win5_1.index t (0 : Fin 2) * 5000 + 5000; omega
  | ⟨1, _⟩ => show win5_1.index t (1 : Fin 2) * 128 ≤ (i 1).val ∧ (i 1).val < win5_1.index t (1 : Fin 2) * 128 + 128; omega

/-- The array region 5 leaves in its output window: the table (window 0) clamped at zero. -/
theorem arr (c : Dev nD) :
    (dat5 (F := Ideal) V c).arrAt 1 cfg5.N = KerTerm.relu (V c main_v33) := by
  exact (dat5 (F := Ideal) V c).arrAt_eq_of_cover 1 (KerTerm.relu (V c main_v33)) (fun t _ => flushed_eq V c t) cover

end Cert.KernelIdeal.KerReg5

end
-- ==== Proof.KerHost1.lean ====
/-
  The first sparse stretch of host operations, as one function: from any buffer contents, the 23 operations of the
  filled row take followed by the broadcasts, the product with the edge weights, the zero table and the accumulating
  scatter leave, in the aggregate's buffer, the sparse step of the gathered table; and the concatenation leaves the
  two encoder matrices side by side.
-/
import proofs.«409194_j73143293051581_2_alg».proof.Proof.Gen.KernelIdeal.Frame
import proofs.«409194_j73143293051581_2_alg».proof.Proof.KerTerm
import Idealize.ShloMosaic.Lib.StableHlo.Run

set_option maxRecDepth 16384

noncomputable section

namespace Cert.KernelIdeal.KerHost1

open Idealize.ShloMosaic Idealize.ShloMosaic.TcCoe Idealize.SL.Sem Idealize.ShloMosaic.StableHlo
open Cert.KernelIdeal Cert.KernelIdeal.Gen

-- the buffer contents before the stretch
variable (W : Valuation τ sig (Elt Ideal))

-- the gather, the accumulating scatter and the reduction enter only as functions of their operands: what matters
-- here is how the operations compose, not what each computes
attribute [local irreducible] Host.gather Host.scatterAdd Host.reduce

/-! ## The take's operations in three stages: the index column, the range mask, the filled gather -/

/-- The first eight operations: the wrapped source indices laid out as a column. -/
private abbrev opsA : List (HloOp τ sig (Elt Ideal)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S1650000, .i32⟩) (broadcastInDim S1650000 ![] bcast_S_S1650000),
    StableHlo.TRef.binary (.of main_arg1 : StableHlo.TRef sig ⟨S1650000, .i32⟩) (.of main_call0_v0 : StableHlo.TRef sig ⟨S1650000, .i32⟩) (.of main_call0_v1 : StableHlo.TRef sig ⟨S1650000, .i1⟩) (cmpi .slt),
    StableHlo.TRef.nullary (.of main_call0_c_0 : StableHlo.TRef sig ⟨S_, .i32⟩) (constantI S_ 32 50000#32),
    StableHlo.TRef.unary (.of main_call0_c_0 : StableHlo.TRef sig ⟨S_, .i32⟩) (.of main_call0_v2 : StableHlo.TRef sig ⟨S1650000, .i32⟩) (broadcastInDim S1650000 ![] bcast_S_S1650000),
    StableHlo.TRef.binary (.of main_arg1 : StableHlo.TRef sig ⟨S1650000, .i32⟩) (.of main_call0_v2 : StableHlo.TRef sig ⟨S1650000, .i32⟩) (.of main_call0_v3 : StableHlo.TRef sig ⟨S1650000, .i32⟩) addi,
    StableHlo.TRef.ternary (.of main_call0_v1 : StableHlo.TRef sig ⟨S1650000, .i1⟩) (.of main_call0_v3 : StableHlo.TRef sig ⟨S1650000, .i32⟩) (.of main_arg1 : StableHlo.TRef sig ⟨S1650000, .i32⟩) (.of main_call0_v4 : StableHlo.TRef sig ⟨S1650000, .i32⟩) select,
    StableHlo.TRef.unary main_call0_call0.v0 (.of main_call0_v5 : StableHlo.TRef sig ⟨S1650000x1, .i32⟩) (broadcastInDim S1650000x1 ![0] bcast_S1650000_S1650000x1_0) ]

/-- The next ten: the range mask of the column. -/
private abbrev opsB : List (HloOp τ sig (Elt Ideal)) :=
  [ StableHlo.TRef.nullary (.of main_call0_c_1 : StableHlo.TRef sig ⟨S1, .i32⟩) (constantI S1 32 49999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S1650000x1, .i32⟩) (broadcastInDim S1650000x1 ![] bcast_S_S1650000x1),
    StableHlo.TRef.binary (.of main_call0_v5 : StableHlo.TRef sig ⟨S1650000x1, .i32⟩) (.of main_call0_v6 : StableHlo.TRef sig ⟨S1650000x1, .i32⟩) (.of main_call0_v7 : StableHlo.TRef sig ⟨S1650000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S1650000x1, .i32⟩) (broadcastInDim S1650000x1 ![0, 1] bcast_S1x1_S1650000x1_0_1),
    StableHlo.TRef.binary (.of main_call0_v5 : StableHlo.TRef sig ⟨S1650000x1, .i32⟩) (.of main_call0_v9 : StableHlo.TRef sig ⟨S1650000x1, .i32⟩) (.of main_call0_v10 : StableHlo.TRef sig ⟨S1650000x1, .i1⟩) (cmpi .sle),
    StableHlo.TRef.binary (.of main_call0_v7 : StableHlo.TRef sig ⟨S1650000x1, .i1⟩) (.of main_call0_v10 : StableHlo.TRef sig ⟨S1650000x1, .i1⟩) (.of main_call0_v11 : StableHlo.TRef sig ⟨S1650000x1, .i1⟩) andi,
    StableHlo.TRef.nullary (.of main_call0_c_3 : StableHlo.TRef sig ⟨S_, .i1⟩) (constantI S_ 1 1#1),
    StableHlo.TRef.binary (.of main_call0_v11 : StableHlo.TRef sig ⟨S1650000x1, .i1⟩) (.of main_call0_c_3 : StableHlo.TRef sig ⟨S_, .i1⟩) (.of main_call0_v12 : StableHlo.TRef sig ⟨S1650000, .i1⟩) (fun x v => Host.reduce IntOp.andi x v reducesTo_S1650000x1_S1650000_d1 h_S_) ]

/-- The last five: the gather, the mask laid along the rows, the fill, the select. -/
private abbrev opsC : List (HloOp τ sig (Elt Ideal)) :=
  [ StableHlo.TRef.binary (.of main_v0 : StableHlo.TRef sig ⟨S50000x32, .f32⟩) (.of main_call0_v5 : StableHlo.TRef sig ⟨S1650000x1, .i32⟩) (.of main_call0_v13 : StableHlo.TRef sig ⟨S1650000x32, .f32⟩) (fun x i => Host.gather gather_S50000x32_S1650000x1_S1650000x32_1_0_n_n_0_1_132 x i),
    StableHlo.TRef.unary (.of main_call0_v12 : StableHlo.TRef sig ⟨S1650000, .i1⟩) (.of main_call0_v14 : StableHlo.TRef sig ⟨S1650000x32, .i1⟩) (broadcastInDim S1650000x32 ![0] bcast_S1650000_S1650000x32_0),
    StableHlo.TRef.nullary (.of main_call0_cst : StableHlo.TRef sig ⟨S_, .f32⟩) (constant (F := Ideal) S_ .f32 0x7FC00000#32),
    StableHlo.TRef.unary (.of main_call0_cst : StableHlo.TRef sig ⟨S_, .f32⟩) (.of main_call0_v15 : StableHlo.TRef sig ⟨S1650000x32, .f32⟩) (broadcastInDim S1650000x32 ![] bcast_S_S1650000x32),
    StableHlo.TRef.ternary (.of main_call0_v14 : StableHlo.TRef sig ⟨S1650000x32, .i1⟩) (.of main_call0_v13 : StableHlo.TRef sig ⟨S1650000x32, .f32⟩) (.of main_call0_v15 : StableHlo.TRef sig ⟨S1650000x32, .f32⟩) (.of main_v1 : StableHlo.TRef sig ⟨S1650000x32, .f32⟩) select ]

/-- The take's operations are the three stages in order. -/
private theorem hostOps1_split : (hostOps1 (F := Ideal)) = opsA ++ (opsB ++ opsC) := rfl

-- any buffer contents
variable (V : Valuation τ sig (Elt Ideal))

/-- Stage one leaves the column of wrapped source indices. -/
private theorem A_col :
    StableHlo.after opsA V (Proc.devRef .tc main_call0_v5) = KerTerm.srcCol (V (Proc.devRef .tc main_arg1)) := by
  after_results_simp
  rfl

/-- Stage one does not write the table. -/
private theorem A_v0 : StableHlo.after opsA V (Proc.devRef .tc main_v0) = V (Proc.devRef .tc main_v0) := by
  after_results_simp

/-- Stage two leaves the range mask of whatever column it finds. -/
private theorem B_ok :
    StableHlo.after opsB V (Proc.devRef .tc main_call0_v12)
      = Host.reduce IntOp.andi
          (andi (cmpi .sge (V (Proc.devRef .tc main_call0_v5) : IVec S1650000x1 32)
              (broadcastInDim S1650000x1 ![] bcast_S_S1650000x1 (constantI S_ 32 0#32)))
            (cmpi .sle (V (Proc.devRef .tc main_call0_v5) : IVec S1650000x1 32)
              (broadcastInDim S1650000x1 ![0, 1] bcast_S1x1_S1650000x1_0_1
                (broadcastInDim S1x1 ![1] bcast_S1_S1x1_1 (constantI S1 32 49999#32)))))
          (constantI S_ 1 1#1) reducesTo_S1650000x1_S1650000_d1 h_S_ := by
  after_results_simp
  rfl

/-- Stage two writes neither the column nor the table. -/
private theorem B_v5 :
    StableHlo.after opsB V (Proc.devRef .tc main_call0_v5) = V (Proc.devRef .tc main_call0_v5) := by
  after_results_simp
private theorem B_v0 : StableHlo.after opsB V (Proc.devRef .tc main_v0) = V (Proc.devRef .tc main_v0) := by
  after_results_simp

/-- Stage three leaves the gather of the table at the column, filled where the mask is zero. -/
private theorem C_take :
    StableHlo.after opsC V (Proc.devRef .tc main_v1)
      = select (broadcastInDim S1650000x32 ![0] bcast_S1650000_S1650000x32_0
            (V (Proc.devRef .tc main_call0_v12) : IVec S1650000 1))
          (Host.gather gather_S50000x32_S1650000x1_S1650000x32_1_0_n_n_0_1_132
            (V (Proc.devRef .tc main_v0) : FVec Ideal S50000x32 .f32)
            (V (Proc.devRef .tc main_call0_v5) : IVec S1650000x1 32))
          (broadcastInDim S1650000x32 ![] bcast_S_S1650000x32 (constant (F := Ideal) S_ .f32 0x7FC00000#32)) := by
  after_results_simp
  rfl

/-- After the take's operations its result buffer holds the filled row take of the table at the source indices. -/
private theorem take_of :
    StableHlo.after (hostOps1 (F := Ideal)) V (Proc.devRef .tc main_v1)
      = KerTerm.take32 (V (Proc.devRef .tc main_v0)) (V (Proc.devRef .tc main_arg1)) := by
  rw [hostOps1_split, StableHlo.after_append, StableHlo.after_append, C_take, B_ok, B_v0, B_v5, A_col, A_v0]
  rfl

/-- The take's operations write none of the edge arrays and neither encoder matrix. -/
private theorem take_arg2 :
    StableHlo.after (hostOps1 (F := Ideal)) V (Proc.devRef .tc main_arg2) = V (Proc.devRef .tc main_arg2) := by
  after_results_simp
private theorem take_arg3 :
    StableHlo.after (hostOps1 (F := Ideal)) V (Proc.devRef .tc main_arg3) = V (Proc.devRef .tc main_arg3) := by
  after_results_simp
private theorem take_arg6 :
    StableHlo.after (hostOps1 (F := Ideal)) V (Proc.devRef .tc main_arg6) = V (Proc.devRef .tc main_arg6) := by
  after_results_simp
private theorem take_arg7 :
    StableHlo.after (hostOps1 (F := Ideal)) V (Proc.devRef .tc main_arg7) = V (Proc.devRef .tc main_arg7) := by
  after_results_simp

/-! ## The eight operations after the take, from any contents -/

/-- The weights laid along the rows, the product, the zero table, the destination column and the accumulating scatter. -/
private theorem D_agg :
    StableHlo.after (hostOps1_1 (F := Ideal)) V (Proc.devRef .tc main_v7)
      = Host.scatterAdd scatter_S50000x32_S1650000x1_S1650000x32_1_0_0_1
          (broadcastInDim S50000x32 ![] bcast_S_S50000x32 (constant (F := Ideal) S_ .f32 0x00000000#32))
          (broadcastInDim S1650000x1 ![0] bcast_S1650000_S1650000x1_0 (V (Proc.devRef .tc main_arg2) : IVec S1650000 32))
          (mulf (V (Proc.devRef .tc main_v1) : FVec Ideal S1650000x32 .f32)
            (broadcastInDim S1650000x32 ![0, 1] bcast_S1650000x1_S1650000x32_0_1
              (broadcastInDim S1650000x1 ![0] bcast_S1650000_S1650000x1_0
                (V (Proc.devRef .tc main_arg3) : FVec Ideal S1650000 .f32)))) := by
  after_results_simp

/-- The concatenation of the two encoder matrices. -/
private theorem D_cat :
    StableHlo.after (hostOps1_1 (F := Ideal)) V (Proc.devRef .tc main_v8)
      = concatenate S32x32 1 [⟨S32x16, (V (Proc.devRef .tc main_arg6) : FVec Ideal S32x16 .f32)⟩,
          ⟨S32x16, (V (Proc.devRef .tc main_arg7) : FVec Ideal S32x16 .f32)⟩] concatenates_S32x16_S32x16_S32x32_d1 := by
  after_results_simp
  rfl

/-- After the stretch, the aggregate's buffer holds the sparse step of the table in `main_v0`. -/
theorem agg :
    StableHlo.after (hostOps1_1 (F := Ideal)) (StableHlo.after (hostOps1 (F := Ideal)) W) (Proc.devRef .tc main_v7)
      = KerTerm.agg32 (W (Proc.devRef .tc main_v0)) (W (Proc.devRef .tc main_arg1)) (W (Proc.devRef .tc main_arg2))
          (W (Proc.devRef .tc main_arg3)) := by
  rw [D_agg, take_of, take_arg2, take_arg3]
  rfl

/-- After the stretch, `main_v8` holds the two encoder matrices side by side. -/
theorem cat :
    StableHlo.after (hostOps1_1 (F := Ideal)) (StableHlo.after (hostOps1 (F := Ideal)) W) (Proc.devRef .tc main_v8)
      = KerTerm.wcat (W (Proc.devRef .tc main_arg6)) (W (Proc.devRef .tc main_arg7)) := by
  rw [D_cat, take_arg6, take_arg7]
  rfl

end Cert.KernelIdeal.KerHost1

end
-- ==== Proof.KerHost2.lean ====
/-
  A sparse stretch of host operations, as one function: from any buffer contents, the 23 operations of the filled row
  take followed by the broadcasts, the product with the edge weights, the zero table and the accumulating scatter
  leave, in the aggregate's buffer, the sparse step of the gathered 32-column table.
-/
import proofs.«409194_j73143293051581_2_alg».proof.Proof.Gen.KernelIdeal.Frame
import proofs.«409194_j73143293051581_2_alg».proof.Proof.KerTerm
import Idealize.ShloMosaic.Lib.StableHlo.Run

set_option maxRecDepth 16384

noncomputable section

namespace Cert.KernelIdeal.KerHost2

open Idealize.ShloMosaic Idealize.ShloMosaic.TcCoe Idealize.SL.Sem Idealize.ShloMosaic.StableHlo
open Cert.KernelIdeal Cert.KernelIdeal.Gen

/-! ## The stretch in three parts

  The 23 operations of the filled row take fall into three runs: the wrapped source column (8 operations), the range
  test of that column (10 operations), and the gather with its fill (5 operations). Each run is read from ANY buffer
  contents; the whole is their composition. -/

attribute [local irreducible] Host.gather Host.scatterAdd Host.reduce

section Lists
variable {F : FTy → Type} [FloatOps F]

/-- Running one list after another is running their concatenation. -/
private theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => simp only [List.cons_append, StableHlo.after_cons, ih]

/-- The operations that wrap the source indices and lay them out as a column. -/
private abbrev opsA : List (HloOp τ sig (Elt F)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S1650000, .i32⟩) (broadcastInDim S1650000 ![] bcast_S_S1650000),
    StableHlo.TRef.binary (.of main_arg1 : StableHlo.TRef sig ⟨S1650000, .i32⟩) (.of main_call1_v0 : StableHlo.TRef sig ⟨S1650000, .i32⟩) (.of main_call1_v1 : StableHlo.TRef sig ⟨S1650000, .i1⟩) (cmpi .slt),
    StableHlo.TRef.nullary (.of main_call1_c_0 : StableHlo.TRef sig ⟨S_, .i32⟩) (constantI S_ 32 50000#32),
    StableHlo.TRef.unary (.of main_call1_c_0 : StableHlo.TRef sig ⟨S_, .i32⟩) (.of main_call1_v2 : StableHlo.TRef sig ⟨S1650000, .i32⟩) (broadcastInDim S1650000 ![] bcast_S_S1650000),
    StableHlo.TRef.binary (.of main_arg1 : StableHlo.TRef sig ⟨S1650000, .i32⟩) (.of main_call1_v2 : StableHlo.TRef sig ⟨S1650000, .i32⟩) (.of main_call1_v3 : StableHlo.TRef sig ⟨S1650000, .i32⟩) addi,
    StableHlo.TRef.ternary (.of main_call1_v1 : StableHlo.TRef sig ⟨S1650000, .i1⟩) (.of main_call1_v3 : StableHlo.TRef sig ⟨S1650000, .i32⟩) (.of main_arg1 : StableHlo.TRef sig ⟨S1650000, .i32⟩) (.of main_call1_v4 : StableHlo.TRef sig ⟨S1650000, .i32⟩) select,
    StableHlo.TRef.unary main_call1_call0.v0 (.of main_call1_v5 : StableHlo.TRef sig ⟨S1650000x1, .i32⟩) (broadcastInDim S1650000x1 ![0] bcast_S1650000_S1650000x1_0) ]

/-- The operations that test the column's entries against `[0, 49999]`. -/
private abbrev opsB : List (HloOp τ sig (Elt F)) :=
  [ StableHlo.TRef.nullary (.of main_call1_c_1 : StableHlo.TRef sig ⟨S1, .i32⟩) (constantI S1 32 49999#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S1650000x1, .i32⟩) (broadcastInDim S1650000x1 ![] bcast_S_S1650000x1),
    StableHlo.TRef.binary (.of main_call1_v5 : StableHlo.TRef sig ⟨S1650000x1, .i32⟩) (.of main_call1_v6 : StableHlo.TRef sig ⟨S1650000x1, .i32⟩) (.of main_call1_v7 : StableHlo.TRef sig ⟨S1650000x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S1650000x1, .i32⟩) (broadcastInDim S1650000x1 ![0, 1] bcast_S1x1_S1650000x1_0_1),
    StableHlo.TRef.binary (.of main_call1_v5 : StableHlo.TRef sig ⟨S1650000x1, .i32⟩) (.of main_call1_v9 : StableHlo.TRef sig ⟨S1650000x1, .i32⟩) (.of main_call1_v10 : StableHlo.TRef sig ⟨S1650000x1, .i1⟩) (cmpi .sle),
    StableHlo.TRef.binary (.of main_call1_v7 : StableHlo.TRef sig ⟨S1650000x1, .i1⟩) (.of main_call1_v10 : StableHlo.TRef sig ⟨S1650000x1, .i1⟩) (.of main_call1_v11 : StableHlo.TRef sig ⟨S1650000x1, .i1⟩) andi,
    StableHlo.TRef.nullary (.of main_call1_c_3 : StableHlo.TRef sig ⟨S_, .i1⟩) (constantI S_ 1 1#1),
    StableHlo.TRef.binary (.of main_call1_v11 : StableHlo.TRef sig ⟨S1650000x1, .i1⟩) (.of main_call1_c_3 : StableHlo.TRef sig ⟨S_, .i1⟩) (.of main_call1_v12 : StableHlo.TRef sig ⟨S1650000, .i1⟩) (fun x v => Host.reduce IntOp.andi x v reducesTo_S1650000x1_S1650000_d1 h_S_) ]

/-- The gather at the column and the fill of the rows whose index is out of range. -/
private abbrev opsC : List (HloOp τ sig (Elt F)) :=
  [ StableHlo.TRef.binary (.of main_v9 : StableHlo.TRef sig ⟨S50000x32, .f32⟩) (.of main_call1_v5 : StableHlo.TRef sig ⟨S1650000x1, .i32⟩) (.of main_call1_v13 : StableHlo.TRef sig ⟨S1650000x32, .f32⟩) (fun x i => Host.gather gather_S50000x32_S1650000x1_S1650000x32_1_0_n_n_0_1_132 x i),
    StableHlo.TRef.unary (.of main_call1_v12 : StableHlo.TRef sig ⟨S1650000, .i1⟩) (.of main_call1_v14 : StableHlo.TRef sig ⟨S1650000x32, .i1⟩) (broadcastInDim S1650000x32 ![0] bcast_S1650000_S1650000x32_0),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v15 : StableHlo.TRef sig ⟨S1650000x32, .f32⟩) (broadcastInDim S1650000x32 ![] bcast_S_S1650000x32),
    StableHlo.TRef.ternary (.of main_call1_v14 : StableHlo.TRef sig ⟨S1650000x32, .i1⟩) (.of main_call1_v13 : StableHlo.TRef sig ⟨S1650000x32, .f32⟩) (.of main_call1_v15 : StableHlo.TRef sig ⟨S1650000x32, .f32⟩) (.of main_v10 : StableHlo.TRef sig ⟨S1650000x32, .f32⟩) select ]

private theorem ops_split : (hostOps2 (F := F)) = opsA ++ (opsB ++ opsC) := rfl

end Lists

/-- One bit per row of a column of indices: the entry lies in `[0, 49999]`. -/
private def okOf (col : IVec S1650000x1 32) : IVec S1650000 1 :=
  Host.reduce IntOp.andi
    (andi (cmpi .sge col (broadcastInDim S1650000x1 ![] bcast_S_S1650000x1 (constantI S_ 32 0#32)))
      (cmpi .sle col
        (broadcastInDim S1650000x1 ![0, 1] bcast_S1x1_S1650000x1_0_1
          (broadcastInDim S1x1 ![1] bcast_S1_S1x1_1 (constantI S1 32 49999#32)))))
    (constantI S_ 1 1#1) reducesTo_S1650000x1_S1650000_d1 h_S_

/-- The range bit of the source indices is the range test of their wrapped column. -/
private theorem srcOk_eq (src : IVec S1650000 32) : KerTerm.srcOk src = okOf (KerTerm.srcCol src) := rfl

section Parts
variable (V : Valuation τ sig (Elt Ideal))

private theorem A_col : StableHlo.after (opsA (F := Ideal)) V (Proc.devRef .tc main_call1_v5) = KerTerm.srcCol (V (Proc.devRef .tc main_arg1)) := by
  after_results_simp <;> rfl
private theorem A_tab : StableHlo.after (opsA (F := Ideal)) V (Proc.devRef .tc main_v9) = V (Proc.devRef .tc main_v9) := by
  after_results_simp <;> rfl

private theorem B_ok : StableHlo.after (opsB (F := Ideal)) V (Proc.devRef .tc main_call1_v12) = okOf (V (Proc.devRef .tc main_call1_v5)) := by
  after_results_simp <;> rfl
private theorem B_col : StableHlo.after (opsB (F := Ideal)) V (Proc.devRef .tc main_call1_v5) = V (Proc.devRef .tc main_call1_v5) := by
  after_results_simp <;> rfl
private theorem B_tab : StableHlo.after (opsB (F := Ideal)) V (Proc.devRef .tc main_v9) = V (Proc.devRef .tc main_v9) := by
  after_results_simp <;> rfl

private theorem C_take : StableHlo.after (opsC (F := Ideal)) V (Proc.devRef .tc main_v10)
    = select (broadcastInDim S1650000x32 ![0] bcast_S1650000_S1650000x32_0 (V (Proc.devRef .tc main_call1_v12)))
        (Host.gather gather_S50000x32_S1650000x1_S1650000x32_1_0_n_n_0_1_132 (V (Proc.devRef .tc main_v9))
          (V (Proc.devRef .tc main_call1_v5)))
        (broadcastInDim S1650000x32 ![] bcast_S_S1650000x32 (constant (F := Ideal) S_ .f32 0x7FC00000#32)) := by
  after_results_simp <;> rfl

end Parts

/-! ## The stretch, composed -/

section Whole
variable (W : Valuation τ sig (Elt Ideal))

/-- After the 23 operations the take's buffer holds the filled row take of the table at the source indices. -/
private theorem take :
    StableHlo.after (hostOps2 (F := Ideal)) W (Proc.devRef .tc main_v10)
      = KerTerm.take32 (W (Proc.devRef .tc main_v9)) (W (Proc.devRef .tc main_arg1)) := by
  rw [ops_split, after_append, after_append, C_take, B_ok, B_col, B_tab, A_col, A_tab]
  unfold KerTerm.take32
  rw [srcOk_eq]

/-- The 23 operations leave the destination indices as they were. -/
private theorem keep_dst :
    StableHlo.after (hostOps2 (F := Ideal)) W (Proc.devRef .tc main_arg2) = W (Proc.devRef .tc main_arg2) := by
  after_results_simp <;> rfl
/-- The 23 operations leave the edge weights as they were. -/
private theorem keep_w :
    StableHlo.after (hostOps2 (F := Ideal)) W (Proc.devRef .tc main_arg3) = W (Proc.devRef .tc main_arg3) := by
  after_results_simp <;> rfl

/-- The last seven operations: the weights laid out along the rows, the product, the zero table, the destination
    column and the accumulating scatter. -/
private theorem tail :
    StableHlo.after (hostOps2_1 (F := Ideal)) W (Proc.devRef .tc main_v16)
      = Host.scatterAdd scatter_S50000x32_S1650000x1_S1650000x32_1_0_0_1
          (broadcastInDim S50000x32 ![] bcast_S_S50000x32 (constant (F := Ideal) S_ .f32 0x00000000#32))
          (broadcastInDim S1650000x1 ![0] bcast_S1650000_S1650000x1_0 (W (Proc.devRef .tc main_arg2)))
          (mulf (W (Proc.devRef .tc main_v10))
            (broadcastInDim S1650000x32 ![0, 1] bcast_S1650000x1_S1650000x32_0_1
              (broadcastInDim S1650000x1 ![0] bcast_S1650000_S1650000x1_0 (W (Proc.devRef .tc main_arg3))))) := by
  after_results_simp <;> rfl

end Whole

-- the buffer contents before the stretch
variable (W : Valuation τ sig (Elt Ideal))

/-- After the stretch, the aggregate's buffer holds the sparse step of the table in `main_v9`. -/
theorem agg :
    StableHlo.after (hostOps2_1 (F := Ideal)) (StableHlo.after (hostOps2 (F := Ideal)) W) (Proc.devRef .tc main_v16)
      = KerTerm.agg32 (W (Proc.devRef .tc main_v9)) (W (Proc.devRef .tc main_arg1)) (W (Proc.devRef .tc main_arg2))
          (W (Proc.devRef .tc main_arg3)) := by
  rw [tail, take, keep_dst, keep_w]
  rfl

end Cert.KernelIdeal.KerHost2

end
-- ==== Proof.KerHost4.lean ====
/-
  A sparse stretch of host operations, as one function: from any buffer contents, the 23 operations of the filled row
  take followed by the broadcasts, the product with the edge weights, the zero table and the accumulating scatter
  leave, in the aggregate's buffer, the sparse step of the gathered 32-column table.
-/
import proofs.«409194_j73143293051581_2_alg».proof.Proof.Gen.KernelIdeal.Frame
import proofs.«409194_j73143293051581_2_alg».proof.Proof.KerTerm
import Idealize.ShloMosaic.Lib.StableHlo.Run

set_option maxRecDepth 16384

noncomputable section

namespace Cert.KernelIdeal.KerHost4

open Idealize.ShloMosaic Idealize.ShloMosaic.TcCoe Idealize.SL.Sem Idealize.ShloMosaic.StableHlo
open Cert.KernelIdeal Cert.KernelIdeal.Gen

/-! ## The stretch in three parts

  The 23 operations of the filled row take fall into three runs: the wrapped source column (8 operations), the range
  test of that column (10 operations), and the gather with its fill (5 operations). Each run is read from ANY buffer
  contents; the whole is their composition. -/

attribute [local irreducible] Host.gather Host.scatterAdd Host.reduce

section Lists
variable {F : FTy → Type} [FloatOps F]

/-- Running one list after another is running their concatenation. -/
private theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => simp only [List.cons_append, StableHlo.after_cons, ih]

/-- The operations that wrap the source indices and lay them out as a column. -/
private abbrev opsA : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S1650000, .i32⟩) (broadcastInDim S1650000 ![] bcast_S_S1650000),
    StableHlo.TRef.binary (.of main_arg1 : StableHlo.TRef sig ⟨S1650000, .i32⟩) (.of main_call2_v0 : StableHlo.TRef sig ⟨S1650000, .i32⟩) (.of main_call2_v1 : StableHlo.TRef sig ⟨S1650000, .i1⟩) (cmpi .slt),
    StableHlo.TRef.nullary (.of main_call2_c_0 : StableHlo.TRef sig ⟨S_, .i32⟩) (constantI S_ 32 50000#32),
    StableHlo.TRef.unary (.of main_call2_c_0 : StableHlo.TRef sig ⟨S_, .i32⟩) (.of main_call2_v2 : StableHlo.TRef sig ⟨S1650000, .i32⟩) (broadcastInDim S1650000 ![] bcast_S_S1650000),
    StableHlo.TRef.binary (.of main_arg1 : StableHlo.TRef sig ⟨S1650000, .i32⟩) (.of main_call2_v2 : StableHlo.TRef sig ⟨S1650000, .i32⟩) (.of main_call2_v3 : StableHlo.TRef sig ⟨S1650000, .i32⟩) addi,
    StableHlo.TRef.ternary (.of main_call2_v1 : StableHlo.TRef sig ⟨S1650000, .i1⟩) (.of main_call2_v3 : StableHlo.TRef sig ⟨S1650000, .i32⟩) (.of main_arg1 : StableHlo.TRef sig ⟨S1650000, .i32⟩) (.of main_call2_v4 : StableHlo.TRef sig ⟨S1650000, .i32⟩) select,
    StableHlo.TRef.unary main_call2_call0.v0 (.of main_call2_v5 : StableHlo.TRef sig ⟨S1650000x1, .i32⟩) (broadcastInDim S1650000x1 ![0] bcast_S1650000_S1650000x1_0) ]

/-- The operations that test the column's entries against `[0, 49999]`. -/
private abbrev opsB : List (HloOp τ sig (Elt F)) :=
  [ StableHlo.TRef.nullary (.of main_call2_c_1 : StableHlo.TRef sig ⟨S1, .i32⟩) (constantI S1 32 49999#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S1650000x1, .i32⟩) (broadcastInDim S1650000x1 ![] bcast_S_S1650000x1),
    StableHlo.TRef.binary (.of main_call2_v5 : StableHlo.TRef sig ⟨S1650000x1, .i32⟩) (.of main_call2_v6 : StableHlo.TRef sig ⟨S1650000x1, .i32⟩) (.of main_call2_v7 : StableHlo.TRef sig ⟨S1650000x1, .i1⟩) (cmpi .sge),
    StableHlo.TRef.unary (.of main_call2_c_1 : StableHlo.TRef sig ⟨S1, .i32⟩) (.of main_call2_v8 : StableHlo.TRef sig ⟨S1x1, .i32⟩) (broadcastInDim S1x1 ![1] bcast_S1_S1x1_1),
    StableHlo.TRef.unary (.of main_call2_v8 : StableHlo.TRef sig ⟨S1x1, .i32⟩) (.of main_call2_v9 : StableHlo.TRef sig ⟨S1650000x1, .i32⟩) (broadcastInDim S1650000x1 ![0, 1] bcast_S1x1_S1650000x1_0_1),
    StableHlo.TRef.binary (.of main_call2_v5 : StableHlo.TRef sig ⟨S1650000x1, .i32⟩) (.of main_call2_v9 : StableHlo.TRef sig ⟨S1650000x1, .i32⟩) (.of main_call2_v10 : StableHlo.TRef sig ⟨S1650000x1, .i1⟩) (cmpi .sle),
    StableHlo.TRef.binary (.of main_call2_v7 : StableHlo.TRef sig ⟨S1650000x1, .i1⟩) (.of main_call2_v10 : StableHlo.TRef sig ⟨S1650000x1, .i1⟩) (.of main_call2_v11 : StableHlo.TRef sig ⟨S1650000x1, .i1⟩) andi,
    StableHlo.TRef.nullary (.of main_call2_c_3 : StableHlo.TRef sig ⟨S_, .i1⟩) (constantI S_ 1 1#1),
    StableHlo.TRef.binary (.of main_call2_v11 : StableHlo.TRef sig ⟨S1650000x1, .i1⟩) (.of main_call2_c_3 : StableHlo.TRef sig ⟨S_, .i1⟩) (.of main_call2_v12 : StableHlo.TRef sig ⟨S1650000, .i1⟩) (fun x v => Host.reduce IntOp.andi x v reducesTo_S1650000x1_S1650000_d1 h_S_) ]

/-- The gather at the column and the fill of the rows whose index is out of range. -/
private abbrev opsC : List (HloOp τ sig (Elt F)) :=
  [ StableHlo.TRef.binary (.of main_v18 : StableHlo.TRef sig ⟨S50000x32, .f32⟩) (.of main_call2_v5 : StableHlo.TRef sig ⟨S1650000x1, .i32⟩) (.of main_call2_v13 : StableHlo.TRef sig ⟨S1650000x32, .f32⟩) (fun x i => Host.gather gather_S50000x32_S1650000x1_S1650000x32_1_0_n_n_0_1_132 x i),
    StableHlo.TRef.unary (.of main_call2_v12 : StableHlo.TRef sig ⟨S1650000, .i1⟩) (.of main_call2_v14 : StableHlo.TRef sig ⟨S1650000x32, .i1⟩) (broadcastInDim S1650000x32 ![0] bcast_S1650000_S1650000x32_0),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v15 : StableHlo.TRef sig ⟨S1650000x32, .f32⟩) (broadcastInDim S1650000x32 ![] bcast_S_S1650000x32),
    StableHlo.TRef.ternary (.of main_call2_v14 : StableHlo.TRef sig ⟨S1650000x32, .i1⟩) (.of main_call2_v13 : StableHlo.TRef sig ⟨S1650000x32, .f32⟩) (.of main_call2_v15 : StableHlo.TRef sig ⟨S1650000x32, .f32⟩) (.of main_v19 : StableHlo.TRef sig ⟨S1650000x32, .f32⟩) select ]

private theorem ops_split : (hostOps4 (F := F)) = opsA ++ (opsB ++ opsC) := rfl

end Lists

/-- One bit per row of a column of indices: the entry lies in `[0, 49999]`. -/
private def okOf (col : IVec S1650000x1 32) : IVec S1650000 1 :=
  Host.reduce IntOp.andi
    (andi (cmpi .sge col (broadcastInDim S1650000x1 ![] bcast_S_S1650000x1 (constantI S_ 32 0#32)))
      (cmpi .sle col
        (broadcastInDim S1650000x1 ![0, 1] bcast_S1x1_S1650000x1_0_1
          (broadcastInDim S1x1 ![1] bcast_S1_S1x1_1 (constantI S1 32 49999#32)))))
    (constantI S_ 1 1#1) reducesTo_S1650000x1_S1650000_d1 h_S_

/-- The range bit of the source indices is the range test of their wrapped column. -/
private theorem srcOk_eq (src : IVec S1650000 32) : KerTerm.srcOk src = okOf (KerTerm.srcCol src) := rfl

section Parts
variable (V : Valuation τ sig (Elt Ideal))

private theorem A_col : StableHlo.after (opsA (F := Ideal)) V (Proc.devRef .tc main_call2_v5) = KerTerm.srcCol (V (Proc.devRef .tc main_arg1)) := by
  after_results_simp <;> rfl
private theorem A_tab : StableHlo.after (opsA (F := Ideal)) V (Proc.devRef .tc main_v18) = V (Proc.devRef .tc main_v18) := by
  after_results_simp <;> rfl

private theorem B_ok : StableHlo.after (opsB (F := Ideal)) V (Proc.devRef .tc main_call2_v12) = okOf (V (Proc.devRef .tc main_call2_v5)) := by
  after_results_simp <;> rfl
private theorem B_col : StableHlo.after (opsB (F := Ideal)) V (Proc.devRef .tc main_call2_v5) = V (Proc.devRef .tc main_call2_v5) := by
  after_results_simp <;> rfl
private theorem B_tab : StableHlo.after (opsB (F := Ideal)) V (Proc.devRef .tc main_v18) = V (Proc.devRef .tc main_v18) := by
  after_results_simp <;> rfl

private theorem C_take : StableHlo.after (opsC (F := Ideal)) V (Proc.devRef .tc main_v19)
    = select (broadcastInDim S1650000x32 ![0] bcast_S1650000_S1650000x32_0 (V (Proc.devRef .tc main_call2_v12)))
        (Host.gather gather_S50000x32_S1650000x1_S1650000x32_1_0_n_n_0_1_132 (V (Proc.devRef .tc main_v18))
          (V (Proc.devRef .tc main_call2_v5)))
        (broadcastInDim S1650000x32 ![] bcast_S_S1650000x32 (constant (F := Ideal) S_ .f32 0x7FC00000#32)) := by
  after_results_simp <;> rfl

end Parts

/-! ## The stretch, composed -/

section Whole
variable (W : Valuation τ sig (Elt Ideal))

/-- After the 23 operations the take's buffer holds the filled row take of the table at the source indices. -/
private theorem take :
    StableHlo.after (hostOps4 (F := Ideal)) W (Proc.devRef .tc main_v19)
      = KerTerm.take32 (W (Proc.devRef .tc main_v18)) (W (Proc.devRef .tc main_arg1)) := by
  rw [ops_split, after_append, after_append, C_take, B_ok, B_col, B_tab, A_col, A_tab]
  unfold KerTerm.take32
  rw [srcOk_eq]

/-- The 23 operations leave the destination indices as they were. -/
private theorem keep_dst :
    StableHlo.after (hostOps4 (F := Ideal)) W (Proc.devRef .tc main_arg2) = W (Proc.devRef .tc main_arg2) := by
  after_results_simp <;> rfl
/-- The 23 operations leave the edge weights as they were. -/
private theorem keep_w :
    StableHlo.after (hostOps4 (F := Ideal)) W (Proc.devRef .tc main_arg3) = W (Proc.devRef .tc main_arg3) := by
  after_results_simp <;> rfl

/-- The last seven operations: the weights laid out along the rows, the product, the zero table, the destination
    column and the accumulating scatter. -/
private theorem tail :
    StableHlo.after (hostOps4_1 (F := Ideal)) W (Proc.devRef .tc main_v25)
      = Host.scatterAdd scatter_S50000x32_S1650000x1_S1650000x32_1_0_0_1
          (broadcastInDim S50000x32 ![] bcast_S_S50000x32 (constant (F := Ideal) S_ .f32 0x00000000#32))
          (broadcastInDim S1650000x1 ![0] bcast_S1650000_S1650000x1_0 (W (Proc.devRef .tc main_arg2)))
          (mulf (W (Proc.devRef .tc main_v19))
            (broadcastInDim S1650000x32 ![0, 1] bcast_S1650000x1_S1650000x32_0_1
              (broadcastInDim S1650000x1 ![0] bcast_S1650000_S1650000x1_0 (W (Proc.devRef .tc main_arg3))))) := by
  after_results_simp <;> rfl

end Whole

-- the buffer contents before the stretch
variable (W : Valuation τ sig (Elt Ideal))

/-- After the stretch, the aggregate's buffer holds the sparse step of the table in `main_v18`. -/
theorem agg :
    StableHlo.after (hostOps4_1 (F := Ideal)) (StableHlo.after (hostOps4 (F := Ideal)) W) (Proc.devRef .tc main_v25)
      = KerTerm.agg32 (W (Proc.devRef .tc main_v18)) (W (Proc.devRef .tc main_arg1)) (W (Proc.devRef .tc main_arg2))
          (W (Proc.devRef .tc main_arg3)) := by
  rw [tail, take, keep_dst, keep_w]
  rfl

end Cert.KernelIdeal.KerHost4

end
-- ==== Proof.KerHost5.lean ====
/-
  A sparse stretch of host operations, as one function: from any buffer contents, the 23 operations of the filled row
  take followed by the broadcasts, the product with the edge weights, the zero table and the accumulating scatter
  leave, in the aggregate's buffer, the sparse step of the gathered 128-column table.
-/
import proofs.«409194_j73143293051581_2_alg».proof.Proof.Gen.KernelIdeal.Frame
import proofs.«409194_j73143293051581_2_alg».proof.Proof.KerTerm
import Idealize.ShloMosaic.Lib.StableHlo.Run

set_option maxRecDepth 16384

noncomputable section

namespace Cert.KernelIdeal.KerHost5

open Idealize.ShloMosaic Idealize.ShloMosaic.TcCoe Idealize.SL.Sem Idealize.ShloMosaic.StableHlo
open Cert.KernelIdeal Cert.KernelIdeal.Gen

/-! ## The stretch in three parts

  The 23 operations of the filled row take are three runs: the wrapped source column (8 operations), the range test
  of that column (10 operations), and the gather with its fill (5 operations). Each run is read from ANY buffer
  contents, so that no step composes more than ten operations; the whole is their composition. -/

attribute [local irreducible] Host.gather Host.scatterAdd Host.reduce

section Lists
variable {F : FTy → Type} [FloatOps F]

/-- Running one list after another is running their concatenation. -/
private theorem after_app (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => simp only [List.cons_append, StableHlo.after_cons, ih]

/-- The operations that wrap a negative source index by the table's height and lay the indices out as a column. -/
private abbrev opsA : List (HloOp τ sig (Elt F)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S1650000, .i32⟩) (broadcastInDim S1650000 ![] bcast_S_S1650000),
    StableHlo.TRef.binary (.of main_arg1 : StableHlo.TRef sig ⟨S1650000, .i32⟩) (.of main_call3_v0 : StableHlo.TRef sig ⟨S1650000, .i32⟩) (.of main_call3_v1 : StableHlo.TRef sig ⟨S1650000, .i1⟩) (cmpi .slt),
    StableHlo.TRef.nullary (.of main_call3_c_0 : StableHlo.TRef sig ⟨S_, .i32⟩) (constantI S_ 32 50000#32),
    StableHlo.TRef.unary (.of main_call3_c_0 : StableHlo.TRef sig ⟨S_, .i32⟩) (.of main_call3_v2 : StableHlo.TRef sig ⟨S1650000, .i32⟩) (broadcastInDim S1650000 ![] bcast_S_S1650000),
    StableHlo.TRef.binary (.of main_arg1 : StableHlo.TRef sig ⟨S1650000, .i32⟩) (.of main_call3_v2 : StableHlo.TRef sig ⟨S1650000, .i32⟩) (.of main_call3_v3 : StableHlo.TRef sig ⟨S1650000, .i32⟩) addi,
    StableHlo.TRef.ternary (.of main_call3_v1 : StableHlo.TRef sig ⟨S1650000, .i1⟩) (.of main_call3_v3 : StableHlo.TRef sig ⟨S1650000, .i32⟩) (.of main_arg1 : StableHlo.TRef sig ⟨S1650000, .i32⟩) (.of main_call3_v4 : StableHlo.TRef sig ⟨S1650000, .i32⟩) select,
    StableHlo.TRef.unary main_call3_call0.v0 (.of main_call3_v5 : StableHlo.TRef sig ⟨S1650000x1, .i32⟩) (broadcastInDim S1650000x1 ![0] bcast_S1650000_S1650000x1_0) ]

/-- The operations that test the column's entries against `[0, 49999]`, one bit per edge. -/
private abbrev opsB : List (HloOp τ sig (Elt F)) :=
  [ StableHlo.TRef.nullary (.of main_call3_c_1 : StableHlo.TRef sig ⟨S1, .i32⟩) (constantI S1 32 49999#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v6 : StableHlo.TRef sig ⟨S1650000x1, .i32⟩) (broadcastInDim S1650000x1 ![] bcast_S_S1650000x1),
    StableHlo.TRef.binary (.of main_call3_v5 : StableHlo.TRef sig ⟨S1650000x1, .i32⟩) (.of main_call3_v6 : StableHlo.TRef sig ⟨S1650000x1, .i32⟩) (.of main_call3_v7 : StableHlo.TRef sig ⟨S1650000x1, .i1⟩) (cmpi .sge),
    StableHlo.TRef.unary (.of main_call3_c_1 : StableHlo.TRef sig ⟨S1, .i32⟩) (.of main_call3_v8 : StableHlo.TRef sig ⟨S1x1, .i32⟩) (broadcastInDim S1x1 ![1] bcast_S1_S1x1_1),
    StableHlo.TRef.unary (.of main_call3_v8 : StableHlo.TRef sig ⟨S1x1, .i32⟩) (.of main_call3_v9 : StableHlo.TRef sig ⟨S1650000x1, .i32⟩) (broadcastInDim S1650000x1 ![0, 1] bcast_S1x1_S1650000x1_0_1),
    StableHlo.TRef.binary (.of main_call3_v5 : StableHlo.TRef sig ⟨S1650000x1, .i32⟩) (.of main_call3_v9 : StableHlo.TRef sig ⟨S1650000x1, .i32⟩) (.of main_call3_v10 : StableHlo.TRef sig ⟨S1650000x1, .i1⟩) (cmpi .sle),
    StableHlo.TRef.binary (.of main_call3_v7 : StableHlo.TRef sig ⟨S1650000x1, .i1⟩) (.of main_call3_v10 : StableHlo.TRef sig ⟨S1650000x1, .i1⟩) (.of main_call3_v11 : StableHlo.TRef sig ⟨S1650000x1, .i1⟩) andi,
    StableHlo.TRef.nullary (.of main_call3_c_3 : StableHlo.TRef sig ⟨S_, .i1⟩) (constantI S_ 1 1#1),
    StableHlo.TRef.binary (.of main_call3_v11 : StableHlo.TRef sig ⟨S1650000x1, .i1⟩) (.of main_call3_c_3 : StableHlo.TRef sig ⟨S_, .i1⟩) (.of main_call3_v12 : StableHlo.TRef sig ⟨S1650000, .i1⟩) (fun x v => Host.reduce IntOp.andi x v reducesTo_S1650000x1_S1650000_d1 h_S_) ]

/-- The gather of the table's rows at the column, and the fill of the rows whose index is out of range. -/
private abbrev opsC : List (HloOp τ sig (Elt F)) :=
  [ StableHlo.TRef.binary (.of main_v26 : StableHlo.TRef sig ⟨S50000x128, .f32⟩) (.of main_call3_v5 : StableHlo.TRef sig ⟨S1650000x1, .i32⟩) (.of main_call3_v13 : StableHlo.TRef sig ⟨S1650000x128, .f32⟩) (fun x i => Host.gather gather_S50000x128_S1650000x1_S1650000x128_1_0_n_n_0_1_1128 x i),
    StableHlo.TRef.unary (.of main_call3_v12 : StableHlo.TRef sig ⟨S1650000, .i1⟩) (.of main_call3_v14 : StableHlo.TRef sig ⟨S1650000x128, .i1⟩) (broadcastInDim S1650000x128 ![0] bcast_S1650000_S1650000x128_0),
    StableHlo.TRef.nullary (.of main_call3_cst : StableHlo.TRef sig ⟨S_, .f32⟩) (constant S_ .f32 0x7FC00000#32),
    StableHlo.TRef.unary (.of main_call3_cst : StableHlo.TRef sig ⟨S_, .f32⟩) (.of main_call3_v15 : StableHlo.TRef sig ⟨S1650000x128, .f32⟩) (broadcastInDim S1650000x128 ![] bcast_S_S1650000x128),
    StableHlo.TRef.ternary (.of main_call3_v14 : StableHlo.TRef sig ⟨S1650000x128, .i1⟩) (.of main_call3_v13 : StableHlo.TRef sig ⟨S1650000x128, .f32⟩) (.of main_call3_v15 : StableHlo.TRef sig ⟨S1650000x128, .f32⟩) (.of main_v27 : StableHlo.TRef sig ⟨S1650000x128, .f32⟩) select ]

private theorem ops_split : (hostOps5 (F := F)) = opsA ++ (opsB ++ opsC) := rfl

end Lists

/-- One bit per row of a column of indices: the entry lies in `[0, 49999]`. -/
private def okOf (col : IVec S1650000x1 32) : IVec S1650000 1 :=
  Host.reduce IntOp.andi
    (andi (cmpi .sge col (broadcastInDim S1650000x1 ![] bcast_S_S1650000x1 (constantI S_ 32 0#32)))
      (cmpi .sle col
        (broadcastInDim S1650000x1 ![0, 1] bcast_S1x1_S1650000x1_0_1
          (broadcastInDim S1x1 ![1] bcast_S1_S1x1_1 (constantI S1 32 49999#32)))))
    (constantI S_ 1 1#1) reducesTo_S1650000x1_S1650000_d1 h_S_

/-- The range bit of the source indices is the range test of their wrapped column. -/
private theorem srcOk_eq (src : IVec S1650000 32) : KerTerm.srcOk src = okOf (KerTerm.srcCol src) := rfl

section Parts
variable (V : Valuation τ sig (Elt Ideal))

/-- The first run leaves the wrapped source column. -/
private theorem A_col : StableHlo.after (opsA (F := Ideal)) V (Proc.devRef .tc main_call3_v5)
    = KerTerm.srcCol (V (Proc.devRef .tc main_arg1)) := by
  after_results_simp <;> rfl
/-- The first run leaves the table as it was. -/
private theorem A_tab : StableHlo.after (opsA (F := Ideal)) V (Proc.devRef .tc main_v26) = V (Proc.devRef .tc main_v26) := by
  after_results_simp <;> rfl

/-- The second run leaves the range bit of the column it finds. -/
private theorem B_ok : StableHlo.after (opsB (F := Ideal)) V (Proc.devRef .tc main_call3_v12)
    = okOf (V (Proc.devRef .tc main_call3_v5)) := by
  after_results_simp <;> rfl
/-- The second run leaves the column as it was. -/
private theorem B_col : StableHlo.after (opsB (F := Ideal)) V (Proc.devRef .tc main_call3_v5)
    = V (Proc.devRef .tc main_call3_v5) := by
  after_results_simp <;> rfl
/-- The second run leaves the table as it was. -/
private theorem B_tab : StableHlo.after (opsB (F := Ideal)) V (Proc.devRef .tc main_v26) = V (Proc.devRef .tc main_v26) := by
  after_results_simp <;> rfl

/-- The third run leaves the rows gathered at the column it finds, filled where the bit it finds is off. -/
private theorem C_take : StableHlo.after (opsC (F := Ideal)) V (Proc.devRef .tc main_v27)
    = select (broadcastInDim S1650000x128 ![0] bcast_S1650000_S1650000x128_0 (V (Proc.devRef .tc main_call3_v12)))
        (Host.gather gather_S50000x128_S1650000x1_S1650000x128_1_0_n_n_0_1_1128 (V (Proc.devRef .tc main_v26))
          (V (Proc.devRef .tc main_call3_v5)))
        (broadcastInDim S1650000x128 ![] bcast_S_S1650000x128 (constant (F := Ideal) S_ .f32 0x7FC00000#32)) := by
  after_results_simp <;> rfl

end Parts

/-! ## The stretch, composed -/

section Whole
variable (W : Valuation τ sig (Elt Ideal))

/-- After the 23 operations the take's buffer holds the filled row take of the table at the source indices. -/
private theorem take :
    StableHlo.after (hostOps5 (F := Ideal)) W (Proc.devRef .tc main_v27)
      = KerTerm.take128 (W (Proc.devRef .tc main_v26)) (W (Proc.devRef .tc main_arg1)) := by
  rw [ops_split, after_app, after_app, C_take, B_ok, B_col, B_tab, A_col, A_tab]
  unfold KerTerm.take128
  rw [srcOk_eq]

/-- The 23 operations leave the destination indices as they were. -/
private theorem keep_dst :
    StableHlo.after (hostOps5 (F := Ideal)) W (Proc.devRef .tc main_arg2) = W (Proc.devRef .tc main_arg2) := by
  after_results_simp <;> rfl
/-- The 23 operations leave the edge weights as they were. -/
private theorem keep_w :
    StableHlo.after (hostOps5 (F := Ideal)) W (Proc.devRef .tc main_arg3) = W (Proc.devRef .tc main_arg3) := by
  after_results_simp <;> rfl

/-- The last seven operations: the weights laid out along the rows, the product, the zero table, the destination
    column and the accumulating scatter. -/
private theorem tail :
    StableHlo.after (hostOps5_1 (F := Ideal)) W (Proc.devRef .tc main_v33)
      = Host.scatterAdd scatter_S50000x128_S1650000x1_S1650000x128_1_0_0_1
          (broadcastInDim S50000x128 ![] bcast_S_S50000x128 (constant (F := Ideal) S_ .f32 0x00000000#32))
          (broadcastInDim S1650000x1 ![0] bcast_S1650000_S1650000x1_0 (W (Proc.devRef .tc main_arg2)))
          (mulf (W (Proc.devRef .tc main_v27))
            (broadcastInDim S1650000x128 ![0, 1] bcast_S1650000x1_S1650000x128_0_1
              (broadcastInDim S1650000x1 ![0] bcast_S1650000_S1650000x1_0 (W (Proc.devRef .tc main_arg3))))) := by
  after_results_simp <;> rfl

end Whole

-- the buffer contents before the stretch
variable (W : Valuation τ sig (Elt Ideal))

/-- After the stretch, the aggregate's buffer holds the sparse step of the table in `main_v26`. -/
theorem agg :
    StableHlo.after (hostOps5_1 (F := Ideal)) (StableHlo.after (hostOps5 (F := Ideal)) W) (Proc.devRef .tc main_v33)
      = KerTerm.agg128 (W (Proc.devRef .tc main_v26)) (W (Proc.devRef .tc main_arg1)) (W (Proc.devRef .tc main_arg2))
          (W (Proc.devRef .tc main_arg3)) := by
  rw [tail, take, keep_dst, keep_w]
  rfl

end Cert.KernelIdeal.KerHost5

end
-- ==== Proof.KerChain.lean ====
/-
  The kernel program's results as functions of its arguments: the contents at the last boundary of the run, read back
  through the regions (each leaves one whole-array function of its input arrays) and the stretches of host operations
  between them (gather by source, scale, add up by destination; the two encoder matrices side by side), down to the
  launch memory.
-/
import proofs.«409194_j73143293051581_2_alg».proof.Proof.KerRun
import proofs.«409194_j73143293051581_2_alg».proof.Proof.KerTerm
import proofs.«409194_j73143293051581_2_alg».proof.Proof.KerReg0
import proofs.«409194_j73143293051581_2_alg».proof.Proof.KerReg1
import proofs.«409194_j73143293051581_2_alg».proof.Proof.KerReg2
import proofs.«409194_j73143293051581_2_alg».proof.Proof.KerReg3
import proofs.«409194_j73143293051581_2_alg».proof.Proof.KerReg4
import proofs.«409194_j73143293051581_2_alg».proof.Proof.KerReg5
import proofs.«409194_j73143293051581_2_alg».proof.Proof.KerHost1
import proofs.«409194_j73143293051581_2_alg».proof.Proof.KerHost2
import proofs.«409194_j73143293051581_2_alg».proof.Proof.KerHost4
import proofs.«409194_j73143293051581_2_alg».proof.Proof.KerHost5
import Idealize.ShloMosaic.Lib.StableHlo.Run

set_option maxRecDepth 16384

noncomputable section

namespace Cert.KernelIdeal.KerChain

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-! ## Buffers a step leaves alone

A stretch of host operations changes only the buffers its operations write, and a region only its windows' arrays: the
edges' source indices, destination indices and weights, the noise and the later weight matrices are read back to the
launch memory, and the means and the deviations, once written, stay to the end. -/

/-- A buffer that none of a stretch's operations writes holds after the stretch what it held before. -/
local macro "keeps " ops:ident : term =>
  `(StableHlo.after_of_forall_not_mem _ _ (List.forall_iff_forall_mem.mp (by
      simp only [$ops:ident, List.Forall, StableHlo.nullary_writes, StableHlo.unary_writes, StableHlo.binary_writes,
        StableHlo.ternary_writes, Finset.mem_singleton]
      repeat' apply And.intro
      all_goals exact StableHlo.devRef_ne_of_ne (by decide))))

/-- Region 0 writes none of the arguments it does not read: at its exit they are as launched. -/
theorem W1_arg (c : Dev nD) (b : Ref sig .tc)
    (hb : b = main_arg1 ∨ b = main_arg2 ∨ b = main_arg3 ∨ b = main_arg4 ∨ b = main_arg6 ∨ b = main_arg7 ∨ b = main_arg8 ∨ b = main_arg9) :
    W1 (F := Ideal) m ρ c (Proc.devRef .tc b) = m ((c.tc : Thread nD τ).loc b) := by
  rcases hb with rfl | rfl | rfl | rfl | rfl | rfl | rfl | rfl <;> exact W1_of_ne m ρ c _ (by decide)

/-- Neither the first sparse stretch nor region 1 writes them: at region 1's exit they are as launched. -/
theorem W4_arg (c : Dev nD) (b : Ref sig .tc)
    (hb : b = main_arg1 ∨ b = main_arg2 ∨ b = main_arg3 ∨ b = main_arg4 ∨ b = main_arg8 ∨ b = main_arg9) :
    W4 (F := Ideal) m ρ c (Proc.devRef .tc b) = m ((c.tc : Thread nD τ).loc b) := by
  rcases hb with rfl | rfl | rfl | rfl | rfl | rfl <;>
    exact (W4_of_ne m ρ c _ (by decide)).trans (((keeps hostOps1_1).trans (keeps hostOps1)).trans (W1_arg m ρ c _ (by decide)))

/-- Nor does the second sparse stretch: at region 2's entry they are as launched. -/
theorem W6_arg (c : Dev nD) (b : Ref sig .tc)
    (hb : b = main_arg1 ∨ b = main_arg2 ∨ b = main_arg3 ∨ b = main_arg4 ∨ b = main_arg8 ∨ b = main_arg9) :
    W6 (F := Ideal) m ρ c (Proc.devRef .tc b) = m ((c.tc : Thread nD τ).loc b) := by
  rcases hb with rfl | rfl | rfl | rfl | rfl | rfl <;>
    exact ((keeps hostOps2_1).trans (keeps hostOps2)).trans (W4_arg m ρ c _ (by decide))

/-- Region 2 reads the noise and writes none of the others: at its exit they are as launched. -/
theorem W7_arg (c : Dev nD) (b : Ref sig .tc)
    (hb : b = main_arg1 ∨ b = main_arg2 ∨ b = main_arg3 ∨ b = main_arg8 ∨ b = main_arg9) :
    W7 (F := Ideal) m ρ c (Proc.devRef .tc b) = m ((c.tc : Thread nD τ).loc b) := by
  rcases hb with rfl | rfl | rfl | rfl | rfl <;>
    exact (W7_of_ne m ρ c _ (by decide)).trans (W6_arg m ρ c _ (by decide))

/-- Region 3 reads the decoder's first matrix and writes none of the others. -/
theorem W8_arg (c : Dev nD) (b : Ref sig .tc)
    (hb : b = main_arg1 ∨ b = main_arg2 ∨ b = main_arg3 ∨ b = main_arg9) :
    W8 (F := Ideal) m ρ c (Proc.devRef .tc b) = m ((c.tc : Thread nD τ).loc b) := by
  rcases hb with rfl | rfl | rfl | rfl <;>
    exact (W8_of_ne m ρ c _ (by decide)).trans (W7_arg m ρ c _ (by decide))

/-- The third sparse stretch writes none of them: at region 4's entry they are as launched. -/
theorem W10_arg (c : Dev nD) (b : Ref sig .tc)
    (hb : b = main_arg1 ∨ b = main_arg2 ∨ b = main_arg3 ∨ b = main_arg9) :
    W10 (F := Ideal) m ρ c (Proc.devRef .tc b) = m ((c.tc : Thread nD τ).loc b) := by
  rcases hb with rfl | rfl | rfl | rfl <;>
    exact ((keeps hostOps4_1).trans (keeps hostOps4)).trans (W8_arg m ρ c _ (by decide))

/-- Region 4 reads the decoder's second matrix and leaves the edges' arrays alone. -/
theorem W11_arg (c : Dev nD) (b : Ref sig .tc) (hb : b = main_arg1 ∨ b = main_arg2 ∨ b = main_arg3) :
    W11 (F := Ideal) m ρ c (Proc.devRef .tc b) = m ((c.tc : Thread nD τ).loc b) := by
  rcases hb with rfl | rfl | rfl <;>
    exact (W11_of_ne m ρ c _ (by decide)).trans (W10_arg m ρ c _ (by decide))

/-- The means and the deviations, written by region 2, are written by nothing after it. -/
theorem W14_res (c : Dev nD) (b : Ref sig .tc) (hb : b = main_v17_0 ∨ b = main_v17_1) :
    W14 (F := Ideal) m ρ c (Proc.devRef .tc b) = W7 m ρ c (Proc.devRef .tc b) := by
  rcases hb with rfl | rfl <;>
    exact (W14_of_ne m ρ c _ (by decide)).trans (((keeps hostOps5_1).trans (keeps hostOps5)).trans
      ((W11_of_ne m ρ c _ (by decide)).trans (((keeps hostOps4_1).trans (keeps hostOps4)).trans (W8_of_ne m ρ c _ (by decide)))))

/-! ## The program's arrays, boundary by boundary

Each region leaves one whole-array function of its input arrays (a table times a matrix, the clamp, the split and the
mix), each sparse stretch the gather by source, scaling and adding up by destination of the table before it. -/

/-- Region 0's exit: the features times the first weights. -/
theorem W1_v0 (c : Dev nD) :
    W1 (F := Ideal) m ρ c (Proc.devRef .tc main_v0) = KerTerm.sup1 (m ((c.tc : Thread nD τ).loc main_arg0)) (m ((c.tc : Thread nD τ).loc main_arg5)) :=
  (W1_arr m ρ c 2).trans (KerReg0.arr (V0 m ρ) c)

/-- Region 1's entry: the first aggregation. -/
theorem W3_v7 (c : Dev nD) :
    W3 (F := Ideal) m ρ c (Proc.devRef .tc main_v7) = KerTerm.agg1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) := by
  refine (KerHost1.agg (W1 m ρ c)).trans ?_
  rw [W1_v0 m ρ c, W1_arg m ρ c main_arg1 (by decide), W1_arg m ρ c main_arg2 (by decide), W1_arg m ρ c main_arg3 (by decide)]
  rfl

/-- Region 1's entry: the two encoder matrices side by side. -/
theorem W3_v8 (c : Dev nD) :
    W3 (F := Ideal) m ρ c (Proc.devRef .tc main_v8) = KerTerm.wcat (m ((c.tc : Thread nD τ).loc main_arg6)) (m ((c.tc : Thread nD τ).loc main_arg7)) := by
  refine (KerHost1.cat (W1 m ρ c)).trans ?_
  rw [W1_arg m ρ c main_arg6 (by decide), W1_arg m ρ c main_arg7 (by decide)]

/-- Region 1's exit: the clamped first aggregation times the encoder matrices. -/
theorem W4_v9 (c : Dev nD) :
    W4 (F := Ideal) m ρ c (Proc.devRef .tc main_v9) = KerTerm.supMS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) := by
  refine (W4_arr m ρ c 2).trans ((KerReg1.arr (V3 m ρ) c).trans ?_)
  show KerTerm.mm 50000 32 32 (KerTerm.relu (W3 m ρ c (Proc.devRef .tc main_v7))) (W3 m ρ c (Proc.devRef .tc main_v8)) = _
  rw [W3_v7 m ρ c, W3_v8 m ρ c]
  rfl

/-- Region 2's entry: the second aggregation. -/
theorem W6_v16 (c : Dev nD) :
    W6 (F := Ideal) m ρ c (Proc.devRef .tc main_v16) = KerTerm.aggMS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) := by
  refine (KerHost2.agg (W4 m ρ c)).trans ?_
  rw [W4_v9 m ρ c, W4_arg m ρ c main_arg1 (by decide), W4_arg m ρ c main_arg2 (by decide), W4_arg m ρ c main_arg3 (by decide)]
  rfl

/-- Region 2's exit: the means. -/
theorem W7_v17_0 (c : Dev nD) :
    W7 (F := Ideal) m ρ c (Proc.devRef .tc main_v17_0) = KerTerm.means (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) := by
  refine (W7_arr m ρ c 2).trans ((KerReg2.arr_means (V6 m ρ) c).trans ?_)
  show KerTerm.left16 (W6 m ρ c (Proc.devRef .tc main_v16)) = _
  rw [W6_v16 m ρ c]
  rfl

/-- Region 2's exit: the deviations. -/
theorem W7_v17_1 (c : Dev nD) :
    W7 (F := Ideal) m ρ c (Proc.devRef .tc main_v17_1) = KerTerm.std (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) := by
  refine (W7_arr m ρ c 3).trans ((KerReg2.arr_std (V6 m ρ) c).trans ?_)
  show KerTerm.right16elu (W6 m ρ c (Proc.devRef .tc main_v16)) = _
  rw [W6_v16 m ρ c]
  rfl

/-- Region 2's exit: the mix of the two halves with the noise. -/
theorem W7_v17_2 (c : Dev nD) :
    W7 (F := Ideal) m ρ c (Proc.devRef .tc main_v17_2) = KerTerm.enc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W7_arr m ρ c 4).trans ((KerReg2.arr_enc (V6 m ρ) c).trans ?_)
  show KerTerm.mix (W6 m ρ c (Proc.devRef .tc main_v16)) (W6 m ρ c (Proc.devRef .tc main_arg4)) = _
  rw [W6_v16 m ρ c, W6_arg m ρ c main_arg4 (by decide)]
  rfl

/-- Region 3's exit: the mix times the decoder's first matrix. -/
theorem W8_v18 (c : Dev nD) :
    W8 (F := Ideal) m ρ c (Proc.devRef .tc main_v18) = KerTerm.supD (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (W8_arr m ρ c 2).trans ((KerReg3.arr (V7 m ρ) c).trans ?_)
  show KerTerm.mm 50000 16 32 (W7 m ρ c (Proc.devRef .tc main_v17_2)) (W7 m ρ c (Proc.devRef .tc main_arg8)) = _
  rw [W7_v17_2 m ρ c, W7_arg m ρ c main_arg8 (by decide)]
  rfl

/-- Region 4's entry: the third aggregation. -/
theorem W10_v25 (c : Dev nD) :
    W10 (F := Ideal) m ρ c (Proc.devRef .tc main_v25) = KerTerm.aggD (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (KerHost4.agg (W8 m ρ c)).trans ?_
  rw [W8_v18 m ρ c, W8_arg m ρ c main_arg1 (by decide), W8_arg m ρ c main_arg2 (by decide), W8_arg m ρ c main_arg3 (by decide)]
  rfl

/-- Region 4's exit: the clamped third aggregation times the decoder's second matrix. -/
theorem W11_v26 (c : Dev nD) :
    W11 (F := Ideal) m ρ c (Proc.devRef .tc main_v26) = KerTerm.supO (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W11_arr m ρ c 2).trans ((KerReg4.arr (V10 m ρ) c).trans ?_)
  show KerTerm.mm 50000 32 128 (KerTerm.relu (W10 m ρ c (Proc.devRef .tc main_v25))) (W10 m ρ c (Proc.devRef .tc main_arg9)) = _
  rw [W10_v25 m ρ c, W10_arg m ρ c main_arg9 (by decide)]
  rfl

/-- Region 5's entry: the fourth aggregation. -/
theorem W13_v33 (c : Dev nD) :
    W13 (F := Ideal) m ρ c (Proc.devRef .tc main_v33) = KerTerm.aggO (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (KerHost5.agg (W11 m ρ c)).trans ?_
  rw [W11_v26 m ρ c, W11_arg m ρ c main_arg1 (by decide), W11_arg m ρ c main_arg2 (by decide), W11_arg m ρ c main_arg3 (by decide)]
  rfl

/-! ## The three results -/

/-- The prediction buffer at the last boundary. -/
theorem W14_pred (c : Dev nD) :
    W14 (F := Ideal) m ρ c (Proc.devRef .tc main_v34)
      = KerTerm.pred (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W14_arr m ρ c 1).trans ((KerReg5.arr (V13 m ρ) c).trans ?_)
  show KerTerm.relu (W13 m ρ c (Proc.devRef .tc main_v33)) = _
  rw [W13_v33 m ρ c]
  rfl

/-- The means buffer at the last boundary. -/
theorem W14_means (c : Dev nD) :
    W14 (F := Ideal) m ρ c (Proc.devRef .tc main_v17_0)
      = KerTerm.means (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) :=
  (W14_res m ρ c main_v17_0 (.inl rfl)).trans (W7_v17_0 m ρ c)

/-- The deviations buffer at the last boundary. -/
theorem W14_std (c : Dev nD) :
    W14 (F := Ideal) m ρ c (Proc.devRef .tc main_v17_1)
      = KerTerm.std (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) :=
  (W14_res m ρ c main_v17_1 (.inr rfl)).trans (W7_v17_1 m ρ c)

/-- Every weakly fair execution of the kernel program terminates with its three results at KerTerm's functions of the
    launch arguments, and the arguments unchanged. -/
theorem run : θ_run (defs (F := Ideal)) (onTc (τ := τ) (main (F := Ideal))) ⟨m, fun _ => 0, ρ⟩ (fun r => ∀ c : Dev nD,
      r.2.mem ((c.tc : Thread nD τ).loc main_v34) = KerTerm.pred (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v17_0) = KerTerm.means (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7))
      ∧ r.2.mem ((c.tc : Thread nD τ).loc main_v17_1) = KerTerm.std (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run (defs (F := Ideal)) _ _).mono
    (fun r h c => ⟨(h c).1.trans (W14_pred m ρ c), (h c).2.1.trans (W14_means m ρ c), (h c).2.2.1.trans (W14_std m ρ c), (h c).2.2.2⟩)
    (Cert.KernelIdeal.KerRun.run_named (F := Ideal) m ρ)

end Cert.KernelIdeal.KerChain

end
-- ==== Proof.RefTerm.lean ====
/-
  The reference program, array by array.

  Five graph-convolution layers — a table times a weight matrix, its rows gathered by the edges' source index,
  scaled by the edge weight and added up by the edges' destination index — with a clamp at zero after the first,
  fourth and fifth, `elu + 1` after the third, and the affine mix of the second and third with the noise array in
  between. Here each step is ONE function of whole arrays, spelt with the program's own operations, and the three
  results are their composition.
-/
import proofs.«409194_j73143293051581_2_alg».proof.ReferenceIdeal
import proofs.«409194_j73143293051581_2_alg».proof.Proof.Gen.ReferenceIdeal
import Idealize.ShloMosaic.PureOps.Ideal

noncomputable section

namespace Cert.ReferenceIdeal.RefTerm

open Idealize.ShloMosaic Cert.ReferenceIdeal Cert.ReferenceIdeal.Gen

/-- The source indices as a column, a negative one first wrapped by adding the table's height. -/
def srcCol (src : IVec S1650000 32) : IVec S1650000x1 32 :=
  broadcastInDim S1650000x1 ![0] bcast_S1650000_S1650000x1_0
    (select (cmpi .slt src (broadcastInDim S1650000 ![] bcast_S_S1650000 (constantI S_ 32 0#32)))
      (addi src (broadcastInDim S1650000 ![] bcast_S_S1650000 (constantI S_ 32 50000#32))) src)

/-- Gather by source, scale by the edge weight, add up by destination: 32 columns. -/
def agg32 (t : FVec Ideal S50000x32 .f32) (src dst : IVec S1650000 32) (w : FVec Ideal S1650000 .f32) :
    FVec Ideal S50000x32 .f32 :=
  Host.scatterAdd scatter_S50000x32_S1650000x1_S1650000x32_1_0_0_1
    (broadcastInDim S50000x32 ![] bcast_S_S50000x32 (constant S_ .f32 0x00000000#32))
    (broadcastInDim S1650000x1 ![0] bcast_S1650000_S1650000x1_0 dst)
    (mulf (broadcastInDim S1650000x32 ![0, 1] bcast_S1650000x1_S1650000x32_0_1
        (broadcastInDim S1650000x1 ![0] bcast_S1650000_S1650000x1_0 w))
      (Host.gather gather_S50000x32_S1650000x1_S1650000x32_1_0_n_n_0_1_132 t (srcCol src)))

/-- The same for a 16-column table. -/
def agg16 (t : FVec Ideal S50000x16 .f32) (src dst : IVec S1650000 32) (w : FVec Ideal S1650000 .f32) :
    FVec Ideal S50000x16 .f32 :=
  Host.scatterAdd scatter_S50000x16_S1650000x1_S1650000x16_1_0_0_1
    (broadcastInDim S50000x16 ![] bcast_S_S50000x16 (constant S_ .f32 0x00000000#32))
    (broadcastInDim S1650000x1 ![0] bcast_S1650000_S1650000x1_0 dst)
    (mulf (broadcastInDim S1650000x16 ![0, 1] bcast_S1650000x1_S1650000x16_0_1
        (broadcastInDim S1650000x1 ![0] bcast_S1650000_S1650000x1_0 w))
      (Host.gather gather_S50000x16_S1650000x1_S1650000x16_1_0_n_n_0_1_116 t (srcCol src)))

/-- The same for a 128-column table. -/
def agg128 (t : FVec Ideal S50000x128 .f32) (src dst : IVec S1650000 32) (w : FVec Ideal S1650000 .f32) :
    FVec Ideal S50000x128 .f32 :=
  Host.scatterAdd scatter_S50000x128_S1650000x1_S1650000x128_1_0_0_1
    (broadcastInDim S50000x128 ![] bcast_S_S50000x128 (constant S_ .f32 0x00000000#32))
    (broadcastInDim S1650000x1 ![0] bcast_S1650000_S1650000x1_0 dst)
    (mulf (broadcastInDim S1650000x128 ![0, 1] bcast_S1650000x1_S1650000x128_0_1
        (broadcastInDim S1650000x1 ![0] bcast_S1650000_S1650000x1_0 w))
      (Host.gather gather_S50000x128_S1650000x1_S1650000x128_1_0_n_n_0_1_1128 t (srcCol src)))

/-- The clamp at zero of a 32-column table. -/
def relu32 (a : FVec Ideal S50000x32 .f32) : FVec Ideal S50000x32 .f32 :=
  maximumf a (broadcastInDim S50000x32 ![] bcast_S_S50000x32 (constant S_ .f32 0x00000000#32))

/-- The clamp at zero of a 128-column table. -/
def relu128 (a : FVec Ideal S50000x128 .f32) : FVec Ideal S50000x128 .f32 :=
  maximumf a (broadcastInDim S50000x128 ![] bcast_S_S50000x128 (constant S_ .f32 0x00000000#32))

/-- `elu` of a 16-column table as the program spells it: where the entry is positive the entry, elsewhere one times
    `expm1` of the entry (the entry first replaced by zero where it is positive). -/
def elu16 (a : FVec Ideal S50000x16 .f32) : FVec Ideal S50000x16 .f32 :=
  select (cmpf .ogt a (broadcastInDim S50000x16 ![] bcast_S_S50000x16 (constant S_ .f32 0x00000000#32))) a
    (mulf (broadcastInDim S50000x16 ![] bcast_S_S50000x16 (constant S_ .f32 0x3F800000#32))
      (Host.expm1
        (select (cmpf .ogt a (broadcastInDim S50000x16 ![] bcast_S_S50000x16 (constant S_ .f32 0x00000000#32)))
          (broadcastInDim S50000x16 ![] bcast_S_S50000x16 (id (constant S_ .f32 0x00000000#32))) a)))

section Chain
variable (x : FVec Ideal S50000x128 .f32) (src dst : IVec S1650000 32) (w : FVec Ideal S1650000 .f32)
  (u : FVec Ideal S50000x16 .f32) (w1 : FVec Ideal S128x32 .f32) (wm ws : FVec Ideal S32x16 .f32)
  (wd : FVec Ideal S16x32 .f32) (wo : FVec Ideal S32x128 .f32)

/-- The hidden layer: clamp of the first convolution. -/
def hidden : FVec Ideal S50000x32 .f32 :=
  relu32 (agg32 (Host.dotGeneral dot_S50000x128_S128x32_S50000x32_1_0_0_1_n_n none x w1) src dst w)
/-- The means: the second convolution. -/
def means : FVec Ideal S50000x16 .f32 :=
  agg16 (Host.dotGeneral dot_S50000x32_S32x16_S50000x16_1_0_0_1_n_n none (hidden x src dst w w1) wm) src dst w
/-- The deviations: `elu + 1` of the third convolution. -/
def std : FVec Ideal S50000x16 .f32 :=
  addf (elu16 (agg16 (Host.dotGeneral dot_S50000x32_S32x16_S50000x16_1_0_0_1_n_n none (hidden x src dst w w1) ws) src dst w))
    (broadcastInDim S50000x16 ![] bcast_S_S50000x16 (constant S_ .f32 0x3F800000#32))
/-- The code: means plus deviations times noise. -/
def enc : FVec Ideal S50000x16 .f32 :=
  addf (means x src dst w w1 wm) (mulf (std x src dst w w1 ws) u)
/-- The decoder's hidden layer: clamp of the fourth convolution. -/
def decoded : FVec Ideal S50000x32 .f32 :=
  relu32 (agg32 (Host.dotGeneral dot_S50000x16_S16x32_S50000x32_1_0_0_1_n_n none (enc x src dst w u w1 wm ws) wd) src dst w)
/-- The prediction: clamp of the fifth convolution. -/
def pred : FVec Ideal S50000x128 .f32 :=
  relu128 (agg128 (Host.dotGeneral dot_S50000x32_S32x128_S50000x128_1_0_0_1_n_n none (decoded x src dst w u w1 wm ws wd) wo) src dst w)

end Chain

end Cert.ReferenceIdeal.RefTerm

end
-- ==== Proof.RefRun.lean ====
/-
  The reference program's run, read back: every weakly fair execution ends with each of its three results at the
  composition of whole-array steps spelt in RefTerm (five graph-convolution layers with their clamps, `elu + 1` and the
  mix with the noise), applied to the argument arrays as launched, and with the arguments unchanged.
-/
import proofs.«409194_j73143293051581_2_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

section Line
variable {F : FTy → Type} [FloatOps F]

/-- The first 60 statements of @main as its 76 host operations in order, the calls unfolded: the first convolution
    (17 operations), its clamp (@relu: the zero, its broadcast, the maximum), the second convolution (17), the third
    (17), `elu` of it (@elu: fifteen, the two selects being @_where's three and @_where_0's one), the one, its broadcast,
    the sum, the product with the noise, the sum with the means, and the fourth convolution's first two operations. -/
abbrev ops0 : List (HloOp τ sig (Elt F)) :=
  [ binary main_arg0 main_arg5 main_v0 ((fun l r => Host.dotGeneral dot_S50000x128_S128x32_S50000x32_1_0_0_1_n_n none l r) : (⟨S50000x128, .f32⟩ : BufTy).Contents (Elt F) → (⟨S128x32, .f32⟩ : BufTy).Contents (Elt F) → (⟨S50000x32, .f32⟩ : BufTy).Contents (Elt F)),
    unary main_arg3 main_v1 (broadcastInDim S1650000x1 ![0] bcast_S1650000_S1650000x1_0 : (⟨S1650000, .f32⟩ : BufTy).Contents (Elt F) → (⟨S1650000x1, .f32⟩ : BufTy).Contents (Elt F)),
    nullary main_c (constantI S_ 32 0#32),
    unary main_c main_v2 (broadcastInDim S1650000 ![] bcast_S_S1650000 : (⟨S_, .i32⟩ : BufTy).Contents (Elt F) → (⟨S1650000, .i32⟩ : BufTy).Contents (Elt F)),
    binary main_arg1 main_v2 main_v3 (cmpi .slt : (⟨S1650000, .i32⟩ : BufTy).Contents (Elt F) → (⟨S1650000, .i32⟩ : BufTy).Contents (Elt F) → (⟨S1650000, .i1⟩ : BufTy).Contents (Elt F)),
    nullary main_c_0 (constantI S_ 32 50000#32),
    unary main_c_0 main_v4 (broadcastInDim S1650000 ![] bcast_S_S1650000 : (⟨S_, .i32⟩ : BufTy).Contents (Elt F) → (⟨S1650000, .i32⟩ : BufTy).Contents (Elt F)),
    binary main_arg1 main_v4 main_v5 (addi : (⟨S1650000, .i32⟩ : BufTy).Contents (Elt F) → (⟨S1650000, .i32⟩ : BufTy).Contents (Elt F) → (⟨S1650000, .i32⟩ : BufTy).Contents (Elt F)),
    ternary main_v3 main_v5 main_arg1 main_v6 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v6 main_v7 (broadcastInDim S1650000x1 ![0] bcast_S1650000_S1650000x1_0 : (⟨S1650000, .i32⟩ : BufTy).Contents (Elt F) → (⟨S1650000x1, .i32⟩ : BufTy).Contents (Elt F)),
    binary main_v0 main_v7 main_v8 ((fun x i => Host.gather gather_S50000x32_S1650000x1_S1650000x32_1_0_n_n_0_1_132 x i) : (⟨S50000x32, .f32⟩ : BufTy).Contents (Elt F) → (⟨S1650000x1, .i32⟩ : BufTy).Contents (Elt F) → (⟨S1650000x32, .f32⟩ : BufTy).Contents (Elt F)),
    unary main_v1 main_v9 (broadcastInDim S1650000x32 ![0, 1] bcast_S1650000x1_S1650000x32_0_1 : (⟨S1650000x1, .f32⟩ : BufTy).Contents (Elt F) → (⟨S1650000x32, .f32⟩ : BufTy).Contents (Elt F)),
    binary main_v9 main_v8 main_v10 (mulf : (⟨S1650000x32, .f32⟩ : BufTy).Contents (Elt F) → (⟨S1650000x32, .f32⟩ : BufTy).Contents (Elt F) → (⟨S1650000x32, .f32⟩ : BufTy).Contents (Elt F)),
    nullary main_cst (constant S_ .f32 0x00000000#32),
    unary main_cst main_v11 (broadcastInDim S50000x32 ![] bcast_S_S50000x32 : (⟨S_, .f32⟩ : BufTy).Contents (Elt F) → (⟨S50000x32, .f32⟩ : BufTy).Contents (Elt F)),
    unary main_arg2 main_v12 (broadcastInDim S1650000x1 ![0] bcast_S1650000_S1650000x1_0 : (⟨S1650000, .i32⟩ : BufTy).Contents (Elt F) → (⟨S1650000x1, .i32⟩ : BufTy).Contents (Elt F)),
    ternary main_v11 main_v12 main_v10 main_v13 ((fun x i u => Host.scatterAdd scatter_S50000x32_S1650000x1_S1650000x32_1_0_0_1 x i u) : (⟨S50000x32, .f32⟩ : BufTy).Contents (Elt F) → (⟨S1650000x1, .i32⟩ : BufTy).Contents (Elt F) → (⟨S1650000x32, .f32⟩ : BufTy).Contents (Elt F) → (⟨S50000x32, .f32⟩ : BufTy).Contents (Elt F)),
    TRef.nullary main_call0.cst (constant S_ .f32 0x00000000#32),
    TRef.unary main_call0.cst main_call0.v0 (broadcastInDim S50000x32 ![] bcast_S_S50000x32),
    TRef.binary (.of main_v13 : TRef sig ⟨S50000x32, .f32⟩) main_call0.v0 main_call0.v1 maximumf,
    binary main_v14 main_arg6 main_v15 ((fun l r => Host.dotGeneral dot_S50000x32_S32x16_S50000x16_1_0_0_1_n_n none l r) : (⟨S50000x32, .f32⟩ : BufTy).Contents (Elt F) → (⟨S32x16, .f32⟩ : BufTy).Contents (Elt F) → (⟨S50000x16, .f32⟩ : BufTy).Contents (Elt F)),
    unary main_arg3 main_v16 (broadcastInDim S1650000x1 ![0] bcast_S1650000_S1650000x1_0 : (⟨S1650000, .f32⟩ : BufTy).Contents (Elt F) → (⟨S1650000x1, .f32⟩ : BufTy).Contents (Elt F)),
    nullary main_c_1 (constantI S_ 32 0#32),
    unary main_c_1 main_v17 (broadcastInDim S1650000 ![] bcast_S_S1650000 : (⟨S_, .i32⟩ : BufTy).Contents (Elt F) → (⟨S1650000, .i32⟩ : BufTy).Contents (Elt F)),
    binary main_arg1 main_v17 main_v18 (cmpi .slt : (⟨S1650000, .i32⟩ : BufTy).Contents (Elt F) → (⟨S1650000, .i32⟩ : BufTy).Contents (Elt F) → (⟨S1650000, .i1⟩ : BufTy).Contents (Elt F)),
    nullary main_c_2 (constantI S_ 32 50000#32),
    unary main_c_2 main_v19 (broadcastInDim S1650000 ![] bcast_S_S1650000 : (⟨S_, .i32⟩ : BufTy).Contents (Elt F) → (⟨S1650000, .i32⟩ : BufTy).Contents (Elt F)),
    binary main_arg1 main_v19 main_v20 (addi : (⟨S1650000, .i32⟩ : BufTy).Contents (Elt F) → (⟨S1650000, .i32⟩ : BufTy).Contents (Elt F) → (⟨S1650000, .i32⟩ : BufTy).Contents (Elt F)),
    ternary main_v18 main_v20 main_arg1 main_v21 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v21 main_v22 (broadcastInDim S1650000x1 ![0] bcast_S1650000_S1650000x1_0 : (⟨S1650000, .i32⟩ : BufTy).Contents (Elt F) → (⟨S1650000x1, .i32⟩ : BufTy).Contents (Elt F)),
    binary main_v15 main_v22 main_v23 ((fun x i => Host.gather gather_S50000x16_S1650000x1_S1650000x16_1_0_n_n_0_1_116 x i) : (⟨S50000x16, .f32⟩ : BufTy).Contents (Elt F) → (⟨S1650000x1, .i32⟩ : BufTy).Contents (Elt F) → (⟨S1650000x16, .f32⟩ : BufTy).Contents (Elt F)),
    unary main_v16 main_v24 (broadcastInDim S1650000x16 ![0, 1] bcast_S1650000x1_S1650000x16_0_1 : (⟨S1650000x1, .f32⟩ : BufTy).Contents (Elt F) → (⟨S1650000x16, .f32⟩ : BufTy).Contents (Elt F)),
    binary main_v24 main_v23 main_v25 (mulf : (⟨S1650000x16, .f32⟩ : BufTy).Contents (Elt F) → (⟨S1650000x16, .f32⟩ : BufTy).Contents (Elt F) → (⟨S1650000x16, .f32⟩ : BufTy).Contents (Elt F)),
    nullary main_cst_3 (constant S_ .f32 0x00000000#32),
    unary main_cst_3 main_v26 (broadcastInDim S50000x16 ![] bcast_S_S50000x16 : (⟨S_, .f32⟩ : BufTy).Contents (Elt F) → (⟨S50000x16, .f32⟩ : BufTy).Contents (Elt F)),
    unary main_arg2 main_v27 (broadcastInDim S1650000x1 ![0] bcast_S1650000_S1650000x1_0 : (⟨S1650000, .i32⟩ : BufTy).Contents (Elt F) → (⟨S1650000x1, .i32⟩ : BufTy).Contents (Elt F)),
    ternary main_v26 main_v27 main_v25 main_v28 ((fun x i u => Host.scatterAdd scatter_S50000x16_S1650000x1_S1650000x16_1_0_0_1 x i u) : (⟨S50000x16, .f32⟩ : BufTy).Contents (Elt F) → (⟨S1650000x1, .i32⟩ : BufTy).Contents (Elt F) → (⟨S1650000x16, .f32⟩ : BufTy).Contents (Elt F) → (⟨S50000x16, .f32⟩ : BufTy).Contents (Elt F)),
    binary main_v14 main_arg7 main_v29 ((fun l r => Host.dotGeneral dot_S50000x32_S32x16_S50000x16_1_0_0_1_n_n none l r) : (⟨S50000x32, .f32⟩ : BufTy).Contents (Elt F) → (⟨S32x16, .f32⟩ : BufTy).Contents (Elt F) → (⟨S50000x16, .f32⟩ : BufTy).Contents (Elt F)),
    unary main_arg3 main_v30 (broadcastInDim S1650000x1 ![0] bcast_S1650000_S1650000x1_0 : (⟨S1650000, .f32⟩ : BufTy).Contents (Elt F) → (⟨S1650000x1, .f32⟩ : BufTy).Contents (Elt F)),
    nullary main_c_4 (constantI S_ 32 0#32),
    unary main_c_4 main_v31 (broadcastInDim S1650000 ![] bcast_S_S1650000 : (⟨S_, .i32⟩ : BufTy).Contents (Elt F) → (⟨S1650000, .i32⟩ : BufTy).Contents (Elt F)),
    binary main_arg1 main_v31 main_v32 (cmpi .slt : (⟨S1650000, .i32⟩ : BufTy).Contents (Elt F) → (⟨S1650000, .i32⟩ : BufTy).Contents (Elt F) → (⟨S1650000, .i1⟩ : BufTy).Contents (Elt F)),
    nullary main_c_5 (constantI S_ 32 50000#32),
    unary main_c_5 main_v33 (broadcastInDim S1650000 ![] bcast_S_S1650000 : (⟨S_, .i32⟩ : BufTy).Contents (Elt F) → (⟨S1650000, .i32⟩ : BufTy).Contents (Elt F)),
    binary main_arg1 main_v33 main_v34 (addi : (⟨S1650000, .i32⟩ : BufTy).Contents (Elt F) → (⟨S1650000, .i32⟩ : BufTy).Contents (Elt F) → (⟨S1650000, .i32⟩ : BufTy).Contents (Elt F)),
    ternary main_v32 main_v34 main_arg1 main_v35 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v35 main_v36 (broadcastInDim S1650000x1 ![0] bcast_S1650000_S1650000x1_0 : (⟨S1650000, .i32⟩ : BufTy).Contents (Elt F) → (⟨S1650000x1, .i32⟩ : BufTy).Contents (Elt F)),
    binary main_v29 main_v36 main_v37 ((fun x i => Host.gather gather_S50000x16_S1650000x1_S1650000x16_1_0_n_n_0_1_116 x i) : (⟨S50000x16, .f32⟩ : BufTy).Contents (Elt F) → (⟨S1650000x1, .i32⟩ : BufTy).Contents (Elt F) → (⟨S1650000x16, .f32⟩ : BufTy).Contents (Elt F)),
    unary main_v30 main_v38 (broadcastInDim S1650000x16 ![0, 1] bcast_S1650000x1_S1650000x16_0_1 : (⟨S1650000x1, .f32⟩ : BufTy).Contents (Elt F) → (⟨S1650000x16, .f32⟩ : BufTy).Contents (Elt F)),
    binary main_v38 main_v37 main_v39 (mulf : (⟨S1650000x16, .f32⟩ : BufTy).Contents (Elt F) → (⟨S1650000x16, .f32⟩ : BufTy).Contents (Elt F) → (⟨S1650000x16, .f32⟩ : BufTy).Contents (Elt F)),
    nullary main_cst_6 (constant S_ .f32 0x00000000#32),
    unary main_cst_6 main_v40 (broadcastInDim S50000x16 ![] bcast_S_S50000x16 : (⟨S_, .f32⟩ : BufTy).Contents (Elt F) → (⟨S50000x16, .f32⟩ : BufTy).Contents (Elt F)),
    unary main_arg2 main_v41 (broadcastInDim S1650000x1 ![0] bcast_S1650000_S1650000x1_0 : (⟨S1650000, .i32⟩ : BufTy).Contents (Elt F) → (⟨S1650000x1, .i32⟩ : BufTy).Contents (Elt F)),
    ternary main_v40 main_v41 main_v39 main_v42 ((fun x i u => Host.scatterAdd scatter_S50000x16_S1650000x1_S1650000x16_1_0_0_1 x i u) : (⟨S50000x16, .f32⟩ : BufTy).Contents (Elt F) → (⟨S1650000x1, .i32⟩ : BufTy).Contents (Elt F) → (⟨S1650000x16, .f32⟩ : BufTy).Contents (Elt F) → (⟨S50000x16, .f32⟩ : BufTy).Contents (Elt F)),
    TRef.nullary main_call1.cst (constant S_ .f32 0x00000000#32),
    TRef.unary main_call1.cst main_call1.v0 (broadcastInDim S50000x16 ![] bcast_S_S50000x16),
    TRef.binary (.of main_v42 : TRef sig ⟨S50000x16, .f32⟩) main_call1.v0 main_call1.v1 (cmpf .ogt),
    TRef.nullary main_call1.cst_0 (constant S_ .f32 0x00000000#32),
    TRef.unary main_call1.cst_0 main_call1.v2 (broadcastInDim S50000x16 ![] bcast_S_S50000x16),
    TRef.binary (.of main_v42 : TRef sig ⟨S50000x16, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S50000x16 ![] bcast_S_S50000x16),
    TRef.ternary main_call1.v3 main_call1.call0.v1 (.of main_v42 : TRef sig ⟨S50000x16, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S50000x16 ![] bcast_S_S50000x16),
    TRef.binary main_call1.v6 main_call1.v5 main_call1.v7 mulf,
    TRef.ternary main_call1.v1 (.of main_v42 : TRef sig ⟨S50000x16, .f32⟩) main_call1.v7 main_call1.call1.v0 select,
    nullary main_cst_7 (constant S_ .f32 0x3F800000#32),
    unary main_cst_7 main_v44 (broadcastInDim S50000x16 ![] bcast_S_S50000x16 : (⟨S_, .f32⟩ : BufTy).Contents (Elt F) → (⟨S50000x16, .f32⟩ : BufTy).Contents (Elt F)),
    binary main_v43 main_v44 main_v45 (addf : (⟨S50000x16, .f32⟩ : BufTy).Contents (Elt F) → (⟨S50000x16, .f32⟩ : BufTy).Contents (Elt F) → (⟨S50000x16, .f32⟩ : BufTy).Contents (Elt F)),
    binary main_v45 main_arg4 main_v46 (mulf : (⟨S50000x16, .f32⟩ : BufTy).Contents (Elt F) → (⟨S50000x16, .f32⟩ : BufTy).Contents (Elt F) → (⟨S50000x16, .f32⟩ : BufTy).Contents (Elt F)),
    binary main_v28 main_v46 main_v47 (addf : (⟨S50000x16, .f32⟩ : BufTy).Contents (Elt F) → (⟨S50000x16, .f32⟩ : BufTy).Contents (Elt F) → (⟨S50000x16, .f32⟩ : BufTy).Contents (Elt F)),
    binary main_v47 main_arg8 main_v48 ((fun l r => Host.dotGeneral dot_S50000x16_S16x32_S50000x32_1_0_0_1_n_n none l r) : (⟨S50000x16, .f32⟩ : BufTy).Contents (Elt F) → (⟨S16x32, .f32⟩ : BufTy).Contents (Elt F) → (⟨S50000x32, .f32⟩ : BufTy).Contents (Elt F)),
    unary main_arg3 main_v49 (broadcastInDim S1650000x1 ![0] bcast_S1650000_S1650000x1_0 : (⟨S1650000, .f32⟩ : BufTy).Contents (Elt F) → (⟨S1650000x1, .f32⟩ : BufTy).Contents (Elt F)) ]

/-- The last 35 statements of @main as its 38 host operations in order: the rest of the fourth convolution (15), its
    clamp (@relu: three), the fifth convolution (17) and its clamp (@relu_1: three). -/
abbrev ops1 : List (HloOp τ sig (Elt F)) :=
  [ nullary main_c_8 (constantI S_ 32 0#32),
    unary main_c_8 main_v50 (broadcastInDim S1650000 ![] bcast_S_S1650000 : (⟨S_, .i32⟩ : BufTy).Contents (Elt F) → (⟨S1650000, .i32⟩ : BufTy).Contents (Elt F)),
    binary main_arg1 main_v50 main_v51 (cmpi .slt : (⟨S1650000, .i32⟩ : BufTy).Contents (Elt F) → (⟨S1650000, .i32⟩ : BufTy).Contents (Elt F) → (⟨S1650000, .i1⟩ : BufTy).Contents (Elt F)),
    nullary main_c_9 (constantI S_ 32 50000#32),
    unary main_c_9 main_v52 (broadcastInDim S1650000 ![] bcast_S_S1650000 : (⟨S_, .i32⟩ : BufTy).Contents (Elt F) → (⟨S1650000, .i32⟩ : BufTy).Contents (Elt F)),
    binary main_arg1 main_v52 main_v53 (addi : (⟨S1650000, .i32⟩ : BufTy).Contents (Elt F) → (⟨S1650000, .i32⟩ : BufTy).Contents (Elt F) → (⟨S1650000, .i32⟩ : BufTy).Contents (Elt F)),
    ternary main_v51 main_v53 main_arg1 main_v54 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v54 main_v55 (broadcastInDim S1650000x1 ![0] bcast_S1650000_S1650000x1_0 : (⟨S1650000, .i32⟩ : BufTy).Contents (Elt F) → (⟨S1650000x1, .i32⟩ : BufTy).Contents (Elt F)),
    binary main_v48 main_v55 main_v56 ((fun x i => Host.gather gather_S50000x32_S1650000x1_S1650000x32_1_0_n_n_0_1_132 x i) : (⟨S50000x32, .f32⟩ : BufTy).Contents (Elt F) → (⟨S1650000x1, .i32⟩ : BufTy).Contents (Elt F) → (⟨S1650000x32, .f32⟩ : BufTy).Contents (Elt F)),
    unary main_v49 main_v57 (broadcastInDim S1650000x32 ![0, 1] bcast_S1650000x1_S1650000x32_0_1 : (⟨S1650000x1, .f32⟩ : BufTy).Contents (Elt F) → (⟨S1650000x32, .f32⟩ : BufTy).Contents (Elt F)),
    binary main_v57 main_v56 main_v58 (mulf : (⟨S1650000x32, .f32⟩ : BufTy).Contents (Elt F) → (⟨S1650000x32, .f32⟩ : BufTy).Contents (Elt F) → (⟨S1650000x32, .f32⟩ : BufTy).Contents (Elt F)),
    nullary main_cst_10 (constant S_ .f32 0x00000000#32),
    unary main_cst_10 main_v59 (broadcastInDim S50000x32 ![] bcast_S_S50000x32 : (⟨S_, .f32⟩ : BufTy).Contents (Elt F) → (⟨S50000x32, .f32⟩ : BufTy).Contents (Elt F)),
    unary main_arg2 main_v60 (broadcastInDim S1650000x1 ![0] bcast_S1650000_S1650000x1_0 : (⟨S1650000, .i32⟩ : BufTy).Contents (Elt F) → (⟨S1650000x1, .i32⟩ : BufTy).Contents (Elt F)),
    ternary main_v59 main_v60 main_v58 main_v61 ((fun x i u => Host.scatterAdd scatter_S50000x32_S1650000x1_S1650000x32_1_0_0_1 x i u) : (⟨S50000x32, .f32⟩ : BufTy).Contents (Elt F) → (⟨S1650000x1, .i32⟩ : BufTy).Contents (Elt F) → (⟨S1650000x32, .f32⟩ : BufTy).Contents (Elt F) → (⟨S50000x32, .f32⟩ : BufTy).Contents (Elt F)),
    TRef.nullary main_call2.cst (constant S_ .f32 0x00000000#32),
    TRef.unary main_call2.cst main_call2.v0 (broadcastInDim S50000x32 ![] bcast_S_S50000x32),
    TRef.binary (.of main_v61 : TRef sig ⟨S50000x32, .f32⟩) main_call2.v0 main_call2.v1 maximumf,
    binary main_v62 main_arg9 main_v63 ((fun l r => Host.dotGeneral dot_S50000x32_S32x128_S50000x128_1_0_0_1_n_n none l r) : (⟨S50000x32, .f32⟩ : BufTy).Contents (Elt F) → (⟨S32x128, .f32⟩ : BufTy).Contents (Elt F) → (⟨S50000x128, .f32⟩ : BufTy).Contents (Elt F)),
    unary main_arg3 main_v64 (broadcastInDim S1650000x1 ![0] bcast_S1650000_S1650000x1_0 : (⟨S1650000, .f32⟩ : BufTy).Contents (Elt F) → (⟨S1650000x1, .f32⟩ : BufTy).Contents (Elt F)),
    nullary main_c_11 (constantI S_ 32 0#32),
    unary main_c_11 main_v65 (broadcastInDim S1650000 ![] bcast_S_S1650000 : (⟨S_, .i32⟩ : BufTy).Contents (Elt F) → (⟨S1650000, .i32⟩ : BufTy).Contents (Elt F)),
    binary main_arg1 main_v65 main_v66 (cmpi .slt : (⟨S1650000, .i32⟩ : BufTy).Contents (Elt F) → (⟨S1650000, .i32⟩ : BufTy).Contents (Elt F) → (⟨S1650000, .i1⟩ : BufTy).Contents (Elt F)),
    nullary main_c_12 (constantI S_ 32 50000#32),
    unary main_c_12 main_v67 (broadcastInDim S1650000 ![] bcast_S_S1650000 : (⟨S_, .i32⟩ : BufTy).Contents (Elt F) → (⟨S1650000, .i32⟩ : BufTy).Contents (Elt F)),
    binary main_arg1 main_v67 main_v68 (addi : (⟨S1650000, .i32⟩ : BufTy).Contents (Elt F) → (⟨S1650000, .i32⟩ : BufTy).Contents (Elt F) → (⟨S1650000, .i32⟩ : BufTy).Contents (Elt F)),
    ternary main_v66 main_v68 main_arg1 main_v69 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v69 main_v70 (broadcastInDim S1650000x1 ![0] bcast_S1650000_S1650000x1_0 : (⟨S1650000, .i32⟩ : BufTy).Contents (Elt F) → (⟨S1650000x1, .i32⟩ : BufTy).Contents (Elt F)),
    binary main_v63 main_v70 main_v71 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    unary main_v64 main_v72 (broadcastInDim S1650000x128 ![0, 1] bcast_S1650000x1_S1650000x128_0_1 : (⟨S1650000x1, .f32⟩ : BufTy).Contents (Elt F) → (⟨S1650000x128, .f32⟩ : BufTy).Contents (Elt F)),
    binary main_v72 main_v71 main_v73 (mulf : (⟨S1650000x128, .f32⟩ : BufTy).Contents (Elt F) → (⟨S1650000x128, .f32⟩ : BufTy).Contents (Elt F) → (⟨S1650000x128, .f32⟩ : BufTy).Contents (Elt F)),
    nullary main_cst_13 (constant S_ .f32 0x00000000#32),
    unary main_cst_13 main_v74 (broadcastInDim S50000x128 ![] bcast_S_S50000x128 : (⟨S_, .f32⟩ : BufTy).Contents (Elt F) → (⟨S50000x128, .f32⟩ : BufTy).Contents (Elt F)),
    unary main_arg2 main_v75 (broadcastInDim S1650000x1 ![0] bcast_S1650000_S1650000x1_0 : (⟨S1650000, .i32⟩ : BufTy).Contents (Elt F) → (⟨S1650000x1, .i32⟩ : BufTy).Contents (Elt F)),
    ternary main_v74 main_v75 main_v73 main_v76 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)),
    TRef.nullary main_call3.cst (constant S_ .f32 0x00000000#32),
    TRef.unary main_call3.cst main_call3.v0 (broadcastInDim S50000x128 ![] bcast_S_S50000x128),
    TRef.binary (.of main_v76 : TRef sig ⟨S50000x128, .f32⟩) main_call3.v0 main_call3.v1 maximumf ]

/-- @main's 114 host operations in order. -/
abbrev ops : List (HloOp τ sig (Elt F)) := ops0 ++ ops1

/-! ## The whole-array steps for any float values

RefTerm's steps, letter for letter, over any float values: the line of operations is read back for any float values,
and at the ideal values these are RefTerm's by unfolding. -/

namespace G

/-- Gather by source, scale by the edge weight, add up by destination: 32 columns. -/
def agg32 (t : FVec F S50000x32 .f32) (src dst : IVec S1650000 32) (w : FVec F S1650000 .f32) :
    FVec F S50000x32 .f32 :=
  Host.scatterAdd scatter_S50000x32_S1650000x1_S1650000x32_1_0_0_1
    (broadcastInDim S50000x32 ![] bcast_S_S50000x32 (constant S_ .f32 0x00000000#32))
    (broadcastInDim S1650000x1 ![0] bcast_S1650000_S1650000x1_0 dst)
    (mulf (broadcastInDim S1650000x32 ![0, 1] bcast_S1650000x1_S1650000x32_0_1
        (broadcastInDim S1650000x1 ![0] bcast_S1650000_S1650000x1_0 w))
      (Host.gather gather_S50000x32_S1650000x1_S1650000x32_1_0_n_n_0_1_132 t (RefTerm.srcCol src)))

/-- The same for a 16-column table. -/
def agg16 (t : FVec F S50000x16 .f32) (src dst : IVec S1650000 32) (w : FVec F S1650000 .f32) :
    FVec F S50000x16 .f32 :=
  Host.scatterAdd scatter_S50000x16_S1650000x1_S1650000x16_1_0_0_1
    (broadcastInDim S50000x16 ![] bcast_S_S50000x16 (constant S_ .f32 0x00000000#32))
    (broadcastInDim S1650000x1 ![0] bcast_S1650000_S1650000x1_0 dst)
    (mulf (broadcastInDim S1650000x16 ![0, 1] bcast_S1650000x1_S1650000x16_0_1
        (broadcastInDim S1650000x1 ![0] bcast_S1650000_S1650000x1_0 w))
      (Host.gather gather_S50000x16_S1650000x1_S1650000x16_1_0_n_n_0_1_116 t (RefTerm.srcCol src)))

/-- The same for a 128-column table. -/
def agg128 (t : FVec F S50000x128 .f32) (src dst : IVec S1650000 32) (w : FVec F S1650000 .f32) :
    FVec F S50000x128 .f32 :=
  Host.scatterAdd scatter_S50000x128_S1650000x1_S1650000x128_1_0_0_1
    (broadcastInDim S50000x128 ![] bcast_S_S50000x128 (constant S_ .f32 0x00000000#32))
    (broadcastInDim S1650000x1 ![0] bcast_S1650000_S1650000x1_0 dst)
    (mulf (broadcastInDim S1650000x128 ![0, 1] bcast_S1650000x1_S1650000x128_0_1
        (broadcastInDim S1650000x1 ![0] bcast_S1650000_S1650000x1_0 w))
      (Host.gather gather_S50000x128_S1650000x1_S1650000x128_1_0_n_n_0_1_1128 t (RefTerm.srcCol src)))

/-- The clamp at zero of a 32-column table. -/
def relu32 (a : FVec F S50000x32 .f32) : FVec F S50000x32 .f32 :=
  maximumf a (broadcastInDim S50000x32 ![] bcast_S_S50000x32 (constant S_ .f32 0x00000000#32))

/-- The clamp at zero of a 128-column table. -/
def relu128 (a : FVec F S50000x128 .f32) : FVec F S50000x128 .f32 :=
  maximumf a (broadcastInDim S50000x128 ![] bcast_S_S50000x128 (constant S_ .f32 0x00000000#32))

/-- `elu` of a 16-column table as the program spells it. -/
def elu16 (a : FVec F S50000x16 .f32) : FVec F S50000x16 .f32 :=
  select (cmpf .ogt a (broadcastInDim S50000x16 ![] bcast_S_S50000x16 (constant S_ .f32 0x00000000#32))) a
    (mulf (broadcastInDim S50000x16 ![] bcast_S_S50000x16 (constant S_ .f32 0x3F800000#32))
      (Host.expm1
        (select (cmpf .ogt a (broadcastInDim S50000x16 ![] bcast_S_S50000x16 (constant S_ .f32 0x00000000#32)))
          (broadcastInDim S50000x16 ![] bcast_S_S50000x16 (id (constant S_ .f32 0x00000000#32))) a)))

section Chain
variable (x : FVec F S50000x128 .f32) (src dst : IVec S1650000 32) (w : FVec F S1650000 .f32)
  (u : FVec F S50000x16 .f32) (w1 : FVec F S128x32 .f32) (wm ws : FVec F S32x16 .f32)
  (wd : FVec F S16x32 .f32) (wo : FVec F S32x128 .f32)

/-- The hidden layer: clamp of the first convolution. -/
def hidden : FVec F S50000x32 .f32 :=
  relu32 (agg32 (Host.dotGeneral dot_S50000x128_S128x32_S50000x32_1_0_0_1_n_n none x w1) src dst w)
/-- The means: the second convolution. -/
def means : FVec F S50000x16 .f32 :=
  agg16 (Host.dotGeneral dot_S50000x32_S32x16_S50000x16_1_0_0_1_n_n none (hidden x src dst w w1) wm) src dst w
/-- The deviations: `elu + 1` of the third convolution. -/
def std : FVec F S50000x16 .f32 :=
  addf (elu16 (agg16 (Host.dotGeneral dot_S50000x32_S32x16_S50000x16_1_0_0_1_n_n none (hidden x src dst w w1) ws) src dst w))
    (broadcastInDim S50000x16 ![] bcast_S_S50000x16 (constant S_ .f32 0x3F800000#32))
/-- The code: means plus deviations times noise. -/
def enc : FVec F S50000x16 .f32 :=
  addf (means x src dst w w1 wm) (mulf (std x src dst w w1 ws) u)
/-- The decoder's hidden layer: clamp of the fourth convolution. -/
def decoded : FVec F S50000x32 .f32 :=
  relu32 (agg32 (Host.dotGeneral dot_S50000x16_S16x32_S50000x32_1_0_0_1_n_n none (enc x src dst w u w1 wm ws) wd) src dst w)
/-- The prediction: clamp of the fifth convolution. -/
def pred : FVec F S50000x128 .f32 :=
  relu128 (agg128 (Host.dotGeneral dot_S50000x32_S32x128_S50000x128_1_0_0_1_n_n none (decoded x src dst w u w1 wm ws wd) wo) src dst w)

end Chain

end G

/-! ## @main is that line -/

set_option maxRecDepth 4096 in
set_option maxHeartbeats 4000000 in
/-- The first window is its operations in order: the functions' definitions unfolded at their calls and the records at
    their fields, both sides are one chain of steps once sequencing is reassociated. -/
theorem main_part0_eq (c : Dev nD) : main_part0 (F := F) c = seq ops0 := by
  simp only [main_part0, fn_relu.body, fn_elu.body, fn_where.body, fn_where_0.body, seq, bind_assoc, pure_bind] <;> rfl

set_option maxRecDepth 4096 in
set_option maxHeartbeats 4000000 in
/-- The second window likewise. -/
theorem main_part1_eq (c : Dev nD) : main_part1 (F := F) c = seq ops1 := by
  simp only [main_part1, fn_relu.body, fn_relu_1.body, seq, bind_assoc, pure_bind] <;> rfl

/-- @main runs the two windows in order: the concatenation run as one line. -/
theorem main_eq (c : Dev nD) : main (F := F) c = seq ops := by
  show main_part0 c >>= (fun _ => main_part1 c) = seq (ops0 ++ ops1)
  rw [seq_append, main_part0_eq, main_part1_eq]

theorem scopedRefs_eq : (Finset.univ.filter fun b : Ref sig .tc => b.isScoped) = ∅ := by decide
theorem scopedSems_eq : (Finset.univ.filter fun sm : SemLoc sig => sm.isScoped .tc) = ∅ := by decide

/-- Every buffer an operation of the first window names is a TensorCore buffer. -/
theorem ops0_sub : (ops0 : List (HloOp τ sig (Elt F))).Forall fun op => op.bufs ⊆ tcRefs τ sig := by
  simp only [ops0, List.Forall, nullary_bufs_sub, unary_bufs_sub, binary_bufs_sub, ternary_bufs_sub, and_self]

/-- The same for the second window. -/
theorem ops1_sub : (ops1 : List (HloOp τ sig (Elt F))).Forall fun op => op.bufs ⊆ tcRefs τ sig := by
  simp only [ops1, List.Forall, nullary_bufs_sub, unary_bufs_sub, binary_bufs_sub, ternary_bufs_sub, and_self]

theorem ops_sub : (ops : List (HloOp τ sig (Elt F))).Forall fun op => op.bufs ⊆ tcRefs τ sig :=
  List.forall_iff_forall_mem.mpr fun op h => by
    rcases List.mem_append.mp h with h | h
    · exact List.forall_iff_forall_mem.mp ops0_sub op h
    · exact List.forall_iff_forall_mem.mp ops1_sub op h

/-- No operation of the first window allocates: each determines what it writes. -/
theorem ops0_fresh : ∀ op ∈ (ops0 : List (HloOp τ sig (Elt F))), op.fresh = ∅ := by
  intro _ h; (repeat (cases h with | head => rfl | tail _ h => ?_)); exact nomatch h

/-- The same for the second window. -/
theorem ops1_fresh : ∀ op ∈ (ops1 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := fun op h =>
  (List.mem_append.mp h).elim (ops0_fresh op) (ops1_fresh op)

/-- From any memory with zero counters, every weakly fair execution of @main terminates with each TensorCore buffer
    at the fold of the 114 operations over its launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## The results, read off the fold -/

attribute [local irreducible] Host.gather Host.scatterAdd in
set_option maxRecDepth 16384 in
set_option maxHeartbeats 8000000 in
/-- The prediction's buffer after the line: the fold unrolled, each operation's result read at the buffer it writes and
    passed over at any other, what is left is the composition of the whole-array steps by unfolding. -/
theorem after_pred (V : Valuation τ sig (Elt F)) :
    after ops V (main_v77 : DevRef τ sig)
      = G.pred (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) := by
  simp only [ops, ops0, ops1, List.cons_append, List.nil_append]
  after_results_simp
  rfl

attribute [local irreducible] Host.gather Host.scatterAdd in
set_option maxRecDepth 16384 in
set_option maxHeartbeats 8000000 in
/-- The means' buffer after the line. -/
theorem after_means (V : Valuation τ sig (Elt F)) :
    after ops V (main_v28 : DevRef τ sig)
      = G.means (V (main_arg0 : DevRef τ sig)) (V (main_arg1 : DevRef τ sig)) (V (main_arg2 : DevRef τ sig))
          (V (main_arg3 : DevRef τ sig)) (V (main_arg5 : DevRef τ sig)) (V (main_arg6 : DevRef τ sig)) := by
  simp only [ops, ops0, ops1, List.cons_append, List.nil_append]
  after_results_simp
  rfl

attribute [local irreducible] Host.gather Host.scatterAdd in
set_option maxRecDepth 16384 in
set_option maxHeartbeats 8000000 in
/-- The deviations' buffer after the line. -/
theorem after_std (V : Valuation τ sig (Elt F)) :
    after ops V (main_v45 : DevRef τ sig)
      = G.std (V (main_arg0 : DevRef τ sig)) (V (main_arg1 : DevRef τ sig)) (V (main_arg2 : DevRef τ sig))
          (V (main_arg3 : DevRef τ sig)) (V (main_arg5 : DevRef τ sig)) (V (main_arg7 : DevRef τ sig)) := by
  simp only [ops, ops0, ops1, List.cons_append, List.nil_append]
  after_results_simp
  rfl

/-! No operation writes an argument's buffer: each keeps its launch contents (every one of the 114 operations is
    passed over, its result buffer another). -/

set_option maxRecDepth 16384 in
set_option maxHeartbeats 8000000 in
theorem after_arg0 (V : Valuation τ sig (Elt F)) :
    after ops V (main_arg0 : DevRef τ sig) = V (main_arg0 : DevRef τ sig) := by
  simp only [ops, ops0, ops1, List.cons_append, List.nil_append]
  after_results_simp

set_option maxRecDepth 16384 in
set_option maxHeartbeats 8000000 in
theorem after_arg1 (V : Valuation τ sig (Elt F)) :
    after ops V (main_arg1 : DevRef τ sig) = V (main_arg1 : DevRef τ sig) := by
  simp only [ops, ops0, ops1, List.cons_append, List.nil_append]
  after_results_simp

set_option maxRecDepth 16384 in
set_option maxHeartbeats 8000000 in
theorem after_arg2 (V : Valuation τ sig (Elt F)) :
    after ops V (main_arg2 : DevRef τ sig) = V (main_arg2 : DevRef τ sig) := by
  simp only [ops, ops0, ops1, List.cons_append, List.nil_append]
  after_results_simp

set_option maxRecDepth 16384 in
set_option maxHeartbeats 8000000 in
theorem after_arg3 (V : Valuation τ sig (Elt F)) :
    after ops V (main_arg3 : DevRef τ sig) = V (main_arg3 : DevRef τ sig) := by
  simp only [ops, ops0, ops1, List.cons_append, List.nil_append]
  after_results_simp

set_option maxRecDepth 16384 in
set_option maxHeartbeats 8000000 in
theorem after_arg4 (V : Valuation τ sig (Elt F)) :
    after ops V (main_arg4 : DevRef τ sig) = V (main_arg4 : DevRef τ sig) := by
  simp only [ops, ops0, ops1, List.cons_append, List.nil_append]
  after_results_simp

set_option maxRecDepth 16384 in
set_option maxHeartbeats 8000000 in
theorem after_arg5 (V : Valuation τ sig (Elt F)) :
    after ops V (main_arg5 : DevRef τ sig) = V (main_arg5 : DevRef τ sig) := by
  simp only [ops, ops0, ops1, List.cons_append, List.nil_append]
  after_results_simp

set_option maxRecDepth 16384 in
set_option maxHeartbeats 8000000 in
theorem after_arg6 (V : Valuation τ sig (Elt F)) :
    after ops V (main_arg6 : DevRef τ sig) = V (main_arg6 : DevRef τ sig) := by
  simp only [ops, ops0, ops1, List.cons_append, List.nil_append]
  after_results_simp

set_option maxRecDepth 16384 in
set_option maxHeartbeats 8000000 in
theorem after_arg7 (V : Valuation τ sig (Elt F)) :
    after ops V (main_arg7 : DevRef τ sig) = V (main_arg7 : DevRef τ sig) := by
  simp only [ops, ops0, ops1, List.cons_append, List.nil_append]
  after_results_simp

set_option maxRecDepth 16384 in
set_option maxHeartbeats 8000000 in
theorem after_arg8 (V : Valuation τ sig (Elt F)) :
    after ops V (main_arg8 : DevRef τ sig) = V (main_arg8 : DevRef τ sig) := by
  simp only [ops, ops0, ops1, List.cons_append, List.nil_append]
  after_results_simp

set_option maxRecDepth 16384 in
set_option maxHeartbeats 8000000 in
theorem after_arg9 (V : Valuation τ sig (Elt F)) :
    after ops V (main_arg9 : DevRef τ sig) = V (main_arg9 : DevRef τ sig) := by
  simp only [ops, ops0, ops1, List.cons_append, List.nil_append]
  after_results_simp

end Line

/-! ## At the ideal values the steps are RefTerm's -/

theorem means_eq : G.means (F := Ideal) = RefTerm.means := rfl
theorem std_eq : G.std (F := Ideal) = RefTerm.std := rfl
theorem pred_eq : G.pred (F := Ideal) = RefTerm.pred := rfl

/-- From any memory with zero counters, every weakly fair execution of the reference terminates with the prediction,
    the means and the deviations at RefTerm's functions of the launch arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v77) = RefTerm.pred (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v28) = RefTerm.means (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6))
      ∧ r.2.mem ((c.tc : Thread nD τ).loc main_v45) = RefTerm.std (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
      ⟨(h c main_v77).trans ((after_pred (launchContents m c)).trans (congrFun (congrFun (congrFun (congrFun (congrFun (congrFun (congrFun (congrFun (congrFun (congrFun pred_eq _) _) _) _) _) _) _) _) _) _)),
       (h c main_v28).trans ((after_means (launchContents m c)).trans (congrFun (congrFun (congrFun (congrFun (congrFun (congrFun means_eq _) _) _) _) _) _)),
       (h c main_v45).trans ((after_std (launchContents m c)).trans (congrFun (congrFun (congrFun (congrFun (congrFun (congrFun std_eq _) _) _) _) _) _)),
       (h c main_arg0).trans (after_arg0 _), (h c main_arg1).trans (after_arg1 _), (h c main_arg2).trans (after_arg2 _),
       (h c main_arg3).trans (after_arg3 _), (h c main_arg4).trans (after_arg4 _), (h c main_arg5).trans (after_arg5 _),
       (h c main_arg6).trans (after_arg6 _), (h c main_arg7).trans (after_arg7 _), (h c main_arg8).trans (after_arg8 _),
       (h c main_arg9).trans (after_arg9 _)⟩)
    (run_all (F := Ideal) m ρ)

end Cert.ReferenceIdeal.RefRun

end
-- ==== Proof.Halves.lean ====
/-
  The right half (columns 16 … 31) of a 32-column table, as a 16-column table.
-/
import proofs.«409194_j73143293051581_2_alg».proof.Proof.KerTerm

noncomputable section

namespace Cert.Halves

open Idealize.ShloMosaic Idealize.ShloMosaic.ValueIdx

/-- Columns 16 … 31 of a 32-column table. -/
def right16 (a : (⟨2, ![50000, 32]⟩ : Shape).Idx → EReal) : (⟨2, ![50000, 16]⟩ : Shape).Idx → EReal :=
  fun i => a (ix2 (i 0) ⟨(i 1).val + 16, by have := idx2_lt1 i; omega⟩)

/-- `elu + 1` of the right half is `elu + 1`, entry by entry, of the right half. -/
theorem right16elu_eq (a : (⟨2, ![50000, 32]⟩ : Shape).Idx → EReal) :
    Cert.KernelIdeal.KerTerm.right16elu a = fun i => Cert.KernelIdeal.KerTerm.elu1 (right16 a i) := rfl

end Cert.Halves

end
-- ==== Proof.BridgeDense.lean ====
/-
  The dense steps of the two programs are the same functions.

  The reference's whole-table products (a contraction of the table's axis 1 with the matrix's axis 0) are, index by
  index, the sums `∑ κ, x (i, κ) · w (κ, j)`; its clamps at zero are `max · 0` entry by entry; its `elu` followed by the
  added one is `elu + 1` entry by entry (`expm1 y` is `e^y − 1`, the factor one does nothing, and where the entry is
  positive both programs keep the entry); and a table times two 16-column matrices side by side has, as its left and
  right halves, the table times each matrix.
-/
import proofs.«409194_j73143293051581_2_alg».proof.Proof.KerTerm
import proofs.«409194_j73143293051581_2_alg».proof.Proof.RefTerm
import proofs.«409194_j73143293051581_2_alg».proof.Proof.Halves
import Idealize.ShloMosaic.Lib.ValueIdx
import Idealize.ShloMosaic.Lib.Pipeline.Value
import Idealize.ShloMosaic.PureOps.Ideal.Laws

noncomputable section

namespace Cert.BridgeDense

open Idealize.ShloMosaic Idealize.ShloMosaic.ValueIdx

/-! ## The operand indices of the four products, axis by axis

Each product contracts the table's axis 1 with the matrix's axis 0 and has no batch axis: at the result index `j` and
the contraction position `k` the table is read at `(j 0, k)` and the matrix at `(k, j 1)`. -/

private theorem lhs_xw1_0 (j : Cert.ReferenceIdeal.S50000x32.Idx) (k : Cert.ReferenceIdeal.dot_S50000x128_S128x32_S50000x32_1_0_0_1_n_n.contr.Idx) :
    (Cert.ReferenceIdeal.dot_S50000x128_S128x32_S50000x32_1_0_0_1_n_n.lhsIdx j k 0 : ℕ) = j 0 := by
  simp [DotDims.lhsIdx, Cert.ReferenceIdeal.dot_S50000x128_S128x32_S50000x32_1_0_0_1_n_n]; rfl
private theorem lhs_xw1_1 (j : Cert.ReferenceIdeal.S50000x32.Idx) (k : Cert.ReferenceIdeal.dot_S50000x128_S128x32_S50000x32_1_0_0_1_n_n.contr.Idx) :
    (Cert.ReferenceIdeal.dot_S50000x128_S128x32_S50000x32_1_0_0_1_n_n.lhsIdx j k 1 : ℕ) = k ⟨0, by decide⟩ := by
  simp [DotDims.lhsIdx, Cert.ReferenceIdeal.dot_S50000x128_S128x32_S50000x32_1_0_0_1_n_n]; rfl
private theorem rhs_xw1_0 (j : Cert.ReferenceIdeal.S50000x32.Idx) (k : Cert.ReferenceIdeal.dot_S50000x128_S128x32_S50000x32_1_0_0_1_n_n.contr.Idx) :
    (Cert.ReferenceIdeal.dot_S50000x128_S128x32_S50000x32_1_0_0_1_n_n.rhsIdx j k 0 : ℕ) = k ⟨0, by decide⟩ := by
  simp [DotDims.rhsIdx, Cert.ReferenceIdeal.dot_S50000x128_S128x32_S50000x32_1_0_0_1_n_n]; rfl
private theorem rhs_xw1_1 (j : Cert.ReferenceIdeal.S50000x32.Idx) (k : Cert.ReferenceIdeal.dot_S50000x128_S128x32_S50000x32_1_0_0_1_n_n.contr.Idx) :
    (Cert.ReferenceIdeal.dot_S50000x128_S128x32_S50000x32_1_0_0_1_n_n.rhsIdx j k 1 : ℕ) = j 1 := by
  simp [DotDims.rhsIdx, Cert.ReferenceIdeal.dot_S50000x128_S128x32_S50000x32_1_0_0_1_n_n]; rfl

private theorem lhs_hw16_0 (j : Cert.ReferenceIdeal.S50000x16.Idx) (k : Cert.ReferenceIdeal.dot_S50000x32_S32x16_S50000x16_1_0_0_1_n_n.contr.Idx) :
    (Cert.ReferenceIdeal.dot_S50000x32_S32x16_S50000x16_1_0_0_1_n_n.lhsIdx j k 0 : ℕ) = j 0 := by
  simp [DotDims.lhsIdx, Cert.ReferenceIdeal.dot_S50000x32_S32x16_S50000x16_1_0_0_1_n_n]; rfl
private theorem lhs_hw16_1 (j : Cert.ReferenceIdeal.S50000x16.Idx) (k : Cert.ReferenceIdeal.dot_S50000x32_S32x16_S50000x16_1_0_0_1_n_n.contr.Idx) :
    (Cert.ReferenceIdeal.dot_S50000x32_S32x16_S50000x16_1_0_0_1_n_n.lhsIdx j k 1 : ℕ) = k ⟨0, by decide⟩ := by
  simp [DotDims.lhsIdx, Cert.ReferenceIdeal.dot_S50000x32_S32x16_S50000x16_1_0_0_1_n_n]; rfl
private theorem rhs_hw16_0 (j : Cert.ReferenceIdeal.S50000x16.Idx) (k : Cert.ReferenceIdeal.dot_S50000x32_S32x16_S50000x16_1_0_0_1_n_n.contr.Idx) :
    (Cert.ReferenceIdeal.dot_S50000x32_S32x16_S50000x16_1_0_0_1_n_n.rhsIdx j k 0 : ℕ) = k ⟨0, by decide⟩ := by
  simp [DotDims.rhsIdx, Cert.ReferenceIdeal.dot_S50000x32_S32x16_S50000x16_1_0_0_1_n_n]; rfl
private theorem rhs_hw16_1 (j : Cert.ReferenceIdeal.S50000x16.Idx) (k : Cert.ReferenceIdeal.dot_S50000x32_S32x16_S50000x16_1_0_0_1_n_n.contr.Idx) :
    (Cert.ReferenceIdeal.dot_S50000x32_S32x16_S50000x16_1_0_0_1_n_n.rhsIdx j k 1 : ℕ) = j 1 := by
  simp [DotDims.rhsIdx, Cert.ReferenceIdeal.dot_S50000x32_S32x16_S50000x16_1_0_0_1_n_n]; rfl

private theorem lhs_ewd_0 (j : Cert.ReferenceIdeal.S50000x32.Idx) (k : Cert.ReferenceIdeal.dot_S50000x16_S16x32_S50000x32_1_0_0_1_n_n.contr.Idx) :
    (Cert.ReferenceIdeal.dot_S50000x16_S16x32_S50000x32_1_0_0_1_n_n.lhsIdx j k 0 : ℕ) = j 0 := by
  simp [DotDims.lhsIdx, Cert.ReferenceIdeal.dot_S50000x16_S16x32_S50000x32_1_0_0_1_n_n]; rfl
private theorem lhs_ewd_1 (j : Cert.ReferenceIdeal.S50000x32.Idx) (k : Cert.ReferenceIdeal.dot_S50000x16_S16x32_S50000x32_1_0_0_1_n_n.contr.Idx) :
    (Cert.ReferenceIdeal.dot_S50000x16_S16x32_S50000x32_1_0_0_1_n_n.lhsIdx j k 1 : ℕ) = k ⟨0, by decide⟩ := by
  simp [DotDims.lhsIdx, Cert.ReferenceIdeal.dot_S50000x16_S16x32_S50000x32_1_0_0_1_n_n]; rfl
private theorem rhs_ewd_0 (j : Cert.ReferenceIdeal.S50000x32.Idx) (k : Cert.ReferenceIdeal.dot_S50000x16_S16x32_S50000x32_1_0_0_1_n_n.contr.Idx) :
    (Cert.ReferenceIdeal.dot_S50000x16_S16x32_S50000x32_1_0_0_1_n_n.rhsIdx j k 0 : ℕ) = k ⟨0, by decide⟩ := by
  simp [DotDims.rhsIdx, Cert.ReferenceIdeal.dot_S50000x16_S16x32_S50000x32_1_0_0_1_n_n]; rfl
private theorem rhs_ewd_1 (j : Cert.ReferenceIdeal.S50000x32.Idx) (k : Cert.ReferenceIdeal.dot_S50000x16_S16x32_S50000x32_1_0_0_1_n_n.contr.Idx) :
    (Cert.ReferenceIdeal.dot_S50000x16_S16x32_S50000x32_1_0_0_1_n_n.rhsIdx j k 1 : ℕ) = j 1 := by
  simp [DotDims.rhsIdx, Cert.ReferenceIdeal.dot_S50000x16_S16x32_S50000x32_1_0_0_1_n_n]; rfl

private theorem lhs_dwo_0 (j : Cert.ReferenceIdeal.S50000x128.Idx) (k : Cert.ReferenceIdeal.dot_S50000x32_S32x128_S50000x128_1_0_0_1_n_n.contr.Idx) :
    (Cert.ReferenceIdeal.dot_S50000x32_S32x128_S50000x128_1_0_0_1_n_n.lhsIdx j k 0 : ℕ) = j 0 := by
  simp [DotDims.lhsIdx, Cert.ReferenceIdeal.dot_S50000x32_S32x128_S50000x128_1_0_0_1_n_n]; rfl
private theorem lhs_dwo_1 (j : Cert.ReferenceIdeal.S50000x128.Idx) (k : Cert.ReferenceIdeal.dot_S50000x32_S32x128_S50000x128_1_0_0_1_n_n.contr.Idx) :
    (Cert.ReferenceIdeal.dot_S50000x32_S32x128_S50000x128_1_0_0_1_n_n.lhsIdx j k 1 : ℕ) = k ⟨0, by decide⟩ := by
  simp [DotDims.lhsIdx, Cert.ReferenceIdeal.dot_S50000x32_S32x128_S50000x128_1_0_0_1_n_n]; rfl
private theorem rhs_dwo_0 (j : Cert.ReferenceIdeal.S50000x128.Idx) (k : Cert.ReferenceIdeal.dot_S50000x32_S32x128_S50000x128_1_0_0_1_n_n.contr.Idx) :
    (Cert.ReferenceIdeal.dot_S50000x32_S32x128_S50000x128_1_0_0_1_n_n.rhsIdx j k 0 : ℕ) = k ⟨0, by decide⟩ := by
  simp [DotDims.rhsIdx, Cert.ReferenceIdeal.dot_S50000x32_S32x128_S50000x128_1_0_0_1_n_n]; rfl
private theorem rhs_dwo_1 (j : Cert.ReferenceIdeal.S50000x128.Idx) (k : Cert.ReferenceIdeal.dot_S50000x32_S32x128_S50000x128_1_0_0_1_n_n.contr.Idx) :
    (Cert.ReferenceIdeal.dot_S50000x32_S32x128_S50000x128_1_0_0_1_n_n.rhsIdx j k 1 : ℕ) = j 1 := by
  simp [DotDims.rhsIdx, Cert.ReferenceIdeal.dot_S50000x32_S32x128_S50000x128_1_0_0_1_n_n]; rfl

/-! ## Splat constants -/

/-- A splat constant broadcast from the scalar shape reads, everywhere, the extended real its word encodes. -/
private theorem bcast_const {t : Shape} {φ : FTy} (h : (⟨0, ![]⟩ : Shape).BroadcastsInDim t ![]) (b : BitVec φ.bits) (j : t.Idx) :
    broadcastInDim t ![] h (constant (F := Ideal) (⟨0, ![]⟩ : Shape) φ b) j = Ideal.ofBits φ b := rfl

/-- The word `0x3F800000` encodes one. -/
private theorem ofBits_one_f32 : Ideal.ofBits .f32 0x3F800000#32 = 1 := by
  simp [Ideal.ofBits, Ideal.ieee, -EReal.coe_mul]; norm_num

/-- The features times the first weights. -/
theorem dot_x_w1 (x : (⟨2, ![50000, 128]⟩ : Shape).Idx → EReal) (w : (⟨2, ![128, 32]⟩ : Shape).Idx → EReal) :
    Host.dotGeneral (F := Ideal) (φ₁ := .f32) (φ₂ := .f32) Cert.ReferenceIdeal.dot_S50000x128_S128x32_S50000x32_1_0_0_1_n_n none x w = Cert.KernelIdeal.KerTerm.mm 50000 128 32 x w := by
  funext i
  simp only [Host.dotGeneral]
  -- the product at an index is the sum over the contraction positions; the one contracted axis has 128 positions
  rw [Ideal.dotGeneral_apply]
  unfold Cert.KernelIdeal.KerTerm.mm
  rw [← Equiv.sum_comp (contrEquiv1 Cert.ReferenceIdeal.dot_S50000x128_S128x32_S50000x32_1_0_0_1_n_n 128 rfl rfl).symm]
  refine Finset.sum_congr rfl fun κ _ => ?_
  have hk := contrEquiv1_symm_val Cert.ReferenceIdeal.dot_S50000x128_S128x32_S50000x32_1_0_0_1_n_n 128 rfl rfl κ
  -- the table is read at (i 0, κ) and the matrix at (κ, i 1)
  congr 2
  · funext a
    match a with
    | ⟨0, _⟩ => exact Fin.ext (lhs_xw1_0 _ _)
    | ⟨1, _⟩ => exact Fin.ext ((lhs_xw1_1 _ _).trans hk)
  · funext a
    match a with
    | ⟨0, _⟩ => exact Fin.ext ((rhs_xw1_0 _ _).trans hk)
    | ⟨1, _⟩ => exact Fin.ext (rhs_xw1_1 _ _)

/-- A 32-column table times a 16-column encoder matrix. -/
theorem dot_h_w16 (h : (⟨2, ![50000, 32]⟩ : Shape).Idx → EReal) (w : (⟨2, ![32, 16]⟩ : Shape).Idx → EReal) :
    Host.dotGeneral (F := Ideal) (φ₁ := .f32) (φ₂ := .f32) Cert.ReferenceIdeal.dot_S50000x32_S32x16_S50000x16_1_0_0_1_n_n none h w = Cert.KernelIdeal.KerTerm.mm 50000 32 16 h w := by
  funext i
  simp only [Host.dotGeneral]
  -- the product at an index is the sum over the contraction positions; the one contracted axis has 32 positions
  rw [Ideal.dotGeneral_apply]
  unfold Cert.KernelIdeal.KerTerm.mm
  rw [← Equiv.sum_comp (contrEquiv1 Cert.ReferenceIdeal.dot_S50000x32_S32x16_S50000x16_1_0_0_1_n_n 32 rfl rfl).symm]
  refine Finset.sum_congr rfl fun κ _ => ?_
  have hk := contrEquiv1_symm_val Cert.ReferenceIdeal.dot_S50000x32_S32x16_S50000x16_1_0_0_1_n_n 32 rfl rfl κ
  -- the table is read at (i 0, κ) and the matrix at (κ, i 1)
  congr 2
  · funext a
    match a with
    | ⟨0, _⟩ => exact Fin.ext (lhs_hw16_0 _ _)
    | ⟨1, _⟩ => exact Fin.ext ((lhs_hw16_1 _ _).trans hk)
  · funext a
    match a with
    | ⟨0, _⟩ => exact Fin.ext ((rhs_hw16_0 _ _).trans hk)
    | ⟨1, _⟩ => exact Fin.ext (rhs_hw16_1 _ _)

/-- The code times the decoder's first matrix. -/
theorem dot_e_wd (e : (⟨2, ![50000, 16]⟩ : Shape).Idx → EReal) (w : (⟨2, ![16, 32]⟩ : Shape).Idx → EReal) :
    Host.dotGeneral (F := Ideal) (φ₁ := .f32) (φ₂ := .f32) Cert.ReferenceIdeal.dot_S50000x16_S16x32_S50000x32_1_0_0_1_n_n none e w = Cert.KernelIdeal.KerTerm.mm 50000 16 32 e w := by
  funext i
  simp only [Host.dotGeneral]
  -- the product at an index is the sum over the contraction positions; the one contracted axis has 16 positions
  rw [Ideal.dotGeneral_apply]
  unfold Cert.KernelIdeal.KerTerm.mm
  rw [← Equiv.sum_comp (contrEquiv1 Cert.ReferenceIdeal.dot_S50000x16_S16x32_S50000x32_1_0_0_1_n_n 16 rfl rfl).symm]
  refine Finset.sum_congr rfl fun κ _ => ?_
  have hk := contrEquiv1_symm_val Cert.ReferenceIdeal.dot_S50000x16_S16x32_S50000x32_1_0_0_1_n_n 16 rfl rfl κ
  -- the table is read at (i 0, κ) and the matrix at (κ, i 1)
  congr 2
  · funext a
    match a with
    | ⟨0, _⟩ => exact Fin.ext (lhs_ewd_0 _ _)
    | ⟨1, _⟩ => exact Fin.ext ((lhs_ewd_1 _ _).trans hk)
  · funext a
    match a with
    | ⟨0, _⟩ => exact Fin.ext ((rhs_ewd_0 _ _).trans hk)
    | ⟨1, _⟩ => exact Fin.ext (rhs_ewd_1 _ _)

/-- The decoder's hidden layer times the output matrix. -/
theorem dot_d_wo (d : (⟨2, ![50000, 32]⟩ : Shape).Idx → EReal) (w : (⟨2, ![32, 128]⟩ : Shape).Idx → EReal) :
    Host.dotGeneral (F := Ideal) (φ₁ := .f32) (φ₂ := .f32) Cert.ReferenceIdeal.dot_S50000x32_S32x128_S50000x128_1_0_0_1_n_n none d w = Cert.KernelIdeal.KerTerm.mm 50000 32 128 d w := by
  funext i
  simp only [Host.dotGeneral]
  -- the product at an index is the sum over the contraction positions; the one contracted axis has 32 positions
  rw [Ideal.dotGeneral_apply]
  unfold Cert.KernelIdeal.KerTerm.mm
  rw [← Equiv.sum_comp (contrEquiv1 Cert.ReferenceIdeal.dot_S50000x32_S32x128_S50000x128_1_0_0_1_n_n 32 rfl rfl).symm]
  refine Finset.sum_congr rfl fun κ _ => ?_
  have hk := contrEquiv1_symm_val Cert.ReferenceIdeal.dot_S50000x32_S32x128_S50000x128_1_0_0_1_n_n 32 rfl rfl κ
  -- the table is read at (i 0, κ) and the matrix at (κ, i 1)
  congr 2
  · funext a
    match a with
    | ⟨0, _⟩ => exact Fin.ext (lhs_dwo_0 _ _)
    | ⟨1, _⟩ => exact Fin.ext ((lhs_dwo_1 _ _).trans hk)
  · funext a
    match a with
    | ⟨0, _⟩ => exact Fin.ext ((rhs_dwo_0 _ _).trans hk)
    | ⟨1, _⟩ => exact Fin.ext (rhs_dwo_1 _ _)

/-- The reference's clamp of a 32-column table is `max · 0` entry by entry. -/
theorem relu32_eq (a : (⟨2, ![50000, 32]⟩ : Shape).Idx → EReal) : Cert.ReferenceIdeal.RefTerm.relu32 a = Cert.KernelIdeal.KerTerm.relu a := by
  funext i
  unfold Cert.ReferenceIdeal.RefTerm.relu32 Cert.KernelIdeal.KerTerm.relu
  rw [maximumf_apply, bcast_const, Ideal.ofBits_zero_f32]

/-- The reference's clamp of a 128-column table is `max · 0` entry by entry. -/
theorem relu128_eq (a : (⟨2, ![50000, 128]⟩ : Shape).Idx → EReal) : Cert.ReferenceIdeal.RefTerm.relu128 a = Cert.KernelIdeal.KerTerm.relu a := by
  funext i
  unfold Cert.ReferenceIdeal.RefTerm.relu128 Cert.KernelIdeal.KerTerm.relu
  rw [maximumf_apply, bcast_const, Ideal.ofBits_zero_f32]

/-- The reference's `elu` with the one added is `elu + 1` entry by entry. -/
theorem elu16_add_one (a : (⟨2, ![50000, 16]⟩ : Shape).Idx → EReal) :
    addf (Cert.ReferenceIdeal.RefTerm.elu16 a) (broadcastInDim Cert.ReferenceIdeal.S50000x16 ![] Cert.ReferenceIdeal.Facts₀.bcast_S_S50000x16 (constant (F := Ideal) Cert.ReferenceIdeal.S_ .f32 0x3F800000#32))
      = fun i => Cert.KernelIdeal.KerTerm.elu1 (a i) := by
  funext i
  unfold Cert.ReferenceIdeal.RefTerm.elu16 Cert.KernelIdeal.KerTerm.elu1
  -- entry by entry: the comparison with zero chooses between the entry and one times `e^· − 1` of the entry (itself
  -- replaced by zero where it is positive), and one is added
  show Scalar.select (Ideal.cmp .ogt (a i) (Ideal.ofBits .f32 0x00000000#32)) (a i)
        (Ideal.ofBits .f32 0x3F800000#32
          * (Ideal.exp (Scalar.select (Ideal.cmp .ogt (a i) (Ideal.ofBits .f32 0x00000000#32))
              (Ideal.ofBits .f32 0x00000000#32) (a i)) - 1))
      + Ideal.ofBits .f32 0x3F800000#32 = (if 0 < a i then a i else Ideal.exp (a i) - 1) + 1
  rw [Ideal.ofBits_zero_f32, ofBits_one_f32, one_mul]
  by_cases h : 0 < a i
  · -- a positive entry is kept by both
    have hc : Ideal.cmp .ogt (a i) 0 = 1#1 := by simp [Ideal.cmp, h]
    rw [hc, select_one, if_pos h]
  · -- otherwise the inner choice returns the entry itself
    have hc : Ideal.cmp .ogt (a i) 0 = 0#1 := by simp [Ideal.cmp, h]
    rw [hc, select_zero, select_zero, if_neg h]

/-- The left half of a table times two matrices side by side is the table times the left matrix. -/
theorem mm_wcat_left (h : (⟨2, ![50000, 32]⟩ : Shape).Idx → EReal) (wm ws : (⟨2, ![32, 16]⟩ : Shape).Idx → EReal) :
    Cert.KernelIdeal.KerTerm.left16 (Cert.KernelIdeal.KerTerm.mm 50000 32 32 h (Cert.KernelIdeal.KerTerm.wcat wm ws)) = Cert.KernelIdeal.KerTerm.mm 50000 32 16 h wm := by
  funext i
  unfold Cert.KernelIdeal.KerTerm.left16 Cert.KernelIdeal.KerTerm.mm Cert.KernelIdeal.KerTerm.wcat
  refine Finset.sum_congr rfl fun κ _ => ?_
  refine congrArg (h (ix2 (i 0) κ) * ·) ?_
  -- a column below 16 of the two matrices side by side is that column of the left matrix
  exact concatenate_pair_apply_left (a := 1) wm ws _ _ (by rfl) (ix2 κ (i 1))
    (fun b => by match b with | ⟨0, _⟩ => rfl | ⟨1, _⟩ => rfl)

/-- The right half of a table times two matrices side by side is the table times the right matrix. -/
theorem mm_wcat_right (h : (⟨2, ![50000, 32]⟩ : Shape).Idx → EReal) (wm ws : (⟨2, ![32, 16]⟩ : Shape).Idx → EReal) :
    Cert.Halves.right16 (Cert.KernelIdeal.KerTerm.mm 50000 32 32 h (Cert.KernelIdeal.KerTerm.wcat wm ws)) = Cert.KernelIdeal.KerTerm.mm 50000 32 16 h ws := by
  funext i
  unfold Cert.Halves.right16 Cert.KernelIdeal.KerTerm.mm Cert.KernelIdeal.KerTerm.wcat
  refine Finset.sum_congr rfl fun κ _ => ?_
  refine congrArg (h (ix2 (i 0) κ) * ·) ?_
  -- column 16 + c of the two matrices side by side is column c of the right matrix
  exact concatenate_pair_apply_right (a := 1) wm ws _ _ (by rfl) (by rfl) (ix2 κ (i 1))
    (fun b hb => by match b with | ⟨0, _⟩ => rfl | ⟨1, _⟩ => exact absurd rfl hb) (by rfl)

end Cert.BridgeDense

end
-- ==== Proof.LibRowGather.lean ====
/-
  A row gather read at an index, and the range mask of a filled row take.

  Rows of a two-axis table `x : [N, C]` are gathered at a column `col : [E, 1]` of signed 32-bit start indices, one row per
  entry: result row `e` is the table's row at `col e`, the start index clamped into `[0, N - 1]`. When the entry already
  lies in `[0, N)` the clamp does nothing and the result at `(e, c)` is `x` at row `col e`, column `c`.
-/
import Idealize.ShloMosaic.Lib.ValueIdx
import Idealize.ShloMosaic.Lib.StableHlo.Predicate

noncomputable section

namespace Cert.LibRowGather

open Idealize.ShloMosaic Idealize.ShloMosaic.ValueIdx

/-- The row an in-range signed index word names. -/
def rowOf (N : Nat) (b : BitVec 32) (h : 0 ≤ b.toInt ∧ b.toInt < N) : Fin N := ⟨b.toInt.toNat, by omega⟩

/-- The dimension numbers of a row gather: one start index per result row, naming operand axis 0, which is collapsed;
    the result's axis 1 runs over the operand's whole axis 1. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ :=
  { offsetDims := [1], collapsedSliceDims := [0], operandBatchingDims := [], startIndicesBatchingDims := [],
    startIndexMap := [0], indexVectorDim := 1, sliceSizes := ![1, C], wf := wf }

/-- THE ROW GATHER READ AT `(e, c)`: with the start index of row `e` in `[0, N)`, the table at that row, column `c`. -/
theorem gather_rows_apply {α : Type} {N E C : Nat}
    (wf : GatherDims.WF ⟨2, ![N, C]⟩ ⟨2, ![E, 1]⟩ ⟨2, ![E, C]⟩ [1] [0] [] [0] [] 1 ![1, C])
    (x : (⟨2, ![N, C]⟩ : Shape).Idx → α) (col : IVec ⟨2, ![E, 1]⟩ 32) (e : Fin E) (c : Fin C)
    (h : 0 ≤ (col (ix2 e (0 : Fin 1))).toInt ∧ (col (ix2 e (0 : Fin 1))).toInt < N) :
    Host.gather (rowGatherDims N E C wf) x col (ix2 e c) = x (ix2 (rowOf N _ h) c) := by
  -- the operand index is, on each axis, the clamped start plus the batching coordinate plus the offset coordinate;
  -- there is no batching axis
  unfold Host.gather
  congr 1
  funext a
  refine Fin.ext ?_
  show (rowGatherDims N E C wf).start (ix2 e c) col a + (rowGatherDims N E C wf).batchCoord (ix2 e c) a
    + (rowGatherDims N E C wf).offCoord (ix2 e c) a = _
  rw [GatherDims.batchCoord_eq_zero _ _ _ List.not_mem_nil]
  have ha : a = (0 : Fin 2) ∨ a = (1 : Fin 2) := by
    match a with
    | ⟨0, _⟩ => exact Or.inl rfl
    | ⟨1, _⟩ => exact Or.inr rfl
  rcases ha with rfl | rfl
  · -- axis 0 (collapsed and start-indexed): no offset; the start is row `e`'s index word read signed and clamped into
    -- `[0, N - 1]`, which is the word's value since it already lies in `[0, N)`
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    show min (col (ix2 e (0 : Fin 1))).toInt.toNat (N - 1) = (col (ix2 e (0 : Fin 1))).toInt.toNat
    omega
  · -- axis 1 (kept, not start-indexed): the start is zero and the offset coordinate is the result's column `c`
    have h10 : (1 : Fin 2) ∉ ([0] : List (Fin 2)) := fun h => absurd (List.mem_singleton.mp h) (by decide)
    unfold GatherDims.start
    rw [dif_neg (show (1 : Fin 2) ∉ (rowGatherDims N E C wf).startIndexMap from h10)]
    unfold GatherDims.offCoord
    rw [dif_pos (show (1 : Fin 2) ∈ (rowGatherDims N E C wf).sKept from
      (GatherDims.mem_sKept _ _).mpr ⟨h10, List.not_mem_nil⟩)]
    simp only [Nat.add_zero, Nat.zero_add]
    rfl

/-- A vector laid out as an `[E, 1]` column reads, at row `e`, the vector at `e`. -/
theorem col_apply {α : Type} {E : Nat} (h : (⟨1, ![E]⟩ : Shape).BroadcastsInDim ⟨2, ![E, 1]⟩ ![0])
    (v : (⟨1, ![E]⟩ : Shape).Idx → α) (e : Fin E) :
    broadcastInDim ⟨2, ![E, 1]⟩ ![0] h v (ix2 e (0 : Fin 1)) = v (ix1 e) := by
  simp only [broadcastInDim]
  congr 1
  funext a
  obtain rfl : a = 0 := Subsingleton.elim _ _
  apply Fin.ext
  have hp := e.isLt
  split
  · next h1 => change E = 1 at h1; show (0 : Nat) = e.val; omega
  · rfl

/-- A vector laid out along the rows of an `[E, C]` rectangle (first as a column, then across) reads, at `(e, c)`, the
    vector at `e`. -/
theorem rows_apply {α : Type} {E C : Nat} (h₁ : (⟨1, ![E]⟩ : Shape).BroadcastsInDim ⟨2, ![E, 1]⟩ ![0])
    (h₂ : (⟨2, ![E, 1]⟩ : Shape).BroadcastsInDim ⟨2, ![E, C]⟩ ![0, 1]) (v : (⟨1, ![E]⟩ : Shape).Idx → α) (e : Fin E) (c : Fin C) :
    broadcastInDim ⟨2, ![E, C]⟩ ![0, 1] h₂ (broadcastInDim ⟨2, ![E, 1]⟩ ![0] h₁ v) (ix2 e c) = v (ix1 e) := by
  simp only [broadcastInDim]
  congr 1
  funext a
  obtain rfl : a = 0 := Subsingleton.elim _ _
  apply Fin.ext
  have hp := e.isLt
  split
  · next h1 => change E = 1 at h1; show (0 : Nat) = e.val; omega
  · split
    · next h2 => change E = 1 at h2; show (0 : Nat) = e.val; omega
    · rfl

/-- A one-bit vector laid out along the rows of an `[E, C]` rectangle reads, at `(e, c)`, the vector at `e`. -/
theorem rowbit_apply {α : Type} {E C : Nat} (h : (⟨1, ![E]⟩ : Shape).BroadcastsInDim ⟨2, ![E, C]⟩ ![0])
    (v : (⟨1, ![E]⟩ : Shape).Idx → α) (e : Fin E) (c : Fin C) :
    broadcastInDim ⟨2, ![E, C]⟩ ![0] h v (ix2 e c) = v (ix1 e) := by
  simp only [broadcastInDim]
  congr 1
  funext a
  obtain rfl : a = 0 := Subsingleton.elim _ _
  apply Fin.ext
  have hp := e.isLt
  split
  · next h1 => change E = 1 at h1; show (0 : Nat) = e.val; omega
  · rfl

/-- A signed-non-negative 32-bit word lies below 2³¹ and reads the same signed and unsigned. -/
private theorem toNat_of_toInt_nonneg (x : BitVec 32) (h : 0 ≤ x.toInt) : x.toNat < 2 ^ 31 ∧ x.toInt = x.toNat := by
  have hc := BitVec.toInt_eq_toNat_cond x
  have hx := x.isLt
  split at hc <;> omega

/-- A left fold by `and` from the bit one over bits that are all one is one. -/
private theorem foldl_andi_one {ι : Type} (f : ι → BitVec 1) :
    ∀ l : List ι, (∀ n ∈ l, f n = 1#1) → l.foldl (fun r n => IntOp.andi r (f n)) 1#1 = 1#1
  | [], _ => rfl
  | b :: l, h => by
    have h11 : IntOp.andi 1#1 1#1 = 1#1 := by decide
    rw [List.foldl_cons, h b List.mem_cons_self, h11]
    exact foldl_andi_one f l (fun n hn => h n (List.mem_cons_of_mem _ hn))

/-- An `and`-reduction from the bit one of an array whose every bit is one is one at every result index. -/
private theorem reduce_andi_of_all {s t u : Shape} {axes : List (Fin s.rank)} (x : s.Idx → BitVec 1)
    (init : u.Idx → BitVec 1) (h : s.ReducesTo axes t) (hu : 0 < u.numel) (j : t.Idx)
    (hinit : init (Shape.Idx.first hu) = 1#1) (hx : ∀ i, x i = 1#1) :
    Host.reduce IntOp.andi x init h hu j = 1#1 := by
  rw [Host.reduce_eq_foldl, hinit]
  exact foldl_andi_one x _ (fun i _ => hx i)

section Mask
variable {N E : Nat}
  (hbE : (⟨0, ![]⟩ : Shape).BroadcastsInDim ⟨1, ![E]⟩ ![])
  (hcol : (⟨1, ![E]⟩ : Shape).BroadcastsInDim ⟨2, ![E, 1]⟩ ![0])
  (hbE1 : (⟨0, ![]⟩ : Shape).BroadcastsInDim ⟨2, ![E, 1]⟩ ![])
  (hb11 : (⟨1, ![1]⟩ : Shape).BroadcastsInDim ⟨2, ![1, 1]⟩ ![1])
  (hb11E1 : (⟨2, ![1, 1]⟩ : Shape).BroadcastsInDim ⟨2, ![E, 1]⟩ ![0, 1])
  (hred : (⟨2, ![E, 1]⟩ : Shape).ReducesTo [1] ⟨1, ![E]⟩)
  (h0 : 0 < (⟨0, ![]⟩ : Shape).numel)
  (wN wM : BitVec 32) (a : IVec ⟨1, ![E]⟩ 32)

/-- The index column as printed: a negative entry of `a` wrapped by adding the word `wN`, then laid out as `[E, 1]`. -/
abbrev idxCol : IVec ⟨2, ![E, 1]⟩ 32 :=
  broadcastInDim ⟨2, ![E, 1]⟩ ![0] hcol
    (select (cmpi .slt a (broadcastInDim ⟨1, ![E]⟩ ![] hbE (constantI ⟨0, ![]⟩ 32 0#32)))
      (addi a (broadcastInDim ⟨1, ![E]⟩ ![] hbE (constantI ⟨0, ![]⟩ 32 wN))) a)

/-- The range mask as printed: per row, the column's entry is at least zero and at most the word `wM` (both signed),
    the two tests joined and reduced by `and` along the column's unit axis. -/
abbrev okVec : IVec ⟨1, ![E]⟩ 1 :=
  Host.reduce IntOp.andi
    (andi (cmpi .sge (idxCol hbE hcol wN a) (broadcastInDim ⟨2, ![E, 1]⟩ ![] hbE1 (constantI ⟨0, ![]⟩ 32 0#32)))
      (cmpi .sle (idxCol hbE hcol wN a)
        (broadcastInDim ⟨2, ![E, 1]⟩ ![0, 1] hb11E1 (broadcastInDim ⟨2, ![1, 1]⟩ ![1] hb11 (constantI ⟨1, ![1]⟩ 32 wM)))))
    (constantI ⟨0, ![]⟩ 1 1#1) hred h0

variable (ha : ∀ e : Fin E, 0 ≤ (a (ix1 e)).toInt ∧ (a (ix1 e)).toInt < N)

include ha in
/-- With every index non-negative the wrap does nothing: the column at row `e` is `a e`. -/
theorem idxCol_apply (e : Fin E) : idxCol hbE hcol wN a (ix2 e (0 : Fin 1)) = a (ix1 e) := by
  -- the signed test "entry < 0" is the bit zero, since the entry is non-negative
  have hslt : IntOp.cmpi .slt (a (ix1 e)) 0#32 = 0#1 := by
    have h := (ha e).1
    have h0 : (0#32 : BitVec 32).toInt = 0 := by decide
    have hf : (a (ix1 e)).slt 0#32 = false := by
      simp only [BitVec.slt, h0, decide_eq_false_iff_not, not_lt]; exact h
    show BitVec.ofBool ((a (ix1 e)).slt 0#32) = 0#1
    rw [hf]; rfl
  refine (col_apply hcol _ e).trans ?_
  show Scalar.select (IntOp.cmpi .slt (a (ix1 e)) 0#32) (IntOp.addi (a (ix1 e)) wN) (a (ix1 e)) = a (ix1 e)
  rw [hslt, select_zero]

include ha in
/-- With every index in `[0, N)`, `N` below 2³¹ and `wM` the word of `N - 1`, the mask is one at every row. -/
theorem okVec_apply (hN : N < 2 ^ 31) (hM : wM.toNat = N - 1) (e : Fin E) :
    okVec hbE hcol hbE1 hb11 hb11E1 hred h0 wN wM a (ix1 e) = 1#1 := by
  -- the reduction starts from the bit one, so it is enough that the joined test is one at every entry `(e', 0)`
  refine reduce_andi_of_all _ _ hred h0 _ rfl ?_
  intro i
  obtain ⟨e', z, rfl⟩ : ∃ (e' : Fin E) (z : Fin 1), i = ix2 e' z := ⟨i 0, i 1, eq_ix2 i⟩
  obtain rfl : z = 0 := Subsingleton.elim _ _
  have hcolv := idxCol_apply hbE hcol wN a ha e'
  obtain ⟨hlt, hint⟩ := toNat_of_toInt_nonneg (a (ix1 e')) (ha e').1
  have hup := (ha e').2
  -- both signed tests hold of the entry: it is at least zero and at most N - 1
  have hge : IntOp.cmpi .sge (a (ix1 e')) 0#32 = 1#1 :=
    (StableHlo.Predicate.sge_iff_toNat hlt (by decide)).2 (Nat.zero_le _)
  have hle : IntOp.cmpi .sle (a (ix1 e')) wM = 1#1 :=
    (StableHlo.Predicate.sle_iff_toNat hlt (by omega)).2 (by omega)
  show IntOp.andi (IntOp.cmpi .sge (idxCol hbE hcol wN a (ix2 e' (0 : Fin 1))) 0#32)
    (IntOp.cmpi .sle (idxCol hbE hcol wN a (ix2 e' (0 : Fin 1))) wM) = 1#1
  rw [hcolv, hge, hle]
  decide

end Mask

end Cert.LibRowGather

end
-- ==== Proof.LibRowScatter.lean ====
/-
  An accumulating row scatter read at an index, over the extended reals.

  Rows `upd : [E, C]` are added into a table `x : [N, C]` at a column `col : [E, 1]` of signed 32-bit row indices: update row
  `e` lands on table row `col e` when that lies in `[0, N)` and is dropped otherwise. Over the extended reals the result
  at `(n, c)` is `x (n, c)` plus the sum, over the update rows `e` whose index is `n`, of `upd (e, c)`.
-/
import Idealize.ShloMosaic.Lib.ValueIdx
import Idealize.ShloMosaic.PureOps.Ideal
import Idealize.ShloMosaic.PureOps.Ideal.Laws

noncomputable section

namespace Cert.LibRowScatter

open Idealize.ShloMosaic Idealize.ShloMosaic.ValueIdx

/-- The dimension numbers of a row scatter: one scatter index per update row, naming operand axis 0, which the update
    window does not span; the updates' axis 1 is the window over the operand's axis 1. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  { updateWindowDims := [1], insertedWindowDims := [0], scatterDimsToOperandDims := [0], indexVectorDim := 1, wf := wf }

/-! ### The closed axis lists of a row scatter

  Over a rank-2 shape the kept-axes list is closed: dropping axis 0 leaves axis 1. -/

private theorem kept0 (sz : Fin 2 → Nat) : (⟨2, sz⟩ : Shape).kept [(0 : Fin 2)] = [(1 : Fin 2)] := by rfl

/-- The operand's axes that are not inserted: axis 1 alone. -/
private theorem sKept_eq {N E C : Nat}
    (wf : ScatterDims.WF ⟨2, ![N, C]⟩ ⟨2, ![E, 1]⟩ ⟨2, ![E, C]⟩ [1] [0] [0] 1) :
    (rowScatterDims N E C wf).sKept = [(1 : Fin 2)] := kept0 _

/-- On operand axis 0 (inserted) the window coordinate is `0`. -/
private theorem window0 {N E C : Nat}
    (wf : ScatterDims.WF ⟨2, ![N, C]⟩ ⟨2, ![E, 1]⟩ ⟨2, ![E, C]⟩ [1] [0] [0] 1)
    (e : Fin E) (c : Fin C) :
    (rowScatterDims N E C wf).window (ix2 e c) ⟨0, Nat.zero_lt_two⟩ = 0 := by
  unfold ScatterDims.window
  rw [dif_neg]
  rw [sKept_eq]; show (⟨0, Nat.zero_lt_two⟩ : Fin 2) ∉ [(1 : Fin 2)]; decide

/-- On operand axis 1 the window coordinate is the update's column `c`. -/
private theorem window1 {N E C : Nat}
    (wf : ScatterDims.WF ⟨2, ![N, C]⟩ ⟨2, ![E, 1]⟩ ⟨2, ![E, C]⟩ [1] [0] [0] 1)
    (e : Fin E) (c : Fin C) :
    (rowScatterDims N E C wf).window (ix2 e c) ⟨1, Nat.one_lt_two⟩ = c.val := by
  unfold ScatterDims.window
  rw [dif_pos (by rw [sKept_eq]; show (⟨1, Nat.one_lt_two⟩ : Fin 2) ∈ [(1 : Fin 2)]; decide)]
  rfl

/-- Operand axis 1 is not named by the scatter-dims-to-operand-dims map: its start is `0`. -/
private theorem start1 {N E C : Nat}
    (wf : ScatterDims.WF ⟨2, ![N, C]⟩ ⟨2, ![E, 1]⟩ ⟨2, ![E, C]⟩ [1] [0] [0] 1)
    (col : IVec ⟨2, ![E, 1]⟩ 32) (e : Fin E) (c : Fin C) :
    (rowScatterDims N E C wf).start (ix2 e c) col ⟨1, Nat.one_lt_two⟩ = 0 := by
  unfold ScatterDims.start
  rw [dif_neg]
  show (⟨1, Nat.one_lt_two⟩ : Fin 2) ∉ [(0 : Fin 2)]; decide

/-- The scatter-indices index update `(e, c)` reads its one start component at: row `e`, the index vector's only
    position `0`. -/
private theorem siIdx0 {N E C : Nat}
    (wf : ScatterDims.WF ⟨2, ![N, C]⟩ ⟨2, ![E, 1]⟩ ⟨2, ![E, C]⟩ [1] [0] [0] 1)
    (e : Fin E) (c : Fin C) (k : Fin (rowScatterDims N E C wf).scatterDimsToOperandDims.length) :
    (rowScatterDims N E C wf).siIdx (ix2 e c) k = ix2 e (0 : Fin 1) := by
  funext b
  match b with
  | ⟨0, _⟩ => rfl
  | ⟨1, _⟩ =>
    apply Fin.ext
    have := k.isLt
    simp [ScatterDims.siIdx]

/-- On operand axis 0 the start is the signed row index `col (e, 0)`. -/
private theorem start0 {N E C : Nat}
    (wf : ScatterDims.WF ⟨2, ![N, C]⟩ ⟨2, ![E, 1]⟩ ⟨2, ![E, C]⟩ [1] [0] [0] 1)
    (col : IVec ⟨2, ![E, 1]⟩ 32) (e : Fin E) (c : Fin C) :
    (rowScatterDims N E C wf).start (ix2 e c) col ⟨0, Nat.zero_lt_two⟩ = (col (ix2 e (0 : Fin 1))).toInt := by
  unfold ScatterDims.start
  rw [dif_pos (by show (⟨0, Nat.zero_lt_two⟩ : Fin 2) ∈ [(0 : Fin 2)]; decide)]
  rw [siIdx0]

/-- An update lands on operand index `i` exactly when, on every axis, start plus window coordinate is `i`'s
    coordinate (the in-range condition is then `i`'s own bound). -/
private theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · rename_i hall
      have hf := Option.some.inj h
      intro a
      have h1 := congrArg Fin.val (congrFun hf a)
      simp only at h1
      have h2 := hall a
      omega
    · cases h
  · intro h
    have hall : ∀ a, 0 ≤ d.start j idx a + (d.window j a : Int) ∧ d.start j idx a + (d.window j a : Int) < s.size a := by
      intro a
      have h1 := h a
      have h2 := (i a).isLt
      omega
    rw [dif_pos hall]
    congr 1
    funext a
    apply Fin.ext
    have h1 := h a
    simp only
    omega

/-- Where update `(e, c)` lands: on `(col e, c)` when `col e` lies in `[0, N)`, nowhere otherwise. -/
theorem resultIdx_rows {N E C : Nat}
    (wf : ScatterDims.WF ⟨2, ![N, C]⟩ ⟨2, ![E, 1]⟩ ⟨2, ![E, C]⟩ [1] [0] [0] 1)
    (col : IVec ⟨2, ![E, 1]⟩ 32) (e : Fin E) (c : Fin C) (n : Fin N) (c' : Fin C) :
    (rowScatterDims N E C wf).resultIdx? (ix2 e c) col = some (ix2 n c')
      ↔ ((col (ix2 e (0 : Fin 1))).toInt = (n.val : Int) ∧ c = c') := by
  rw [resultIdx?_eq_some_iff]
  constructor
  · intro h
    -- axis 0: `col (e, 0) + 0 = n`; axis 1: `0 + c = c'`
    have h0 := h ⟨0, Nat.zero_lt_two⟩
    have h1 := h ⟨1, Nat.one_lt_two⟩
    rw [start0, window0] at h0
    rw [start1, window1] at h1
    refine ⟨?_, Fin.ext ?_⟩
    · simpa using h0
    · have h1' : (0 : Int) + (c.val : Int) = (c'.val : Int) := h1
      omega
  · rintro ⟨hv, hc⟩ a
    match a with
    | ⟨0, _⟩ =>
      rw [start0, window0, hv]
      simp
    | ⟨1, _⟩ =>
      rw [start1, window1, hc]
      simp

/-- THE ACCUMULATING ROW SCATTER READ AT `(n, c)`, over the extended reals. -/
theorem scatterAdd_rows_apply {N E C : Nat}
    (wf : ScatterDims.WF ⟨2, ![N, C]⟩ ⟨2, ![E, 1]⟩ ⟨2, ![E, C]⟩ [1] [0] [0] 1)
    (x : (⟨2, ![N, C]⟩ : Shape).Idx → EReal) (col : IVec ⟨2, ![E, 1]⟩ 32)
    (upd : (⟨2, ![E, C]⟩ : Shape).Idx → EReal) (n : Fin N) (c : Fin C) :
    Host.scatterAdd (F := Ideal) (φ := .f32) (rowScatterDims N E C wf) x col upd (ix2 n c)
      = x (ix2 n c) + ∑ e ∈ Finset.univ.filter (fun e : Fin E => (col (ix2 e (0 : Fin 1))).toInt = (n.val : Int)),
          upd (ix2 e c) := by
  -- at the extended reals the accumulating scatter is the operand plus the exact sum of the updates landing there
  unfold Host.scatterAdd
  rw [Ideal.hostScatterAdd_def]
  unfold Ideal.hostScatterAdd
  congr 1
  -- the sum over update indices `(e, b)` as a double sum; for each row `e` the column sum keeps only `b = c`
  rw [Finset.sum_filter, sum_idx2, Finset.sum_filter]
  refine Finset.sum_congr rfl fun e _ => ?_
  simp only [resultIdx_rows]
  by_cases hv : (col (ix2 e (0 : Fin 1))).toInt = (n.val : Int)
  · simp only [hv, true_and, if_true]
    rw [Finset.sum_ite_eq']
    simp
  · simp [hv]

end Cert.LibRowScatter

end
-- ==== Proof.BridgeSparse.lean ====
/-
  The sparse step of the two programs is the same function, and it acts column by column.

  Both programs gather a table's rows by the edges' source index, scale each gathered row by the edge's weight and add
  the rows up by the edges' destination index. The kernel's program fills a gathered row whose index is out of range
  and multiplies row by weight; the reference clamps the index and multiplies weight by row. With every source index
  in range no row is filled and nothing is clamped, and the product commutes, so the two are one function. Entry
  `(n, c)` of the result is the sum, over the edges with destination `n`, of weight times the table's entry at the
  edge's source row and column `c`: the columns do not mix, so the left (right) half of the result for a 32-column
  table is the result for the table's left (right) half.
-/
import proofs.«409194_j73143293051581_2_alg».proof.Proof.KerTerm
import proofs.«409194_j73143293051581_2_alg».proof.Proof.RefTerm
import proofs.«409194_j73143293051581_2_alg».proof.Proof.Halves
import proofs.«409194_j73143293051581_2_alg».proof.Proof.LibRowGather
import proofs.«409194_j73143293051581_2_alg».proof.Proof.LibRowScatter
import Idealize.ShloMosaic.Lib.ValueIdx
import Idealize.ShloMosaic.PureOps.Ideal.Laws

noncomputable section

namespace Cert.BridgeSparse

open Idealize.ShloMosaic Idealize.ShloMosaic.ValueIdx

variable (src dst : IVec ⟨1, ![1650000]⟩ 32) (w : (⟨1, ![1650000]⟩ : Shape).Idx → EReal)
  (hsrc : ∀ e : Fin 1650000, 0 ≤ (src (ix1 e)).toInt ∧ (src (ix1 e)).toInt < 50000)

/-- The two programs spell the column of (wrapped) source indices the same way. -/
private theorem srcCol_eq : Cert.KernelIdeal.KerTerm.srcCol src = Cert.ReferenceIdeal.RefTerm.srcCol src := rfl

/-- The kernel program's and the reference's 32-column gather dimension numbers are the same record. -/
private theorem gatherRec32_eq :
    Cert.KernelIdeal.gather_S50000x32_S1650000x1_S1650000x32_1_0_n_n_0_1_132 = Cert.ReferenceIdeal.gather_S50000x32_S1650000x1_S1650000x32_1_0_n_n_0_1_132 := rfl

/-- Likewise their 32-column scatter dimension numbers. -/
private theorem scatterRec32_eq :
    Cert.KernelIdeal.scatter_S50000x32_S1650000x1_S1650000x32_1_0_0_1 = Cert.ReferenceIdeal.scatter_S50000x32_S1650000x1_S1650000x32_1_0_0_1 := rfl

/-- The kernel program's and the reference's 128-column gather dimension numbers are the same record. -/
private theorem gatherRec128_eq :
    Cert.KernelIdeal.gather_S50000x128_S1650000x1_S1650000x128_1_0_n_n_0_1_1128 = Cert.ReferenceIdeal.gather_S50000x128_S1650000x1_S1650000x128_1_0_n_n_0_1_1128 := rfl

/-- Likewise their 128-column scatter dimension numbers. -/
private theorem scatterRec128_eq :
    Cert.KernelIdeal.scatter_S50000x128_S1650000x1_S1650000x128_1_0_0_1 = Cert.ReferenceIdeal.scatter_S50000x128_S1650000x1_S1650000x128_1_0_0_1 := rfl

include hsrc in
/-- With every source index in `[0, 50000)` the kernel's range mask is one at every edge. -/
private theorem srcOk_apply (e : Fin 1650000) : Cert.KernelIdeal.KerTerm.srcOk src (ix1 e) = 1#1 := by
  have ha : ∀ e : Fin 1650000, 0 ≤ (src (ix1 e)).toInt ∧ (src (ix1 e)).toInt < ((50000 : Nat) : Int) :=
    fun e => ⟨(hsrc e).1, by have := (hsrc e).2; omega⟩
  exact Cert.LibRowGather.okVec_apply (N := 50000) _ _ _ _ _ _ _ 50000#32 49999#32 src ha (by norm_num) (by decide) e

include hsrc in
/-- No row is filled: the kernel's 32-column take is the reference's bare gather. -/
private theorem take32_eq (t : (⟨2, ![50000, 32]⟩ : Shape).Idx → EReal) :
    Cert.KernelIdeal.KerTerm.take32 t src
      = Host.gather Cert.ReferenceIdeal.gather_S50000x32_S1650000x1_S1650000x32_1_0_n_n_0_1_132 t
          (Cert.ReferenceIdeal.RefTerm.srcCol src) := by
  funext i
  obtain ⟨e, c, rfl⟩ : ∃ (e : Fin 1650000) (c : Fin 32), i = ix2 e c := ⟨i 0, i 1, eq_ix2 i⟩
  unfold Cert.KernelIdeal.KerTerm.take32
  rw [select_apply, Cert.LibRowGather.rowbit_apply, srcOk_apply src hsrc e, select_one, srcCol_eq, gatherRec32_eq]

include hsrc in
/-- The same for the 128-column take. -/
private theorem take128_eq (t : (⟨2, ![50000, 128]⟩ : Shape).Idx → EReal) :
    Cert.KernelIdeal.KerTerm.take128 t src
      = Host.gather Cert.ReferenceIdeal.gather_S50000x128_S1650000x1_S1650000x128_1_0_n_n_0_1_1128 t
          (Cert.ReferenceIdeal.RefTerm.srcCol src) := by
  funext i
  obtain ⟨e, c, rfl⟩ : ∃ (e : Fin 1650000) (c : Fin 128), i = ix2 e c := ⟨i 0, i 1, eq_ix2 i⟩
  unfold Cert.KernelIdeal.KerTerm.take128
  rw [select_apply, Cert.LibRowGather.rowbit_apply, srcOk_apply src hsrc e, select_one, srcCol_eq, gatherRec128_eq]

include hsrc in
/-- With every source index in range the two programs' sparse step on a 32-column table is one function. -/
theorem agg32_eq (t : (⟨2, ![50000, 32]⟩ : Shape).Idx → EReal) :
    Cert.KernelIdeal.KerTerm.agg32 t src dst w = Cert.ReferenceIdeal.RefTerm.agg32 t src dst w := by
  unfold Cert.KernelIdeal.KerTerm.agg32 Cert.ReferenceIdeal.RefTerm.agg32
  rw [take32_eq src hsrc t, scatterRec32_eq]
  -- the scaled rows agree entry by entry: the product of extended reals commutes
  refine congrArg (Host.scatterAdd _ _ _) ?_
  funext i
  rw [mulf_apply, mulf_apply]
  exact mul_comm _ _

include hsrc in
/-- The same on a 128-column table. -/
theorem agg128_eq (t : (⟨2, ![50000, 128]⟩ : Shape).Idx → EReal) :
    Cert.KernelIdeal.KerTerm.agg128 t src dst w = Cert.ReferenceIdeal.RefTerm.agg128 t src dst w := by
  unfold Cert.KernelIdeal.KerTerm.agg128 Cert.ReferenceIdeal.RefTerm.agg128
  rw [take128_eq src hsrc t, scatterRec128_eq]
  -- the scaled rows agree entry by entry: the product of extended reals commutes
  refine congrArg (Host.scatterAdd _ _ _) ?_
  funext i
  rw [mulf_apply, mulf_apply]
  exact mul_comm _ _

end Cert.BridgeSparse

end
-- ==== Proof.BridgeHalves.lean ====
/-
  The sparse step acts column by column.

  Entry `(n, c)` of the sparse step's result is the sum, over the edges with destination `n`, of the edge's weight times
  the table's entry at the edge's source row and column `c`: the columns do not mix, so the left (right) half of the
  result for a 32-column table is the result for the table's left (right) half.
-/
import proofs.«409194_j73143293051581_2_alg».proof.Proof.KerTerm
import proofs.«409194_j73143293051581_2_alg».proof.Proof.RefTerm
import proofs.«409194_j73143293051581_2_alg».proof.Proof.Halves
import proofs.«409194_j73143293051581_2_alg».proof.Proof.LibRowGather
import proofs.«409194_j73143293051581_2_alg».proof.Proof.LibRowScatter
import Idealize.ShloMosaic.Lib.ValueIdx
import Idealize.ShloMosaic.PureOps.Ideal.Laws

noncomputable section

namespace Cert.BridgeHalves

open Idealize.ShloMosaic Idealize.ShloMosaic.ValueIdx

variable (src dst : IVec ⟨1, ![1650000]⟩ 32) (w : (⟨1, ![1650000]⟩ : Shape).Idx → EReal)
  (hsrc : ∀ e : Fin 1650000, 0 ≤ (src (ix1 e)).toInt ∧ (src (ix1 e)).toInt < 50000)

section EntryForms
open Cert.ReferenceIdeal Cert.ReferenceIdeal.Gen Cert.ReferenceIdeal.RefTerm Cert.LibRowGather Cert.LibRowScatter

/-- The 32-column scatter record is the row scatter's dimension numbers. -/
private theorem scatter32_eq :
    scatter_S50000x32_S1650000x1_S1650000x32_1_0_0_1
      = rowScatterDims 50000 1650000 32 scatter_S50000x32_S1650000x1_S1650000x32_1_0_0_1_wf := rfl
/-- The 16-column scatter record is the row scatter's dimension numbers. -/
private theorem scatter16_eq :
    scatter_S50000x16_S1650000x1_S1650000x16_1_0_0_1
      = rowScatterDims 50000 1650000 16 scatter_S50000x16_S1650000x1_S1650000x16_1_0_0_1_wf := rfl
/-- The 32-column gather record is the row gather's dimension numbers. -/
private theorem gather32_eq :
    gather_S50000x32_S1650000x1_S1650000x32_1_0_n_n_0_1_132
      = rowGatherDims 50000 1650000 32 gather_S50000x32_S1650000x1_S1650000x32_1_0_n_n_0_1_132_wf := rfl
/-- The 16-column gather record is the row gather's dimension numbers. -/
private theorem gather16_eq :
    gather_S50000x16_S1650000x1_S1650000x16_1_0_n_n_0_1_116
      = rowGatherDims 50000 1650000 16 gather_S50000x16_S1650000x1_S1650000x16_1_0_n_n_0_1_116_wf := rfl

include hsrc in
/-- The source column at edge `e` is the edge's source index, which lies in `[0, 50000)`. -/
private theorem srcCol_range (e : Fin 1650000) :
    0 ≤ (srcCol src (ix2 e (0 : Fin 1))).toInt ∧ (srcCol src (ix2 e (0 : Fin 1))).toInt < (50000 : Nat) := by
  have ha : ∀ e : Fin 1650000, 0 ≤ (src (ix1 e)).toInt ∧ (src (ix1 e)).toInt < (50000 : Nat) := fun e =>
    ⟨(hsrc e).1, by have := (hsrc e).2; omega⟩
  have h : srcCol src (ix2 e (0 : Fin 1)) = src (ix1 e) :=
    idxCol_apply (N := 50000) bcast_S_S1650000 bcast_S1650000_S1650000x1_0 50000#32 src ha e
  rw [h]
  exact ha e

include hsrc in
/-- Entry `(n, c)` of the 32-column sparse step: zero plus, over the edges with destination `n`, the edge's weight times
    the table at the edge's source row, column `c`. -/
private theorem agg32_apply (t : (⟨2, ![50000, 32]⟩ : Shape).Idx → EReal) (n : Fin 50000) (c : Fin 32) :
    agg32 t src dst w (ix2 n c)
      = Ideal.ofBits .f32 0x00000000#32
        + ∑ e ∈ Finset.univ.filter (fun e : Fin 1650000 =>
            (broadcastInDim S1650000x1 ![0] bcast_S1650000_S1650000x1_0 dst (ix2 e (0 : Fin 1))).toInt = (n.val : Int)),
          w (ix1 e) * t (ix2 (rowOf 50000 _ (srcCol_range src hsrc e)) c) := by
  unfold agg32
  rw [scatter32_eq, scatterAdd_rows_apply]
  refine congrArg₂ (fun a b : EReal => a + b) ?_ (Finset.sum_congr rfl fun e _ => ?_)
  · rfl
  · rw [mulf_apply, rows_apply, gather32_eq, gather_rows_apply _ _ _ _ _ (srcCol_range src hsrc e)]

include hsrc in
/-- Entry `(n, c)` of the 16-column sparse step, likewise. -/
private theorem agg16_apply (t : (⟨2, ![50000, 16]⟩ : Shape).Idx → EReal) (n : Fin 50000) (c : Fin 16) :
    agg16 t src dst w (ix2 n c)
      = Ideal.ofBits .f32 0x00000000#32
        + ∑ e ∈ Finset.univ.filter (fun e : Fin 1650000 =>
            (broadcastInDim S1650000x1 ![0] bcast_S1650000_S1650000x1_0 dst (ix2 e (0 : Fin 1))).toInt = (n.val : Int)),
          w (ix1 e) * t (ix2 (rowOf 50000 _ (srcCol_range src hsrc e)) c) := by
  unfold agg16
  rw [scatter16_eq, scatterAdd_rows_apply]
  refine congrArg₂ (fun a b : EReal => a + b) ?_ (Finset.sum_congr rfl fun e _ => ?_)
  · rfl
  · rw [mulf_apply, rows_apply, gather16_eq, gather_rows_apply _ _ _ _ _ (srcCol_range src hsrc e)]

end EntryForms

include hsrc in
/-- The left half of the sparse step's result is the sparse step of the left half. -/
theorem agg32_left (t : (⟨2, ![50000, 32]⟩ : Shape).Idx → EReal) :
    Cert.KernelIdeal.KerTerm.left16 (Cert.ReferenceIdeal.RefTerm.agg32 t src dst w) = Cert.ReferenceIdeal.RefTerm.agg16 (Cert.KernelIdeal.KerTerm.left16 t) src dst w := by
  funext i
  obtain ⟨n, c, rfl⟩ : ∃ (n : Fin 50000) (c : Fin 16), i = ix2 n c := ⟨i 0, i 1, eq_ix2 i⟩
  -- both sides are the same sum over the edges with destination `n`, the table read at column `c`
  refine (agg32_apply src dst w hsrc t n ⟨c.val, by have := c.isLt; omega⟩).trans ?_
  rw [agg16_apply src dst w hsrc]
  rfl

include hsrc in
/-- The right half of the sparse step's result is the sparse step of the right half. -/
theorem agg32_right (t : (⟨2, ![50000, 32]⟩ : Shape).Idx → EReal) :
    Cert.Halves.right16 (Cert.ReferenceIdeal.RefTerm.agg32 t src dst w) = Cert.ReferenceIdeal.RefTerm.agg16 (Cert.Halves.right16 t) src dst w := by
  funext i
  obtain ⟨n, c, rfl⟩ : ∃ (n : Fin 50000) (c : Fin 16), i = ix2 n c := ⟨i 0, i 1, eq_ix2 i⟩
  -- both sides are the same sum over the edges with destination `n`, the table read at column `c + 16`
  refine (agg32_apply src dst w hsrc t n ⟨c.val + 16, by have := c.isLt; omega⟩).trans ?_
  rw [agg16_apply src dst w hsrc]
  rfl

end Cert.BridgeHalves

end
-- ==== Proof.Bridge.lean ====
/-
  The two programs compute the same three arrays.

  With every source index in range, the sparse step is one function in both programs and acts column by column; the
  dense steps are the same sums, clamps and `elu + 1`. The kernel's program runs the second and third convolutions as
  ONE 32-column convolution over the two encoder matrices side by side and splits the result; since neither the
  product nor the sparse step mixes columns, the halves of that result are the reference's two 16-column
  convolutions. Everything downstream is then the same composition on both sides.
-/
import proofs.«409194_j73143293051581_2_alg».proof.Proof.BridgeDense
import proofs.«409194_j73143293051581_2_alg».proof.Proof.BridgeSparse
import proofs.«409194_j73143293051581_2_alg».proof.Proof.BridgeHalves

noncomputable section

namespace Cert.Bridge

open Idealize.ShloMosaic Idealize.ShloMosaic.ValueIdx

variable (x : (⟨2, ![50000, 128]⟩ : Shape).Idx → EReal) (src dst : IVec ⟨1, ![1650000]⟩ 32)
  (w : (⟨1, ![1650000]⟩ : Shape).Idx → EReal) (u : (⟨2, ![50000, 16]⟩ : Shape).Idx → EReal)
  (w1 : (⟨2, ![128, 32]⟩ : Shape).Idx → EReal) (wm ws : (⟨2, ![32, 16]⟩ : Shape).Idx → EReal)
  (wd : (⟨2, ![16, 32]⟩ : Shape).Idx → EReal) (wo : (⟨2, ![32, 128]⟩ : Shape).Idx → EReal)
  (hsrc : ∀ e : Fin 1650000, 0 ≤ (src (ix1 e)).toInt ∧ (src (ix1 e)).toInt < 50000)

include hsrc in
/-- The clamped first aggregation is the reference's hidden layer. -/
theorem hidden_eq : Cert.KernelIdeal.KerTerm.relu (Cert.KernelIdeal.KerTerm.agg1 x src dst w w1) = Cert.ReferenceIdeal.RefTerm.hidden x src dst w w1 := by
  unfold Cert.KernelIdeal.KerTerm.agg1 Cert.KernelIdeal.KerTerm.sup1 Cert.ReferenceIdeal.RefTerm.hidden
  rw [Cert.BridgeSparse.agg32_eq src dst w hsrc, Cert.BridgeDense.dot_x_w1, Cert.BridgeDense.relu32_eq]

include hsrc in
/-- The left half of the fused 32-column convolution is the reference's second convolution. -/
theorem means_eq : Cert.KernelIdeal.KerTerm.means x src dst w w1 wm ws = Cert.ReferenceIdeal.RefTerm.means x src dst w w1 wm := by
  unfold Cert.KernelIdeal.KerTerm.means Cert.KernelIdeal.KerTerm.aggMS Cert.KernelIdeal.KerTerm.supMS Cert.ReferenceIdeal.RefTerm.means
  rw [Cert.BridgeSparse.agg32_eq src dst w hsrc, Cert.BridgeHalves.agg32_left src dst w hsrc, Cert.BridgeDense.mm_wcat_left, hidden_eq x src dst w w1 hsrc,
    Cert.BridgeDense.dot_h_w16]

include hsrc in
/-- The right half of the fused 32-column convolution is the reference's third convolution. -/
theorem sraw_eq : Cert.Halves.right16 (Cert.KernelIdeal.KerTerm.aggMS x src dst w w1 wm ws)
    = Cert.ReferenceIdeal.RefTerm.agg16 (Host.dotGeneral (F := Ideal) (φ₁ := .f32) (φ₂ := .f32) Cert.ReferenceIdeal.dot_S50000x32_S32x16_S50000x16_1_0_0_1_n_n none (Cert.ReferenceIdeal.RefTerm.hidden x src dst w w1) ws) src dst w := by
  unfold Cert.KernelIdeal.KerTerm.aggMS Cert.KernelIdeal.KerTerm.supMS
  rw [Cert.BridgeSparse.agg32_eq src dst w hsrc, Cert.BridgeHalves.agg32_right src dst w hsrc, Cert.BridgeDense.mm_wcat_right, hidden_eq x src dst w w1 hsrc,
    Cert.BridgeDense.dot_h_w16]

include hsrc in
/-- `elu + 1` of the right half is the reference's deviations. -/
theorem std_eq : Cert.KernelIdeal.KerTerm.std x src dst w w1 wm ws = Cert.ReferenceIdeal.RefTerm.std x src dst w w1 ws := by
  unfold Cert.KernelIdeal.KerTerm.std Cert.ReferenceIdeal.RefTerm.std
  rw [Cert.Halves.right16elu_eq, sraw_eq x src dst w w1 wm ws hsrc, Cert.BridgeDense.elu16_add_one]

include hsrc in
/-- The mix is the reference's code. -/
theorem enc_eq : Cert.KernelIdeal.KerTerm.enc x src dst w u w1 wm ws = Cert.ReferenceIdeal.RefTerm.enc x src dst w u w1 wm ws := by
  funext i
  -- both codes, at an entry, are means plus deviations times noise
  have hR : Cert.ReferenceIdeal.RefTerm.enc x src dst w u w1 wm ws i
      = Cert.ReferenceIdeal.RefTerm.means x src dst w w1 wm i + Cert.ReferenceIdeal.RefTerm.std x src dst w w1 ws i * u i :=
    (ValueIdx.addf_apply (Cert.ReferenceIdeal.RefTerm.means x src dst w w1 wm) (mulf (Cert.ReferenceIdeal.RefTerm.std x src dst w w1 ws) u) i).trans
      (congrArg (fun t => Cert.ReferenceIdeal.RefTerm.means x src dst w w1 wm i + t) (ValueIdx.mulf_apply (Cert.ReferenceIdeal.RefTerm.std x src dst w w1 ws) u i))
  have hK : Cert.KernelIdeal.KerTerm.enc x src dst w u w1 wm ws i
      = Cert.KernelIdeal.KerTerm.means x src dst w w1 wm ws i + Cert.KernelIdeal.KerTerm.std x src dst w w1 wm ws i * u i := by
    unfold Cert.KernelIdeal.KerTerm.enc Cert.KernelIdeal.KerTerm.mix Cert.KernelIdeal.KerTerm.means Cert.KernelIdeal.KerTerm.std
    rfl
  rw [hK, hR, means_eq x src dst w w1 wm ws hsrc, std_eq x src dst w w1 wm ws hsrc]

include hsrc in
/-- The clamped third aggregation is the reference's decoder layer. -/
theorem decoded_eq : Cert.KernelIdeal.KerTerm.relu (Cert.KernelIdeal.KerTerm.aggD x src dst w u w1 wm ws wd) = Cert.ReferenceIdeal.RefTerm.decoded x src dst w u w1 wm ws wd := by
  unfold Cert.KernelIdeal.KerTerm.aggD Cert.KernelIdeal.KerTerm.supD Cert.ReferenceIdeal.RefTerm.decoded
  rw [Cert.BridgeSparse.agg32_eq src dst w hsrc, enc_eq x src dst w u w1 wm ws hsrc, Cert.BridgeDense.dot_e_wd, Cert.BridgeDense.relu32_eq]

include hsrc in
/-- The predictions agree. -/
theorem pred_eq : Cert.KernelIdeal.KerTerm.pred x src dst w u w1 wm ws wd wo = Cert.ReferenceIdeal.RefTerm.pred x src dst w u w1 wm ws wd wo := by
  unfold Cert.KernelIdeal.KerTerm.pred Cert.KernelIdeal.KerTerm.aggO Cert.KernelIdeal.KerTerm.supO Cert.ReferenceIdeal.RefTerm.pred
  rw [Cert.BridgeSparse.agg128_eq src dst w hsrc, decoded_eq x src dst w u w1 wm ws wd hsrc, Cert.BridgeDense.dot_d_wo, Cert.BridgeDense.relu128_eq]

end Cert.Bridge

end
-- ==== Proof.PreDecode.lean ====
/-
  What the precondition says of the source indices: every edge's source index lies in `[0, 50000)`.

  The precondition is a conjunction, its last conjunct the `and`-reduction over all edges of
  `0 ≤ src e` and `src e < 50000` (both signed). A conjunction that is one has its last conjunct one; an `and`-reduction
  that is one had a one at every edge; and the two signed comparisons read as inequalities of integers.
-/
import proofs.«409194_j73143293051581_2_alg».proof.Pre_finite_inputs
import proofs.«409194_j73143293051581_2_alg».proof.Proof.Gen.Pre_finite_inputs
import Idealize.ShloMosaic.Lib.ReduceAll
import Idealize.ShloMosaic.Lib.ValueIdx
import Idealize.ShloMosaic.Lib.Affine

noncomputable section

namespace Cert.PreDecode

open Idealize.ShloMosaic Idealize.ShloMosaic.ValueIdx Cert.Pre_finite_inputs Cert.Pre_finite_inputs.Gen

instance : Subsingleton (⟨0, ![]⟩ : Shape).Idx := ⟨fun a b => funext fun d => d.elim0⟩

/-- A bit made from a Boolean is one only when the Boolean is true. -/
theorem ofBool_one {c : Bool} (h : BitVec.ofBool c = 1#1) : c = true := by
  cases c
  · exact absurd h (by decide)
  · rfl

/-- A signed `≥` test that is one says the integers are so ordered. -/
theorem sge_one {a b : BitVec 32} (h : IntOp.cmpi .sge a b = 1#1) : b.toInt ≤ a.toInt :=
  BitVec.sle_iff_toInt_le.mp (ofBool_one (show BitVec.ofBool (b.sle a) = 1#1 from h))

/-- A signed `<` test that is one says the integers are so ordered. -/
theorem slt_one {a b : BitVec 32} (h : IntOp.cmpi .slt a b = 1#1) : a.toInt < b.toInt :=
  BitVec.slt_iff_toInt_lt.mp (ofBool_one (show BitVec.ofBool (a.slt b) = 1#1 from h))

/-- Under the precondition every source index lies in `[0, 50000)`. -/
theorem src_range {F : FTy → Type} [FloatOps F]
    (a0 : FVec F S50000x128 .f32) (a1 a2 : IVec S1650000 32) (a3 : FVec F S1650000 .f32) (a4 : FVec F S50000x16 .f32)
    (a5 : FVec F S128x32 .f32) (a6 a7 : FVec F S32x16 .f32) (a8 : FVec F S16x32 .f32) (a9 : FVec F S32x128 .f32)
    (h : fn (F := F) a0 a1 a2 a3 a4 a5 a6 a7 a8 a9 = fun _ => 1#1) (e : Fin 1650000) :
    0 ≤ (a1 (ix1 e)).toInt ∧ (a1 (ix1 e)).toInt < 50000 := by
  have h0 := congrFun h ix0
  dsimp only [fn, fn_part1, fn_part2] at h0
  have h1 := (IntOp.andi_eq_one.mp h0).2
  have h2 := Host.reduce_andi_all _ _ _ _ ix0 h1 (ix1 e)
  obtain ⟨hge, hlt⟩ := IntOp.andi_eq_one.mp h2
  exact ⟨sge_one hge, slt_one hlt⟩

end Cert.PreDecode

end
-- ==== Proof.lean ====
/-
  A two-layer graph autoencoder with a stochastic code: five graph convolutions `A · (H W)` over an edge list (gather
  the rows of `H W` by source, scale by the edge weight, add up by destination), a clamp at zero after the first,
  fourth and fifth, `elu + 1` after the third, and the code `means + deviations · noise` between the encoder and the
  decoder. The kernel's program computes the dense products, clamps, `elu + 1` and the mix in six row-tiled regions
  (the second and third convolutions fused into ONE 32-column convolution over the two encoder matrices side by side,
  split afterwards) and the sparse step between them on whole arrays; the reference computes everything on whole
  arrays. Over the extended reals, with every float input finite and every source index inside the node table, the
  three results agree: the products are the same sums, neither a product nor the sparse step mixes columns (so the
  halves of the fused convolution are the two separate ones), a filled out-of-range row never occurs, and the
  remaining steps are the same functions entry by entry.
-/
import proofs.«409194_j73143293051581_2_alg».proof.Defs
import proofs.«409194_j73143293051581_2_alg».proof.Proof.Gen.Kernel
import proofs.«409194_j73143293051581_2_alg».proof.Proof.Gen.Kernel.Skeleton
import proofs.«409194_j73143293051581_2_alg».proof.Proof.Gen.Kernel.Launch
import proofs.«409194_j73143293051581_2_alg».proof.Proof.Gen.Kernel.Points
import proofs.«409194_j73143293051581_2_alg».proof.Proof.Gen.Kernel.Frame
import proofs.«409194_j73143293051581_2_alg».proof.Proof.Gen.KernelIdeal
import proofs.«409194_j73143293051581_2_alg».proof.Proof.Gen.KernelIdeal.Skeleton
import proofs.«409194_j73143293051581_2_alg».proof.Proof.Gen.KernelIdeal.Launch
import proofs.«409194_j73143293051581_2_alg».proof.Proof.Gen.KernelIdeal.Points
import proofs.«409194_j73143293051581_2_alg».proof.Proof.Gen.KernelIdeal.Frame
import proofs.«409194_j73143293051581_2_alg».proof.Proof.Gen.ReferenceIdeal
import proofs.«409194_j73143293051581_2_alg».proof.Proof.Gen.Pre_finite_inputs
import proofs.«409194_j73143293051581_2_alg».proof.Proof.KerChain
import proofs.«409194_j73143293051581_2_alg».proof.Proof.RefRun
import proofs.«409194_j73143293051581_2_alg».proof.Proof.Bridge
import proofs.«409194_j73143293051581_2_alg».proof.Proof.PreDecode
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- The idealized kernel program runs and leaves its arguments unchanged. -/
theorem frame_kernelIdeal : Cert.frame_KernelIdeal := fun m ρ _ => Cert.KernelIdeal.Gen.frame m ρ

/-- The idealized reference runs and leaves its arguments unchanged: its run with the results dropped. -/
theorem frame_referenceIdeal : Cert.frame_ReferenceIdeal := fun m ρ _ =>
  (θ_run (Cert.ReferenceIdeal.defs (F := Ideal)) _ _).mono (fun _ h c => (h c).2.2.2)
    (Cert.ReferenceIdeal.RefRun.run m ρ)

/-- The ideal pass rewrote nothing: the idealization is the program's own text read over the extended reals. -/
theorem preserves : Cert.preserves_Kernel_KernelIdeal := trivial

/-- Run from memories that agree on the arguments, under the precondition, the two idealized programs end with
    equal results: the kernel program's arrays are KerTerm's functions of the arguments, the reference's are
    RefTerm's, and with every source index in range (the precondition's last conjunct) these are equal. -/
theorem algebraic : Cert.algebraic_KernelIdeal_ReferenceIdeal := by
  intro m ρ m' ρ' hpre hagree
  refine ⟨fun c => Cert.KernelIdeal.KerTerm.pred (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.KernelIdeal.KerTerm.means (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.KernelIdeal.KerTerm.std (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.KerChain.run m ρ, ?_⟩
  refine (θ_run (Cert.ReferenceIdeal.defs (F := Ideal)) _ _).mono (fun r h c => ?_) (Cert.ReferenceIdeal.RefRun.run m' ρ')
  obtain ⟨h1, h2, h3, hargs⟩ := h c
  obtain ⟨e0, e1, e2, e3, e4, e5, e6, e7, e8, e9⟩ := hagree c
  have hsrc : ∀ e : Fin 1650000, 0 ≤ ((m ((c.tc : Thread Cert.KernelIdeal.nD Cert.KernelIdeal.τ).loc Cert.KernelIdeal.main_arg1)) (ValueIdx.ix1 e)).toInt
      ∧ ((m ((c.tc : Thread Cert.KernelIdeal.nD Cert.KernelIdeal.τ).loc Cert.KernelIdeal.main_arg1)) (ValueIdx.ix1 e)).toInt < 50000 :=
    fun e => Cert.PreDecode.src_range _ _ _ _ _ _ _ _ _ _ (hpre c) e
  refine ⟨?_, ?_, ?_, hargs⟩
  · rw [h1, e0, e1, e2, e3, e4, e5, e6, e7, e8, e9]
    exact (Cert.Bridge.pred_eq _ _ _ _ _ _ _ _ _ _ hsrc).symm
  · rw [h2, e0, e1, e2, e3, e5, e6]
    exact (Cert.Bridge.means_eq _ _ _ _ _ _ _ hsrc).symm
  · rw [h3, e0, e1, e2, e3, e5, e7]
    exact (Cert.Bridge.std_eq _ _ _ _ _ _ _ hsrc).symm

/-- The certificate's claim: the three frames, the (empty) idealization ledger, and the equality of results. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
